-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S32768x512 : Shape := ⟨2, ![32768, 512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel

variable [Facts]

def fn {F : FTy → Type} [FloatOps F] (main_arg0 : FVec F S32768x512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  main_v3
-- ==== Kernel.lean ====
abbrev S1024x512 : Shape := ⟨2, ![1024, 512]⟩
abbrev S1x512 : Shape := ⟨2, ![1, 512]⟩
abbrev S32x1x512 : Shape := ⟨3, ![32, 1, 512]⟩
abbrev S32 : Shape := ⟨1, ![32]⟩
abbrev S_ : Shape := ⟨0, ![]⟩
abbrev S512 : Shape := ⟨1, ![512]⟩
abbrev S1x1x512 : Shape := ⟨3, ![1, 1, 512]⟩
abbrev S1 : Shape := ⟨1, ![1]⟩
abbrev S32x512 : Shape := ⟨2, ![32, 512]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S1x512, .f32⟩
  | .local _ .vmem, ⟨0, _⟩ => ⟨S1024x512, .f32⟩
  | .local _ .vmem, ⟨1, _⟩ => ⟨S1x512, .f32⟩
  | .local _ .vmem, ⟨2, _⟩ => ⟨S32x1x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_dev32 (d0 : Dev nD) : Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_129 : BitVec 32 := 1#32
  let v134 : BitVec 32 := Scalar.addi v2 c1_i32_129
  let c32_i32_130 : BitVec 32 := 32#32
  let v135 : BitVec 32 := Scalar.remsi v134 c32_i32_130
  let c1_i32_135 : BitVec 32 := 1#32
  let v136 : BitVec 32 := Scalar.muli v135 c1_i32_135
  let v137 : BitVec 32 := Scalar.addi c0_i32_136 v136
  v137.toNat
def k0_dev33 (d0 : Dev nD) : Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_141 : BitVec 32 := 2#32
  let v146 : BitVec 32 := Scalar.addi v2 c2_i32_141
  let c32_i32_142 : BitVec 32 := 32#32
  let v147 : BitVec 32 := Scalar.remsi v146 c32_i32_142
  let c1_i32_147 : BitVec 32 := 1#32
  let v148 : BitVec 32 := Scalar.muli v147 c1_i32_147
  let v149 : BitVec 32 := Scalar.addi c0_i32_148 v148
  v149.toNat
def k0_dev34 (d0 : Dev nD) : Nat :=
  let c0_i32_160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_153 : BitVec 32 := 3#32
  let v158 : BitVec 32 := Scalar.addi v2 c3_i32_153
  let c32_i32_154 : BitVec 32 := 32#32
  let v159 : BitVec 32 := Scalar.remsi v158 c32_i32_154
  let c1_i32_159 : BitVec 32 := 1#32
  let v160 : BitVec 32 := Scalar.muli v159 c1_i32_159
  let v161 : BitVec 32 := Scalar.addi c0_i32_160 v160
  v161.toNat
def k0_dev35 (d0 : Dev nD) : Nat :=
  let c0_i32_172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_165 : BitVec 32 := 4#32
  let v170 : BitVec 32 := Scalar.addi v2 c4_i32_165
  let c32_i32_166 : BitVec 32 := 32#32
  let v171 : BitVec 32 := Scalar.remsi v170 c32_i32_166
  let c1_i32_171 : BitVec 32 := 1#32
  let v172 : BitVec 32 := Scalar.muli v171 c1_i32_171
  let v173 : BitVec 32 := Scalar.addi c0_i32_172 v172
  v173.toNat
def k0_dev36 (d0 : Dev nD) : Nat :=
  let c0_i32_184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_177 : BitVec 32 := 5#32
  let v182 : BitVec 32 := Scalar.addi v2 c5_i32_177
  let c32_i32_178 : BitVec 32 := 32#32
  let v183 : BitVec 32 := Scalar.remsi v182 c32_i32_178
  let c1_i32_183 : BitVec 32 := 1#32
  let v184 : BitVec 32 := Scalar.muli v183 c1_i32_183
  let v185 : BitVec 32 := Scalar.addi c0_i32_184 v184
  v185.toNat
def k0_dev37 (d0 : Dev nD) : Nat :=
  let c0_i32_196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_189 : BitVec 32 := 6#32
  let v194 : BitVec 32 := Scalar.addi v2 c6_i32_189
  let c32_i32_190 : BitVec 32 := 32#32
  let v195 : BitVec 32 := Scalar.remsi v194 c32_i32_190
  let c1_i32_195 : BitVec 32 := 1#32
  let v196 : BitVec 32 := Scalar.muli v195 c1_i32_195
  let v197 : BitVec 32 := Scalar.addi c0_i32_196 v196
  v197.toNat
def k0_dev38 (d0 : Dev nD) : Nat :=
  let c0_i32_208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_201 : BitVec 32 := 7#32
  let v206 : BitVec 32 := Scalar.addi v2 c7_i32_201
  let c32_i32_202 : BitVec 32 := 32#32
  let v207 : BitVec 32 := Scalar.remsi v206 c32_i32_202
  let c1_i32_207 : BitVec 32 := 1#32
  let v208 : BitVec 32 := Scalar.muli v207 c1_i32_207
  let v209 : BitVec 32 := Scalar.addi c0_i32_208 v208
  v209.toNat
def k0_dev39 (d0 : Dev nD) : Nat :=
  let c0_i32_220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_213 : BitVec 32 := 8#32
  let v218 : BitVec 32 := Scalar.addi v2 c8_i32_213
  let c32_i32_214 : BitVec 32 := 32#32
  let v219 : BitVec 32 := Scalar.remsi v218 c32_i32_214
  let c1_i32_219 : BitVec 32 := 1#32
  let v220 : BitVec 32 := Scalar.muli v219 c1_i32_219
  let v221 : BitVec 32 := Scalar.addi c0_i32_220 v220
  v221.toNat
def k0_dev40 (d0 : Dev nD) : Nat :=
  let c0_i32_232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_225 : BitVec 32 := 9#32
  let v230 : BitVec 32 := Scalar.addi v2 c9_i32_225
  let c32_i32_226 : BitVec 32 := 32#32
  let v231 : BitVec 32 := Scalar.remsi v230 c32_i32_226
  let c1_i32_231 : BitVec 32 := 1#32
  let v232 : BitVec 32 := Scalar.muli v231 c1_i32_231
  let v233 : BitVec 32 := Scalar.addi c0_i32_232 v232
  v233.toNat
def k0_dev41 (d0 : Dev nD) : Nat :=
  let c0_i32_244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_237 : BitVec 32 := 10#32
  let v242 : BitVec 32 := Scalar.addi v2 c10_i32_237
  let c32_i32_238 : BitVec 32 := 32#32
  let v243 : BitVec 32 := Scalar.remsi v242 c32_i32_238
  let c1_i32_243 : BitVec 32 := 1#32
  let v244 : BitVec 32 := Scalar.muli v243 c1_i32_243
  let v245 : BitVec 32 := Scalar.addi c0_i32_244 v244
  v245.toNat
def k0_dev42 (d0 : Dev nD) : Nat :=
  let c0_i32_256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_249 : BitVec 32 := 11#32
  let v254 : BitVec 32 := Scalar.addi v2 c11_i32_249
  let c32_i32_250 : BitVec 32 := 32#32
  let v255 : BitVec 32 := Scalar.remsi v254 c32_i32_250
  let c1_i32_255 : BitVec 32 := 1#32
  let v256 : BitVec 32 := Scalar.muli v255 c1_i32_255
  let v257 : BitVec 32 := Scalar.addi c0_i32_256 v256
  v257.toNat
def k0_dev43 (d0 : Dev nD) : Nat :=
  let c0_i32_268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_261 : BitVec 32 := 12#32
  let v266 : BitVec 32 := Scalar.addi v2 c12_i32_261
  let c32_i32_262 : BitVec 32 := 32#32
  let v267 : BitVec 32 := Scalar.remsi v266 c32_i32_262
  let c1_i32_267 : BitVec 32 := 1#32
  let v268 : BitVec 32 := Scalar.muli v267 c1_i32_267
  let v269 : BitVec 32 := Scalar.addi c0_i32_268 v268
  v269.toNat
def k0_dev44 (d0 : Dev nD) : Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_273 : BitVec 32 := 13#32
  let v278 : BitVec 32 := Scalar.addi v2 c13_i32_273
  let c32_i32_274 : BitVec 32 := 32#32
  let v279 : BitVec 32 := Scalar.remsi v278 c32_i32_274
  let c1_i32_279 : BitVec 32 := 1#32
  let v280 : BitVec 32 := Scalar.muli v279 c1_i32_279
  let v281 : BitVec 32 := Scalar.addi c0_i32_280 v280
  v281.toNat
def k0_dev45 (d0 : Dev nD) : Nat :=
  let c0_i32_292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_285 : BitVec 32 := 14#32
  let v290 : BitVec 32 := Scalar.addi v2 c14_i32_285
  let c32_i32_286 : BitVec 32 := 32#32
  let v291 : BitVec 32 := Scalar.remsi v290 c32_i32_286
  let c1_i32_291 : BitVec 32 := 1#32
  let v292 : BitVec 32 := Scalar.muli v291 c1_i32_291
  let v293 : BitVec 32 := Scalar.addi c0_i32_292 v292
  v293.toNat
def k0_dev46 (d0 : Dev nD) : Nat :=
  let c0_i32_304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_297 : BitVec 32 := 15#32
  let v302 : BitVec 32 := Scalar.addi v2 c15_i32_297
  let c32_i32_298 : BitVec 32 := 32#32
  let v303 : BitVec 32 := Scalar.remsi v302 c32_i32_298
  let c1_i32_303 : BitVec 32 := 1#32
  let v304 : BitVec 32 := Scalar.muli v303 c1_i32_303
  let v305 : BitVec 32 := Scalar.addi c0_i32_304 v304
  v305.toNat
def k0_dev47 (d0 : Dev nD) : Nat :=
  let c0_i32_316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_309 : BitVec 32 := 16#32
  let v314 : BitVec 32 := Scalar.addi v2 c16_i32_309
  let c32_i32_310 : BitVec 32 := 32#32
  let v315 : BitVec 32 := Scalar.remsi v314 c32_i32_310
  let c1_i32_315 : BitVec 32 := 1#32
  let v316 : BitVec 32 := Scalar.muli v315 c1_i32_315
  let v317 : BitVec 32 := Scalar.addi c0_i32_316 v316
  v317.toNat
def k0_dev48 (d0 : Dev nD) : Nat :=
  let c0_i32_328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_321 : BitVec 32 := 17#32
  let v326 : BitVec 32 := Scalar.addi v2 c17_i32_321
  let c32_i32_322 : BitVec 32 := 32#32
  let v327 : BitVec 32 := Scalar.remsi v326 c32_i32_322
  let c1_i32_327 : BitVec 32 := 1#32
  let v328 : BitVec 32 := Scalar.muli v327 c1_i32_327
  let v329 : BitVec 32 := Scalar.addi c0_i32_328 v328
  v329.toNat
def k0_dev49 (d0 : Dev nD) : Nat :=
  let c0_i32_340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_333 : BitVec 32 := 18#32
  let v338 : BitVec 32 := Scalar.addi v2 c18_i32_333
  let c32_i32_334 : BitVec 32 := 32#32
  let v339 : BitVec 32 := Scalar.remsi v338 c32_i32_334
  let c1_i32_339 : BitVec 32 := 1#32
  let v340 : BitVec 32 := Scalar.muli v339 c1_i32_339
  let v341 : BitVec 32 := Scalar.addi c0_i32_340 v340
  v341.toNat
def k0_dev50 (d0 : Dev nD) : Nat :=
  let c0_i32_352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_345 : BitVec 32 := 19#32
  let v350 : BitVec 32 := Scalar.addi v2 c19_i32_345
  let c32_i32_346 : BitVec 32 := 32#32
  let v351 : BitVec 32 := Scalar.remsi v350 c32_i32_346
  let c1_i32_351 : BitVec 32 := 1#32
  let v352 : BitVec 32 := Scalar.muli v351 c1_i32_351
  let v353 : BitVec 32 := Scalar.addi c0_i32_352 v352
  v353.toNat
def k0_dev51 (d0 : Dev nD) : Nat :=
  let c0_i32_364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_357 : BitVec 32 := 20#32
  let v362 : BitVec 32 := Scalar.addi v2 c20_i32_357
  let c32_i32_358 : BitVec 32 := 32#32
  let v363 : BitVec 32 := Scalar.remsi v362 c32_i32_358
  let c1_i32_363 : BitVec 32 := 1#32
  let v364 : BitVec 32 := Scalar.muli v363 c1_i32_363
  let v365 : BitVec 32 := Scalar.addi c0_i32_364 v364
  v365.toNat
def k0_dev52 (d0 : Dev nD) : Nat :=
  let c0_i32_376 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_369 : BitVec 32 := 21#32
  let v374 : BitVec 32 := Scalar.addi v2 c21_i32_369
  let c32_i32_370 : BitVec 32 := 32#32
  let v375 : BitVec 32 := Scalar.remsi v374 c32_i32_370
  let c1_i32_375 : BitVec 32 := 1#32
  let v376 : BitVec 32 := Scalar.muli v375 c1_i32_375
  let v377 : BitVec 32 := Scalar.addi c0_i32_376 v376
  v377.toNat
def k0_dev53 (d0 : Dev nD) : Nat :=
  let c0_i32_388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_381 : BitVec 32 := 22#32
  let v386 : BitVec 32 := Scalar.addi v2 c22_i32_381
  let c32_i32_382 : BitVec 32 := 32#32
  let v387 : BitVec 32 := Scalar.remsi v386 c32_i32_382
  let c1_i32_387 : BitVec 32 := 1#32
  let v388 : BitVec 32 := Scalar.muli v387 c1_i32_387
  let v389 : BitVec 32 := Scalar.addi c0_i32_388 v388
  v389.toNat
def k0_dev54 (d0 : Dev nD) : Nat :=
  let c0_i32_400 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_393 : BitVec 32 := 23#32
  let v398 : BitVec 32 := Scalar.addi v2 c23_i32_393
  let c32_i32_394 : BitVec 32 := 32#32
  let v399 : BitVec 32 := Scalar.remsi v398 c32_i32_394
  let c1_i32_399 : BitVec 32 := 1#32
  let v400 : BitVec 32 := Scalar.muli v399 c1_i32_399
  let v401 : BitVec 32 := Scalar.addi c0_i32_400 v400
  v401.toNat
def k0_dev55 (d0 : Dev nD) : Nat :=
  let c0_i32_412 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_405 : BitVec 32 := 24#32
  let v410 : BitVec 32 := Scalar.addi v2 c24_i32_405
  let c32_i32_406 : BitVec 32 := 32#32
  let v411 : BitVec 32 := Scalar.remsi v410 c32_i32_406
  let c1_i32_411 : BitVec 32 := 1#32
  let v412 : BitVec 32 := Scalar.muli v411 c1_i32_411
  let v413 : BitVec 32 := Scalar.addi c0_i32_412 v412
  v413.toNat
def k0_dev56 (d0 : Dev nD) : Nat :=
  let c0_i32_424 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_417 : BitVec 32 := 25#32
  let v422 : BitVec 32 := Scalar.addi v2 c25_i32_417
  let c32_i32_418 : BitVec 32 := 32#32
  let v423 : BitVec 32 := Scalar.remsi v422 c32_i32_418
  let c1_i32_423 : BitVec 32 := 1#32
  let v424 : BitVec 32 := Scalar.muli v423 c1_i32_423
  let v425 : BitVec 32 := Scalar.addi c0_i32_424 v424
  v425.toNat
def k0_dev57 (d0 : Dev nD) : Nat :=
  let c0_i32_436 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_429 : BitVec 32 := 26#32
  let v434 : BitVec 32 := Scalar.addi v2 c26_i32_429
  let c32_i32_430 : BitVec 32 := 32#32
  let v435 : BitVec 32 := Scalar.remsi v434 c32_i32_430
  let c1_i32_435 : BitVec 32 := 1#32
  let v436 : BitVec 32 := Scalar.muli v435 c1_i32_435
  let v437 : BitVec 32 := Scalar.addi c0_i32_436 v436
  v437.toNat
def k0_dev58 (d0 : Dev nD) : Nat :=
  let c0_i32_448 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_441 : BitVec 32 := 27#32
  let v446 : BitVec 32 := Scalar.addi v2 c27_i32_441
  let c32_i32_442 : BitVec 32 := 32#32
  let v447 : BitVec 32 := Scalar.remsi v446 c32_i32_442
  let c1_i32_447 : BitVec 32 := 1#32
  let v448 : BitVec 32 := Scalar.muli v447 c1_i32_447
  let v449 : BitVec 32 := Scalar.addi c0_i32_448 v448
  v449.toNat
def k0_dev59 (d0 : Dev nD) : Nat :=
  let c0_i32_460 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_453 : BitVec 32 := 28#32
  let v458 : BitVec 32 := Scalar.addi v2 c28_i32_453
  let c32_i32_454 : BitVec 32 := 32#32
  let v459 : BitVec 32 := Scalar.remsi v458 c32_i32_454
  let c1_i32_459 : BitVec 32 := 1#32
  let v460 : BitVec 32 := Scalar.muli v459 c1_i32_459
  let v461 : BitVec 32 := Scalar.addi c0_i32_460 v460
  v461.toNat
def k0_dev60 (d0 : Dev nD) : Nat :=
  let c0_i32_472 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_465 : BitVec 32 := 29#32
  let v470 : BitVec 32 := Scalar.addi v2 c29_i32_465
  let c32_i32_466 : BitVec 32 := 32#32
  let v471 : BitVec 32 := Scalar.remsi v470 c32_i32_466
  let c1_i32_471 : BitVec 32 := 1#32
  let v472 : BitVec 32 := Scalar.muli v471 c1_i32_471
  let v473 : BitVec 32 := Scalar.addi c0_i32_472 v472
  v473.toNat
def k0_dev61 (d0 : Dev nD) : Nat :=
  let c0_i32_484 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_477 : BitVec 32 := 30#32
  let v482 : BitVec 32 := Scalar.addi v2 c30_i32_477
  let c32_i32_478 : BitVec 32 := 32#32
  let v483 : BitVec 32 := Scalar.remsi v482 c32_i32_478
  let c1_i32_483 : BitVec 32 := 1#32
  let v484 : BitVec 32 := Scalar.muli v483 c1_i32_483
  let v485 : BitVec 32 := Scalar.addi c0_i32_484 v484
  v485.toNat
def k0_dev62 (d0 : Dev nD) : Nat :=
  let c0_i32_496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_489 : BitVec 32 := 31#32
  let v494 : BitVec 32 := Scalar.addi v2 c31_i32_489
  let c32_i32_490 : BitVec 32 := 32#32
  let v495 : BitVec 32 := Scalar.remsi v494 c32_i32_490
  let c1_i32_495 : BitVec 32 := 1#32
  let v496 : BitVec 32 := Scalar.muli v495 c1_i32_495
  let v497 : BitVec 32 := Scalar.addi c0_i32_496 v496
  v497.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S512 : S1024x512.Reduces [0] S512
  inb_S32x1x512_S1x1x512_0_0_0 : ∀ a, (![0, 0, 0] : Fin 3 → Nat) a + S1x1x512.size a ≤ S32x1x512.size a
  h_S1x1x512 : 0 < S1x1x512.numel
  shapeCasts_S1x1x512_S512 : S1x1x512.ShapeCasts S512
  shapeCasts_S512_S1x1x512 : S512.ShapeCasts S1x1x512
  hamt_31 : (31#32 : BitVec 32).msb = false
  inb_S32_S1_1 : ∀ a, (![1] : Fin 1 → Nat) a + S1.size a ≤ S32.size a
  squeezes_S1_S_ : S1.Squeezes S_
  inb_S32x1x512_S1x1x512_1_0_0 : ∀ a, (![1, 0, 0] : Fin 3 → Nat) a + S1x1x512.size a ≤ S32x1x512.size a
  squeezes_S1x1x512_S1x512 : S1x1x512.Squeezes S1x512
  inb_S32_S1_2 : ∀ a, (![2] : Fin 1 → Nat) a + S1.size a ≤ S32.size a
  inb_S32x1x512_S1x1x512_2_0_0 : ∀ a, (![2, 0, 0] : Fin 3 → Nat) a + S1x1x512.size a ≤ S32x1x512.size a
  inb_S32_S1_3 : ∀ a, (![3] : Fin 1 → Nat) a + S1.size a ≤ S32.size a
  inb_S32x1x512_S1x1x512_3_0_0 : ∀ a, (![3, 0, 0] : Fin 3 → Nat) a + S1x1x512.size a ≤ S32x1x512.size a
  inb_S32_S1_4 : ∀ a, (![4] : Fin 1 → Nat) a + S1.size a ≤ S32.size a
  inb_S32x1x512_S1x1x512_4_0_0 : ∀ a, (![4, 0, 0] : Fin 3 → Nat) a + S1x1x512.size a ≤ S32x1x512.size a
  inb_S32_S1_5 : ∀ a, (![5] : Fin 1 → Nat) a + S1.size a ≤ S32.size a
  inb_S32x1x512_S1x1x512_5_0_0 : ∀ a, (![5, 0, 0] : Fin 3 → Nat) a + S1x1x512.size a ≤ S32x1x512.size a
  inb_S32_S1_6 : ∀ a, (![6] : Fin 1 → Nat) a + S1.size a ≤ S32.size a
  inb_S32x1x512_S1x1x512_6_0_0 : ∀ a, (![6, 0, 0] : Fin 3 → Nat) a + S1x1x512.size a ≤ S32x1x512.size a
  inb_S32_S1_7 : ∀ a, (![7] : Fin 1 → Nat) a + S1.size a ≤ S32.size a
  inb_S32x1x512_S1x1x512_7_0_0 : ∀ a, (![7, 0, 0] : Fin 3 → Nat) a + S1x1x512.size a ≤ S32x1x512.size a
  inb_S32_S1_8 : ∀ a, (![8] : Fin 1 → Nat) a + S1.size a ≤ S32.size a
  inb_S32x1x512_S1x1x512_8_0_0 : ∀ a, (![8, 0, 0] : Fin 3 → Nat) a + S1x1x512.size a ≤ S32x1x512.size a
  inb_S32_S1_9 : ∀ a, (![9] : Fin 1 → Nat) a + S1.size a ≤ S32.size a
  inb_S32x1x512_S1x1x512_9_0_0 : ∀ a, (![9, 0, 0] : Fin 3 → Nat) a + S1x1x512.size a ≤ S32x1x512.size a
  inb_S32_S1_10 : ∀ a, (![10] : Fin 1 → Nat) a + S1.size a ≤ S32.size a
  inb_S32x1x512_S1x1x512_10_0_0 : ∀ a, (![10, 0, 0] : Fin 3 → Nat) a + S1x1x512.size a ≤ S32x1x512.size a
  inb_S32_S1_11 : ∀ a, (![11] : Fin 1 → Nat) a + S1.size a ≤ S32.size a
  inb_S32x1x512_S1x1x512_11_0_0 : ∀ a, (![11, 0, 0] : Fin 3 → Nat) a + S1x1x512.size a ≤ S32x1x512.size a
  inb_S32_S1_12 : ∀ a, (![12] : Fin 1 → Nat) a + S1.size a ≤ S32.size a
  inb_S32x1x512_S1x1x512_12_0_0 : ∀ a, (![12, 0, 0] : Fin 3 → Nat) a + S1x1x512.size a ≤ S32x1x512.size a
  inb_S32_S1_13 : ∀ a, (![13] : Fin 1 → Nat) a + S1.size a ≤ S32.size a
  inb_S32x1x512_S1x1x512_13_0_0 : ∀ a, (![13, 0, 0] : Fin 3 → Nat) a + S1x1x512.size a ≤ S32x1x512.size a
  inb_S32_S1_14 : ∀ a, (![14] : Fin 1 → Nat) a + S1.size a ≤ S32.size a
  inb_S32x1x512_S1x1x512_14_0_0 : ∀ a, (![14, 0, 0] : Fin 3 → Nat) a + S1x1x512.size a ≤ S32x1x512.size a
  inb_S32_S1_15 : ∀ a, (![15] : Fin 1 → Nat) a + S1.size a ≤ S32.size a
  inb_S32x1x512_S1x1x512_15_0_0 : ∀ a, (![15, 0, 0] : Fin 3 → Nat) a + S1x1x512.size a ≤ S32x1x512.size a
  inb_S32_S1_16 : ∀ a, (![16] : Fin 1 → Nat) a + S1.size a ≤ S32.size a
  inb_S32x1x512_S1x1x512_16_0_0 : ∀ a, (![16, 0, 0] : Fin 3 → Nat) a + S1x1x512.size a ≤ S32x1x512.size a
  inb_S32_S1_17 : ∀ a, (![17] : Fin 1 → Nat) a + S1.size a ≤ S32.size a
  inb_S32x1x512_S1x1x512_17_0_0 : ∀ a, (![17, 0, 0] : Fin 3 → Nat) a + S1x1x512.size a ≤ S32x1x512.size a
  inb_S32_S1_18 : ∀ a, (![18] : Fin 1 → Nat) a + S1.size a ≤ S32.size a
  inb_S32x1x512_S1x1x512_18_0_0 : ∀ a, (![18, 0, 0] : Fin 3 → Nat) a + S1x1x512.size a ≤ S32x1x512.size a
  inb_S32_S1_19 : ∀ a, (![19] : Fin 1 → Nat) a + S1.size a ≤ S32.size a
  inb_S32x1x512_S1x1x512_19_0_0 : ∀ a, (![19, 0, 0] : Fin 3 → Nat) a + S1x1x512.size a ≤ S32x1x512.size a
  inb_S32_S1_20 : ∀ a, (![20] : Fin 1 → Nat) a + S1.size a ≤ S32.size a
  inb_S32x1x512_S1x1x512_20_0_0 : ∀ a, (![20, 0, 0] : Fin 3 → Nat) a + S1x1x512.size a ≤ S32x1x512.size a
  inb_S32_S1_21 : ∀ a, (![21] : Fin 1 → Nat) a + S1.size a ≤ S32.size a
  inb_S32x1x512_S1x1x512_21_0_0 : ∀ a, (![21, 0, 0] : Fin 3 → Nat) a + S1x1x512.size a ≤ S32x1x512.size a
  inb_S32_S1_22 : ∀ a, (![22] : Fin 1 → Nat) a + S1.size a ≤ S32.size a
  inb_S32x1x512_S1x1x512_22_0_0 : ∀ a, (![22, 0, 0] : Fin 3 → Nat) a + S1x1x512.size a ≤ S32x1x512.size a
  inb_S32_S1_23 : ∀ a, (![23] : Fin 1 → Nat) a + S1.size a ≤ S32.size a
  inb_S32x1x512_S1x1x512_23_0_0 : ∀ a, (![23, 0, 0] : Fin 3 → Nat) a + S1x1x512.size a ≤ S32x1x512.size a
  inb_S32_S1_24 : ∀ a, (![24] : Fin 1 → Nat) a + S1.size a ≤ S32.size a
  inb_S32x1x512_S1x1x512_24_0_0 : ∀ a, (![24, 0, 0] : Fin 3 → Nat) a + S1x1x512.size a ≤ S32x1x512.size a
  inb_S32_S1_25 : ∀ a, (![25] : Fin 1 → Nat) a + S1.size a ≤ S32.size a
  inb_S32x1x512_S1x1x512_25_0_0 : ∀ a, (![25, 0, 0] : Fin 3 → Nat) a + S1x1x512.size a ≤ S32x1x512.size a
  inb_S32_S1_26 : ∀ a, (![26] : Fin 1 → Nat) a + S1.size a ≤ S32.size a
  inb_S32x1x512_S1x1x512_26_0_0 : ∀ a, (![26, 0, 0] : Fin 3 → Nat) a + S1x1x512.size a ≤ S32x1x512.size a
  inb_S32_S1_27 : ∀ a, (![27] : Fin 1 → Nat) a + S1.size a ≤ S32.size a
  inb_S32x1x512_S1x1x512_27_0_0 : ∀ a, (![27, 0, 0] : Fin 3 → Nat) a + S1x1x512.size a ≤ S32x1x512.size a
  inb_S32_S1_28 : ∀ a, (![28] : Fin 1 → Nat) a + S1.size a ≤ S32.size a
  inb_S32x1x512_S1x1x512_28_0_0 : ∀ a, (![28, 0, 0] : Fin 3 → Nat) a + S1x1x512.size a ≤ S32x1x512.size a
  inb_S32_S1_29 : ∀ a, (![29] : Fin 1 → Nat) a + S1.size a ≤ S32.size a
  inb_S32x1x512_S1x1x512_29_0_0 : ∀ a, (![29, 0, 0] : Fin 3 → Nat) a + S1x1x512.size a ≤ S32x1x512.size a
  inb_S32_S1_30 : ∀ a, (![30] : Fin 1 → Nat) a + S1.size a ≤ S32.size a
  inb_S32x1x512_S1x1x512_30_0_0 : ∀ a, (![30, 0, 0] : Fin 3 → Nat) a + S1x1x512.size a ≤ S32x1x512.size a
  inb_S32_S1_31 : ∀ a, (![31] : Fin 1 → Nat) a + S1.size a ≤ S32.size a
  inb_S32x1x512_S1x1x512_31_0_0 : ∀ a, (![31, 0, 0] : Fin 3 → Nat) a + S1x1x512.size a ≤ S32x1x512.size a
  inb_S32x1x512_S32x1x512_0_0_0 : ∀ a, (![0, 0, 0] : Fin 3 → Nat) a + S32x1x512.size a ≤ S32x1x512.size a
  h_S32x1x512 : 0 < S32x1x512.numel
  shapeCasts_S32x1x512_S32x512 : S32x1x512.ShapeCasts S32x512
  reduces_S32x512_S512 : S32x512.Reduces [0] S512
  inb_S1x512_S1x512_0_0 : ∀ a, (![0, 0] : Fin 2 → Nat) a + S1x512.size a ≤ S1x512.size a
  h_S1x512 : 0 < S1x512.numel
  shapeCasts_S1x512_S512 : S1x512.ShapeCasts S512
  shapeCasts_S512_S1x512 : S512.ShapeCasts S1x512
  hcc0_scratch1 : 2 + S32.numel ≤ 66
  hcc0_scratch2 : 34 + S32.numel ≤ 66
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  hstage0_0 : ∀ j, (stage0_0 j).IsWhole
  hstage0_1 : ∀ j, (stage0_1 j).IsWhole

variable [Facts₀]

abbrev cc0_scratch1 : DmaSems sig S32 := SemArray.consecutive 2 S32 hcc0_scratch1
abbrev cc0_scratch2 : DmaSems sig S32 := SemArray.consecutive 34 S32 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32768x512 : Shape := ⟨2, ![32768, 512]⟩
abbrev S_ : Shape := ⟨0, ![]⟩
abbrev S512 : Shape := ⟨1, ![512]⟩
abbrev S1x512 : Shape := ⟨2, ![1, 512]⟩

abbrev nBuf : Space → Nat
  | .hbm => 4
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S_, .f32⟩
  | .hbm, ⟨2, _⟩ => ⟨S512, .f32⟩
  | .hbm, ⟨3, _⟩ => ⟨S1x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S32768x512_S512_d0 : S32768x512.ReducesTo [0] S512
  h_S_ : 0 < S_.numel
  bcast_S512_S1x512_1 : S512.BroadcastsInDim S1x512 (![1] : Fin 1 → Fin S1x512.rank)

variable [Facts₀]

class Facts : Prop extends Facts₀ where

variable [Facts]
-- ==== Proof.Proto.lean ====
/-
  Column sums over 32 devices: every device sums its own 1024 rows into row 0 of a 32-row gather buffer,
  tells each of the 31 other devices (one unit on their barrier semaphore) that it is inside the kernel,
  waits for 31 such units, copies its row 0 into row k of the device k places further round the ring
  (k = 1 … 31), waits for its 31 departures and its 31 arrivals, and sums the 32 rows it then holds.

  This module fixes the protocol: the ring arithmetic, the buffer rows and semaphore cells, what every
  unit of every cell hands its owner (the schedule), what a device owes when it starts, the levels that
  order the waits, and the pipeline's proof data.
-/
import proofs.«901070_g7700000000001071_dist_sum_ax0_shard0_i_m1024_n512_v7x_i32_bf16_1_alg».proof.Proof.Gen.KernelIdeal
import proofs.«901070_g7700000000001071_dist_sum_ax0_shard0_i_m1024_n512_v7x_i32_bf16_1_alg».proof.Proof.Gen.KernelIdeal.Skeleton
import proofs.«901070_g7700000000001071_dist_sum_ax0_shard0_i_m1024_n512_v7x_i32_bf16_1_alg».proof.Proof.Gen.KernelIdeal.Launch
import Idealize.ShloMosaic.Lib.Pipeline.Launch
import Idealize.ShloMosaic.Lib.Pipeline.Kit
import Idealize.ShloMosaic.Lib.Tactic
import Idealize.ShloMosaic.Lib.ValueIdx

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the ring's (duties named by a ring offset) -/

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The ring of 32 devices -/

/-- The device `k` places after `c`. -/
def dv (c : Dev nD) (k : ℕ) : Dev nD := ⟨(c.val + k) % 32, Nat.mod_lt _ (by decide)⟩

/-- An offset as a duty's name. -/
def fk (k : ℕ) : Fin 32 := ⟨k % 32, Nat.mod_lt _ (by decide)⟩

theorem dv_back (c : Dev nD) (k : ℕ) (hk : k ≤ 32) : dv (dv c k) (32 - k) = c := by
  apply Fin.ext
  show ((c.val + k) % 32 + (32 - k)) % 32 = c.val
  have h : c.val < 32 := c.isLt
  omega

theorem dv_back' (c : Dev nD) (k : ℕ) (hk : k ≤ 32) : dv (dv c (32 - k)) k = c := by
  apply Fin.ext
  show ((c.val + (32 - k)) % 32 + k) % 32 = c.val
  have h : c.val < 32 := c.isLt
  omega

/-! ## Buffers, rows and cells -/

abbrev xM : Memref sig .tc .vmem S1024x512 .f32 := Memref.whole cc0_stg0_0
abbrev oM : Memref sig .tc .vmem S1x512 .f32 := Memref.whole cc0_stg1_0
abbrev gM : Memref sig .tc .vmem S32x1x512 .f32 := Memref.whole cc0_scratch0

theorem row_inb (k : ℕ) : ∀ a, (![k % 32, 0, 0] : Fin 3 → Nat) a + S1x1x512.size a ≤ S32x1x512.size a := by
  intro a
  have : k % 32 < 32 := Nat.mod_lt _ (by decide)
  fin_cases a
  · show k % 32 + 1 ≤ 32; omega
  · show 0 + 1 ≤ 1; omega
  · show 0 + 512 ≤ 512; omega

/-- Row `k` of the gather buffer, as the kernel's copies name it. -/
abbrev rowM (k : ℕ) : Memref sig .tc .vmem S1x512 .f32 :=
  ((gM : Memref sig .tc .vmem S32x1x512 .f32).slice (Rect.unit (s := S32x1x512) ![k % 32, 0, 0] S1x1x512.size (row_inb k)) (fun _ => rfl)).squeeze S1x512 squeezes_S1x1x512_S1x512

theorem sem_inb (k : ℕ) : ∀ a, (![k % 32] : Fin 1 → Nat) a + S1.size a ≤ S32.size a := by
  intro a
  have : k % 32 < 32 := Nat.mod_lt _ (by decide)
  fin_cases a
  show k % 32 + 1 ≤ 32; omega

/-- The barrier semaphore, and the departure and arrival semaphores of copy `k`. -/
abbrev barS : Sem sig := (SemArray.scalar (sig.barrier 0 rfl) : Sems sig S_).sem
abbrev sendS (k : ℕ) : DmaSems sig S_ := (cc0_scratch1.slice (Rect.unit (s := S32) ![k % 32] S1.size (sem_inb k))).squeeze S_ squeezes_S1_S_
abbrev recvS (k : ℕ) : DmaSems sig S_ := (cc0_scratch2.slice (Rect.unit (s := S32) ![k % 32] S1.size (sem_inb k))).squeeze S_ squeezes_S1_S_

abbrev barCell (c : Dev nD) : GSem nD τ sig := ((c : Thread nD τ), .reg barS)
abbrev sendCell (c : Dev nD) (k : ℕ) : GSem nD τ sig := ((c : Thread nD τ), .dma (sendS k).sem)
abbrev recvCell (c : Dev nD) (k : ℕ) : GSem nD τ sig := ((c : Thread nD τ), .dma (recvS k).sem)

/-- A device's cells, as the launch indexes them. -/
inductive CK where
  | bar
  | send (k : Fin 32)
  | recv (k : Fin 32)
  deriving DecidableEq, Fintype

abbrev csem : CK → SemLoc sig
  | .bar => .reg barS
  | .send k => .dma (sendS k.val).sem
  | .recv k => .dma (recvS k.val).sem
abbrev kcell (ck : Dev nD × CK) : GSem nD τ sig := ((ck.1 : Thread nD τ), csem ck.2)

/-- One copy's credit: a row's bytes. -/
abbrev N : ℕ := (rowM 1 : Memref sig .tc .vmem S1x512 .f32).view.dmaCredit
theorem N_pos : 0 < N := View.dmaCredit_pos _ (by decide)

/-! ## Contents -/

/-- Device `c`'s block of `x` as the region finds it. -/
def xstg (c : Dev nD) : (cc0_stg0_0 : Ref sig .tc).ty.Contents (Elt F) :=
  (win0_0.blk (0 : Fin 1)).view.read (Elt F) ((s₀ m ρ).mem ((c : Thread nD τ).loc main_arg0))

/-- What device `c`'s gather buffer holds in the end: in row `k` the column sums of the device `k` places BEFORE `c`. -/
def gath (c : Dev nD) : (cc0_scratch0 : Ref sig .tc).ty.Contents (Elt F) := fun i =>
  k0_pay2 (xstg m ρ (dv c (32 - (show Fin 32 from i 0).val))) (ValueIdx.ix3 (0 : Fin 1) (0 : Fin 1) (show Fin 512 from i 2))

/-- The kernel's result on device `c`: the sum of the 32 rows. -/
def outAt (c : Dev nD) : (cc0_stg1_0 : Ref sig .tc).ty.Contents (Elt F) := k0_pay1 (gath m ρ c)

/-- Share `q` of row `k` of device `c`'s gather buffer, the buffer's contents there `f`'s. -/
def rowPts (c : Dev nD) (k : ℕ) (q : PosShare TreeShare) (f : Buf (Elt F) ((gM : Memref sig .tc .vmem S32x1x512 .f32).view.loc (c : Thread nD τ))) : sProp 𝕄 :=
  (rowM k : Memref sig .tc .vmem S1x512 .f32).view.loc (c : Thread nD τ) ↦[(rowM k : Memref sig .tc .vmem S1x512 .f32).view.set]{q} f

/-- The whole gather buffer of device `c`. -/
def gPts (c : Dev nD) (f : Buf (Elt F) ((gM : Memref sig .tc .vmem S32x1x512 .f32).view.loc (c : Thread nD τ))) : sProp 𝕄 :=
  (gM : Memref sig .tc .vmem S32x1x512 .f32).view.loc (c : Thread nD τ) ↦[(gM : Memref sig .tc .vmem S32x1x512 .f32).view.set]{fullShare} f

/-- The shares of row 0 lent to the 31 copies, one after the other: copy `k` borrows the left half of what
    the copies before it left. -/
def rem : ℕ → PosShare TreeShare
  | 0 => fullShare
  | n + 1 => (rem n).right
def sh (k : ℕ) : PosShare TreeShare := (rem (k - 1)).left

/-! ## Chains of resources -/

/-- `Φ i ∗ Φ (i + 1) ∗ … ` (`n` factors). -/
def fromTo (Φ : ℕ → sProp 𝕄) : ℕ → ℕ → sProp 𝕄
  | _, 0 => iprop(emp)
  | i, n + 1 => iprop(Φ i ∗ fromTo Φ (i + 1) n)

omit [FloatOps F] in
theorem fromTo_succ (Φ : ℕ → sProp 𝕄) (i n : ℕ) : fromTo Φ i (n + 1) = iprop(Φ i ∗ fromTo Φ (i + 1) n) := rfl
omit [FloatOps F] in
theorem fromTo_zero (Φ : ℕ → sProp 𝕄) (i : ℕ) : fromTo Φ i 0 = iprop(emp) := rfl

/-! ## The schedule -/

/-- Which copy a DMA semaphore belongs to, and whether as its arrival (`true`) or departure semaphore. -/
def semKind : SemLoc sig → Option (Bool × ℕ)
  | .reg _ => none
  | .dma q => if 3 ≤ q.val ∧ q.val ≤ 33 then some (false, q.val - 2) else if 35 ≤ q.val ∧ q.val ≤ 65 then some (true, q.val - 34) else none

/-- Unit `k` of device `c`'s barrier cell comes from the device `k` places BEFORE `c` and hands `c` the row of
    that device's buffer that `c`'s copy lands in, with that device's arrival cell for it at round 0. -/
def barPay (c : Dev nD) (d : Fin 32) : sProp 𝕄 :=
  iprop((∃ f, rowPts (dv c (32 - d.val)) (32 - d.val) fullShare f) ∗ reached ER (recvCell (dv c (32 - d.val)) (32 - d.val)) 0)
/-- An arrival hands the owner its row holding the sender's column sums; -/
def recvPay (c : Dev nD) (k : ℕ) : sProp 𝕄 := rowPts c k fullShare (gath m ρ c)
/-- a departure hands back the lent share of row 0. -/
def sendPay (c : Dev nD) (k : ℕ) : sProp 𝕄 := rowPts c 0 (sh k) (gath m ρ c)

/-- One round. A barrier cell: the 31 units `k ≠ 0`; a departure or arrival cell of a copy `k = 1 … 31`: one duty, a
    row's credit. -/
def Rd : Rounds.Schedule (GSem nD τ sig) (Fin 32) 𝕄 where
  duties g r :=
    if r = 0 ∧ g.1.2 = .tc then
      (if g.2 = .reg barS then Finset.univ.erase 0 else match semKind g.2 with | some _ => {0} | none => ∅)
    else ∅
  unitless _ := False
  amount g _ _ := if g.2 = .reg barS then 1 else N
  payload g _ d :=
    if g.2 = .reg barS then barPay g.1.1 d
    else match semKind g.2 with
      | some (false, k) => sendPay m ρ g.1.1 k
      | some (true, k) => recvPay m ρ g.1.1 k
      | none => iprop(emp)
  amount_pos g _ _ _ := by
    by_cases h : g.2 = .reg barS
    · rw [if_pos h]; exact Nat.one_pos
    · rw [if_neg h]; exact N_pos

instance Rd_payload_storable (g : GSem nD τ sig) (r : ℕ) (d : Fin 32) :
    BI.Storable (upEmb : UEmb _ 𝕄) ((Rd (F := F) m ρ).payload g r d) := by
  show BI.Storable upEmb (if g.2 = .reg barS then barPay g.1.1 d
    else match semKind g.2 with
      | some (false, k) => sendPay m ρ g.1.1 k
      | some (true, k) => recvPay m ρ g.1.1 k
      | none => iprop(emp))
  unfold barPay recvPay sendPay rowPts
  (repeat' split) <;> infer_instance

/-! ## What a device owes; the levels -/

/-- What is still owed with `n` copies to go: an arrival's credit to each of the last `n` peers' arrival cells. -/
def remS (c : Dev nD) : ℕ → CellTallies nD τ sig Unit
  | 0 => 0
  | n + 1 => remS c n + tallyAt (recvCell (dv c (31 - n)) (31 - n)) () N
/-- What is still owed with `n` signals to go: all the copies', and a unit to each of the last `n` peers' barrier cells. -/
def remG (c : Dev nD) : ℕ → CellTallies nD τ sig Unit
  | 0 => remS c 31
  | n + 1 => remG c n + tallyAt (barCell (dv c (31 - n))) () 1
def O₀ (c : Dev nD) : CellTallies nD τ sig Unit := remG c 31

def L (g : GSem nD τ sig) : Finset Unit := if g.1.2 = .tc then {()} else ∅
/-- Barrier cells at 1, arrival cells at 2, everything else (staging, departures) at 0. -/
def lv (g : GSem nD τ sig) (_ : Unit) : ℕ :=
  if g.2 = .reg barS then 1 else match semKind g.2 with | some (true, _) => 2 | _ => 0

theorem L_of_ne (g : GSem nD τ sig) (h : g.1.2 ≠ .tc) : L g = ∅ := if_neg h
theorem L_tc (c : Dev nD) (sm : SemLoc sig) : L ((c : Thread nD τ), sm) = {()} := if_pos rfl

/-! ## What a device's body starts from and ends with -/

/-- The cells' invariants and round-0 marks of ALL devices, at the names `K` the launch allocated them at. -/
def records (K : Dev nD × CK → ℕ) : sProp 𝕄 :=
  iprop((bigSep Finset.univ fun ck : Dev nD × CK => cellInv ER (Rd m ρ) (K ck) (kcell ck))
    ∗ bigSep Finset.univ fun ck : Dev nD × CK => reached ER (kcell ck) 0)

instance records_persistent (K : Dev nD × CK → ℕ) : BI.Persistent (records m ρ K) := by unfold records; infer_instance

/-- What signal `k` pays with: the token of unit `k` of the peer's barrier cell, and the row the peer's copy lands in. -/
def sigRes (c : Dev nD) (k : ℕ) : sProp 𝕄 :=
  iprop(dutyTok ER (barCell (dv c k)) 0 (fk k) ∗ ∃ f, rowPts c (32 - k) fullShare f)
/-- What copy `k` pays with: its departure's and its arrival's tokens. -/
def cpyRes (c : Dev nD) (k : ℕ) : sProp 𝕄 :=
  iprop(dutyTok ER (sendCell c k) 0 0 ∗ dutyTok ER (recvCell (dv c k) k) 0 0)
/-- What the two waits of copy `k` start from: the two cells' positions and the arrival's credit. -/
def waitRes (c : Dev nD) (k : ℕ) : sProp 𝕄 :=
  iprop(atPos ER (sendCell c k) 0 ∅ 0 ∗ atPos ER (recvCell c k) 0 ∅ 0 ∗ cred (tallyAt (recvCell c k) () N))

/-- The linear ghost state of device `c`. -/
def linear (c : Dev nD) : sProp 𝕄 :=
  iprop(atPos ER (barCell c) 0 ∅ 0 ∗ atPos ER (sendCell c 0) 0 ∅ 0 ∗ atPos ER (recvCell c 0) 0 ∅ 0
    ∗ fromTo (fun k => dutyTok ER (barCell (dv c k)) 0 (fk k)) 1 31
    ∗ fromTo (cpyRes c) 1 31
    ∗ fromTo (fun k => iprop(atPos ER (sendCell c k) 0 ∅ 0 ∗ atPos ER (recvCell c k) 0 ∅ 0)) 1 31)

def ghost (K : Dev nD × CK → ℕ) (c : Dev nD) : sProp 𝕄 := iprop(records m ρ K ∗ linear c)

/-- What device `c`'s body starts from besides its buffers: the ghost state at some names, the credit its waits
    consume (31 barrier units, a row's credit on each arrival cell), and the level facts. -/
def start (c : Dev nD) : sProp 𝕄 :=
  iprop((∃ K, ghost m ρ K c) ∗ cred (tallyAt (barCell c) () 31)
    ∗ fromTo (fun k => cred (tallyAt (recvCell c k) () N)) 1 31 ∗ levAts L lv)

def Φ₀ (c : Dev nD) : sProp 𝕄 := iprop(start m ρ c ∗ ∃ f, gPts c f)
/-- After the body: the gather buffer holding the 32 rows of sums, and the 64 own semaphores at zero, closed. -/
def Φ₁ (c : Dev nD) : sProp 𝕄 :=
  iprop(gPts c (gath m ρ c) ∗ fromTo (fun k => iprop(semVal (sendCell c k) 0 ∗ semVal (recvCell c k) 0)) 0 32)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.KernelIdealProof

end
-- ==== Proof.Tables.lean ====
/-
  The schedule read cell by cell: which units a barrier, departure or arrival cell expects in its one round,
  how much each is worth, what each hands the owner; and the level facts that let a device wait.
-/
import proofs.«901070_g7700000000001071_dist_sum_ax0_shard0_i_m1024_n512_v7x_i32_bf16_1_alg».proof.Proof.Proto

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores' places in the pool -/

/-- A rank-one rectangle of one element at offset `o` sends the one index of the squeezed shape to position `o`. -/
theorem unit1_pos (o : ℕ) (inb : ∀ a, (![o] : Fin 1 → Nat) a + S1.size a ≤ S32.size a) :
    (S32.rowMajor ((Rect.unit (s := S32) ![o] S1.size inb).emb
      (Shape.reshapeEquiv squeezes_S1_S_.numel_eq (fun i : Fin 0 => i.elim0)))).val = o := by
  rw [Shape.rowMajor_val_one, Rect.emb_apply]
  have hlt := ((Shape.reshapeEquiv (s := (Rect.unit (s := S32) ![o] S1.size inb).shape) squeezes_S1_S_.numel_eq (fun i : Fin 0 => i.elim0)) 0).isLt
  have h1 : (Rect.unit (s := S32) ![o] S1.size inb).shape.size 0 = 1 := rfl
  show o + 1 * _ = o
  omega

theorem sendS_val (k : ℕ) : ((sendS k).sem : DmaSem sig).val = 2 + k % 32 := by
  show 2 + _ = 2 + k % 32
  congr 1
  exact unit1_pos (k % 32) (sem_inb k)
theorem recvS_val (k : ℕ) : ((recvS k).sem : DmaSem sig).val = 34 + k % 32 := by
  show 34 + _ = 34 + k % 32
  congr 1
  exact unit1_pos (k % 32) (sem_inb k)

theorem semKind_dma (q : DmaSem sig) : semKind (.dma q) =
    if 3 ≤ q.val ∧ q.val ≤ 33 then some (false, q.val - 2) else if 35 ≤ q.val ∧ q.val ≤ 65 then some (true, q.val - 34) else none := rfl

theorem semKind_send (k : ℕ) (hk : 1 ≤ k ∧ k ≤ 31) : semKind (.dma (sendS k).sem) = some (false, k) := by
  have hv := sendS_val k
  have hm : k % 32 = k := Nat.mod_eq_of_lt (by omega)
  rw [semKind_dma]
  rw [if_pos (by omega)]
  congr 2
  omega
theorem semKind_recv (k : ℕ) (hk : 1 ≤ k ∧ k ≤ 31) : semKind (.dma (recvS k).sem) = some (true, k) := by
  have hv := recvS_val k
  have hm : k % 32 = k := Nat.mod_eq_of_lt (by omega)
  rw [semKind_dma]
  rw [if_neg (by omega), if_pos (by omega)]
  congr 2
  omega
theorem semKind_send0 : semKind (.dma (sendS 0).sem) = none := by
  have hv := sendS_val 0
  rw [semKind_dma]
  rw [if_neg (by omega), if_neg (by omega)]
theorem semKind_recv0 : semKind (.dma (recvS 0).sem) = none := by
  have hv := recvS_val 0
  rw [semKind_dma]
  rw [if_neg (by omega), if_neg (by omega)]

theorem send_ne_bar (k : ℕ) : (SemLoc.dma (sendS k).sem : SemLoc sig) ≠ .reg barS := fun h => by cases h
theorem recv_ne_bar (k : ℕ) : (SemLoc.dma (recvS k).sem : SemLoc sig) ≠ .reg barS := fun h => by cases h

/-! ## Duties, amounts, payloads -/

/-- What the barrier wait hands device `c` for copy `j`: row `j` of the device `j` places on, and that device's arrival cell for it at round 0. -/
def peerRow (c : Dev nD) (j : ℕ) : sProp 𝕄 :=
  iprop((∃ f, rowPts (dv c j) j fullShare f) ∗ reached ER (recvCell (dv c j) j) 0)

section Sched
variable (c : Dev nD)

theorem duties_bar : (Rd (F := F) m ρ).duties (barCell c) 0 = Finset.univ.erase 0 := by
  dsimp only [Rd]; rw [if_pos ⟨rfl, rfl⟩, if_pos rfl]
theorem duties_send (k : ℕ) (hk : 1 ≤ k ∧ k ≤ 31) : (Rd (F := F) m ρ).duties (sendCell c k) 0 = {0} := by
  dsimp only [Rd]; rw [if_pos ⟨rfl, rfl⟩, if_neg (send_ne_bar k)]; simp only [semKind_send k hk]
theorem duties_recv (k : ℕ) (hk : 1 ≤ k ∧ k ≤ 31) : (Rd (F := F) m ρ).duties (recvCell c k) 0 = {0} := by
  dsimp only [Rd]; rw [if_pos ⟨rfl, rfl⟩, if_neg (recv_ne_bar k)]; simp only [semKind_recv k hk]
theorem duties_send0 : (Rd (F := F) m ρ).duties (sendCell c 0) 0 = ∅ := by
  dsimp only [Rd]; rw [if_pos ⟨rfl, rfl⟩, if_neg (send_ne_bar 0)]; simp only [semKind_send0]
theorem duties_recv0 : (Rd (F := F) m ρ).duties (recvCell c 0) 0 = ∅ := by
  dsimp only [Rd]; rw [if_pos ⟨rfl, rfl⟩, if_neg (recv_ne_bar 0)]; simp only [semKind_recv0]
theorem duties_later (g : GSem nD τ sig) : ∀ r, 1 ≤ r → (Rd (F := F) m ρ).duties g r = ∅ :=
  fun r hr => by dsimp only [Rd]; rw [if_neg fun h => by omega]

theorem amount_bar (d : Fin 32) : (Rd (F := F) m ρ).amount (barCell c) 0 d = 1 := by
  dsimp only [Rd]; exact if_pos rfl
theorem amount_send (k : ℕ) (d : Fin 32) : (Rd (F := F) m ρ).amount (sendCell c k) 0 d = N := by
  dsimp only [Rd]; exact if_neg (send_ne_bar k)
theorem amount_recv (k : ℕ) (d : Fin 32) : (Rd (F := F) m ρ).amount (recvCell c k) 0 d = N := by
  dsimp only [Rd]; exact if_neg (recv_ne_bar k)

theorem expect_bar : (Rd (F := F) m ρ).expect (barCell c) 0 = 31 := by
  unfold Schedule.expect Schedule.amountOf
  rw [duties_bar, Finset.sum_congr rfl fun d _ => amount_bar m ρ c d, Finset.sum_const, smul_eq_mul, mul_one]
  decide
theorem expect_send (k : ℕ) (hk : 1 ≤ k ∧ k ≤ 31) : (Rd (F := F) m ρ).expect (sendCell c k) 0 = N := by
  unfold Schedule.expect Schedule.amountOf; rw [duties_send m ρ c k hk, Finset.sum_singleton, amount_send]
theorem expect_recv (k : ℕ) (hk : 1 ≤ k ∧ k ≤ 31) : (Rd (F := F) m ρ).expect (recvCell c k) 0 = N := by
  unfold Schedule.expect Schedule.amountOf; rw [duties_recv m ρ c k hk, Finset.sum_singleton, amount_recv]

theorem payload_bar (d : Fin 32) : (Rd (F := F) m ρ).payload (barCell c) 0 d = barPay c d := by
  dsimp only [Rd]; rw [if_pos rfl]
theorem payload_send (k : ℕ) (hk : 1 ≤ k ∧ k ≤ 31) (d : Fin 32) : (Rd (F := F) m ρ).payload (sendCell c k) 0 d = sendPay m ρ c k := by
  dsimp only [Rd]; rw [if_neg (send_ne_bar k)]; simp only [semKind_send k hk]
theorem payload_recv (k : ℕ) (hk : 1 ≤ k ∧ k ≤ 31) (d : Fin 32) : (Rd (F := F) m ρ).payload (recvCell c k) 0 d = recvPay m ρ c k := by
  dsimp only [Rd]; rw [if_neg (recv_ne_bar k)]; simp only [semKind_recv k hk]

theorem rest_send (k : ℕ) (hk : 1 ≤ k ∧ k ≤ 31) :
    bigSep ((Rd (F := F) m ρ).duties (sendCell c k) 0 \ ∅) (fun d => (Rd (F := F) m ρ).payload (sendCell c k) 0 d) = sendPay m ρ c k := by
  rw [Finset.sdiff_empty, duties_send m ρ c k hk, bigSep_singleton, payload_send m ρ c k hk]
theorem rest_recv (k : ℕ) (hk : 1 ≤ k ∧ k ≤ 31) :
    bigSep ((Rd (F := F) m ρ).duties (recvCell c k) 0 \ ∅) (fun d => (Rd (F := F) m ρ).payload (recvCell c k) 0 d) = recvPay m ρ c k := by
  rw [Finset.sdiff_empty, duties_recv m ρ c k hk, bigSep_singleton, payload_recv m ρ c k hk]

end Sched

/-- A chain over a listed range: when duty `g j` hands what `Ψ j` says, the listed round is the chain of the `Ψ j`. -/
theorem bigSepL_range_eq (Φ : Fin 32 → sProp 𝕄) (Ψ : ℕ → sProp 𝕄) (g : ℕ → Fin 32) :
    ∀ n i, (∀ j, i ≤ j → j < i + n → Φ (g j) = Ψ j) → bigSepL ((List.range' i n).map g) Φ = fromTo Ψ i n
  | 0, i, _ => rfl
  | n + 1, i, h => by
    rw [List.range'_succ, List.map_cons, bigSepL_cons, fromTo_succ, h i (le_refl _) (by omega),
      bigSepL_range_eq Φ Ψ g n (i + 1) (fun j h1 h2 => h j (by omega) (by omega))]
    rfl

/-- Unit `32 - j` of a barrier cell hands over what copy `j` needs. -/
theorem barPay_peerRow (c : Dev nD) (j : ℕ) (hj : 1 ≤ j ∧ j ≤ 31) : barPay (F := F) c (fk (32 - j)) = peerRow c j := by
  have h : 32 - (fk (32 - j)).val = j := by
    show 32 - (32 - j) % 32 = j
    omega
  unfold barPay peerRow
  rw [h]

section Sched2
variable (c : Dev nD)
/-- The whole round of a barrier cell, no unit taken yet: the 31 peers' rows, in the order of the copies that land in them. -/
theorem rest_bar : bigSep ((Rd (F := F) m ρ).duties (barCell c) 0 \ ∅) (fun d => (Rd (F := F) m ρ).payload (barCell c) 0 d)
    ⊢ fromTo (peerRow (F := F) c) 1 31 := by
  rw [Finset.sdiff_empty, duties_bar,
    bigSep_eq_bigSepL_of_eq ((List.range' 1 31).map fun j => fk (32 - j)) (by decide) (by decide),
    bigSepL_range_eq _ (peerRow (F := F) c) (fun j => fk (32 - j)) 31 1
      (fun j h1 h2 => by rw [payload_bar, barPay_peerRow c j ⟨h1, by omega⟩])]
end Sched2

/-! ## Levels -/

theorem lv_bar (d : Dev nD) : lv (barCell d) () = 1 := by dsimp only [lv]; rw [if_pos rfl]
theorem lv_recv (d : Dev nD) (k : ℕ) (hk : 1 ≤ k ∧ k ≤ 31) : lv (recvCell d k) () = 2 := by
  dsimp only [lv]; rw [if_neg (recv_ne_bar k)]; simp only [semKind_recv k hk]
theorem lv_stage (c : Dev nD) (q : DmaSem sig) (hq : q.val ≤ 1) : lv ((c : Thread nD τ), .dma q) () = 0 := by
  dsimp only [lv]; rw [if_neg (fun h => by cases h), semKind_dma, if_neg (by omega), if_neg (by omega)]

/-- Whatever is owed towards the copies is owed at an arrival cell of one of them. -/
theorem remS_pos (c : Dev nD) : ∀ n, n ≤ 31 → ∀ (g : GSem nD τ sig) (u : Unit), 0 < remS c n g u →
    ∃ k, (1 ≤ k ∧ k ≤ 31) ∧ g = recvCell (dv c k) k
  | 0, _, g, u, h => absurd h (Nat.lt_irrefl 0)
  | n + 1, hn, g, u, h => by
    rw [show remS c (n + 1) = remS c n + tallyAt (recvCell (dv c (31 - n)) (31 - n)) () N from rfl,
      Pi.add_apply, Finsupp.add_apply, tallyAt_apply] at h
    by_cases hg : g = recvCell (dv c (31 - n)) (31 - n) ∧ u = ()
    · exact ⟨31 - n, ⟨by omega, by omega⟩, hg.1⟩
    · rw [if_neg hg, Nat.add_zero] at h
      exact remS_pos c n (by omega) g u h

/-- Whatever a device owes at launch is owed at an arrival cell of a copy or at a barrier cell. -/
theorem remG_pos (c : Dev nD) : ∀ n (g : GSem nD τ sig) (u : Unit), 0 < remG c n g u →
    (∃ k, (1 ≤ k ∧ k ≤ 31) ∧ g = recvCell (dv c k) k) ∨ ∃ d, g = barCell d
  | 0, g, u, h => .inl (remS_pos c 31 (le_refl _) g u h)
  | n + 1, g, u, h => by
    rw [show remG c (n + 1) = remG c n + tallyAt (barCell (dv c (31 - n))) () 1 from rfl,
      Pi.add_apply, Finsupp.add_apply, tallyAt_apply] at h
    by_cases hg : g = barCell (dv c (31 - n)) ∧ u = ()
    · exact .inr ⟨_, hg.1⟩
    · rw [if_neg hg, Nat.add_zero] at h
      exact remG_pos c n g u h

/-- At its barrier wait a device owes arrival credits only: arrival cells sit above barrier cells. -/
theorem mayWait_bar (c : Dev nD) :
    (levAts L lv : sProp 𝕄) ⊢ MayWait (c : Thread nD τ) (.reg barS) () (remS c 31) :=
  MayOwe.of_cut (L := L) (lev := lv) 1 (fun p hp => by rw [Finset.mem_singleton.mp hp, L_tc]; exact Finset.mem_singleton_self _)
    (fun g u hg => by
      obtain ⟨k, hk, rfl⟩ := remS_pos c 31 (le_refl _) g u hg
      rw [L_tc]; exact Finset.mem_singleton_self _)
    (fun p hp => by rw [Finset.mem_singleton.mp hp]; exact le_of_eq (lv_bar c))
    (fun g u hg => by
      obtain ⟨k, hk, rfl⟩ := remS_pos c 31 (le_refl _) g u hg
      rw [lv_recv _ k hk]; decide)

/-- A staging semaphore (the pool's first two) sits below everything a device ever owes. -/
theorem mayWait_stage (c : Dev nD) (q : DmaSem sig) (hq : q.val ≤ 1) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases remG_pos c 31 g u hg with ⟨k, hk, rfl⟩ | ⟨d, rfl⟩ <;> (rw [L_tc]; exact Finset.mem_singleton_self _))
      (fun p hp => by rw [Finset.mem_singleton.mp hp]; exact le_of_eq (lv_stage c q hq))
      (fun g u hg => by
        rcases remG_pos c 31 g u hg with ⟨k, hk, rfl⟩ | ⟨d, rfl⟩
        · rw [lv_recv _ k hk]; decide
        · rw [lv_bar]; decide)
  · rw [MayWait_zero]; iintro -; iempintro

/-- info: 'Cert.KernelIdealProof.rest_bar' depends on axioms: [propext, Classical.choice, Quot.sound] -/
#guard_msgs in #print axioms rest_bar
/-- info: 'Cert.KernelIdealProof.mayWait_bar' depends on axioms: [propext, Classical.choice, Quot.sound] -/
#guard_msgs in #print axioms mayWait_bar
/-- info: 'Cert.KernelIdealProof.mayWait_stage' depends on axioms: [propext, Classical.choice, Quot.sound] -/
#guard_msgs in #print axioms mayWait_stage

end Cert.KernelIdealProof

end
-- ==== Proof.Rows.lean ====
/-
  The gather buffer row by row: which elements a row is, that the buffer is its 32 rows, that row 0's share
  splits once per copy, what a store into row 0 and a copy landing in row k leave there, and a copy's credit.
-/
import proofs.«901070_g7700000000001071_dist_sum_ax0_shard0_i_m1024_n512_v7x_i32_bf16_1_alg».proof.Proof.Proto
import Idealize.ShloMosaic.Lib.Pipeline.Value

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev r000 : Rect S32x1x512 := Rect.unit (s := S32x1x512) ![0, 0, 0] S1x1x512.size inb_S32x1x512_S1x1x512_0_0_0
abbrev rAll : Rect S32x1x512 := Rect.unit (s := S32x1x512) ![0, 0, 0] S32x1x512.size inb_S32x1x512_S32x1x512_0_0_0

omit [FloatOps F] in
/-- A row's elements are those of the unit rectangle it is cut along. -/
theorem row_set (k : ℕ) : (rowM k : Memref sig .tc .vmem S1x512 .f32).view.set
    = (Rect.unit (s := S32x1x512) ![k % 32, 0, 0] S1x1x512.size (row_inb k)).set := by
  show (((View.whole cc0_scratch0).slice _).reshape _ _).set = _
  rw [View.set_reshape, View.set_slice_whole]

/-- An element of the gather buffer is in row `k` exactly when its first coordinate is `k`. -/
theorem mem_row (k : ℕ) (i : S32x1x512.Idx) :
    i ∈ (rowM k : Memref sig .tc .vmem S1x512 .f32).view.set ↔ (show Fin 32 from i 0).val = k % 32 := by
  rw [row_set, Rect.mem_set_unit]
  have h1 : (i 1).val < 1 := (i 1).isLt
  have h2 : (i 2).val < 512 := (i 2).isLt
  constructor
  · intro h
    have h0 := h 0
    change k % 32 ≤ (i 0).val ∧ (i 0).val < k % 32 + 1 at h0
    show (i 0).val = k % 32
    omega
  · intro h a
    change (i 0).val = k % 32 at h
    fin_cases a
    · show k % 32 ≤ (i 0).val ∧ (i 0).val < k % 32 + 1; omega
    · show 0 ≤ (i 1).val ∧ (i 1).val < 0 + 1; omega
    · show 0 ≤ (i 2).val ∧ (i 2).val < 0 + 512; omega

omit [FloatOps F] in
/-- Contents that agree on row `k` are the same share of it. -/
theorem rowPts_congr (c : Dev nD) (k : ℕ) (q : PosShare TreeShare)
    {f g : Buf (Elt F) ((gM : Memref sig .tc .vmem S32x1x512 .f32).view.loc (c : Thread nD τ))}
    (h : ∀ i : S32x1x512.Idx, (show Fin 32 from i 0).val = k % 32 → f i = g i) : rowPts c k q f = rowPts c k q g := by
  unfold rowPts
  exact BI.Region.is_congr fun i hi => h i ((mem_row k i).mp hi)

/-- The elements of the gather buffer in row `k`, and those in the rows from `j` on. -/
def rowS (k : ℕ) : Finset S32x1x512.Idx := Finset.univ.filter fun i => (show Fin 32 from i 0).val = k % 32
def geS (j : ℕ) : Finset S32x1x512.Idx := Finset.univ.filter fun i => j ≤ (show Fin 32 from i 0).val

theorem row_set_eq (k : ℕ) : (rowM k : Memref sig .tc .vmem S1x512 .f32).view.set = rowS k := by
  ext i
  rw [mem_row]
  simp only [rowS, Finset.mem_filter, Finset.mem_univ, true_and]

omit [FloatOps F] in
theorem rowPts_eq (c : Dev nD) (k : ℕ) (q : PosShare TreeShare)
    (f : Buf (Elt F) ((gM : Memref sig .tc .vmem S32x1x512 .f32).view.loc (c : Thread nD τ))) :
    rowPts c k q f = ((gM : Memref sig .tc .vmem S32x1x512 .f32).view.loc (c : Thread nD τ) ↦[rowS k]{q} f) := by
  unfold rowPts
  rw [row_set_eq]

omit [FloatOps F] in
theorem gPts_eq (c : Dev nD)
    (f : Buf (Elt F) ((gM : Memref sig .tc .vmem S32x1x512 .f32).view.loc (c : Thread nD τ))) :
    gPts c f = ((gM : Memref sig .tc .vmem S32x1x512 .f32).view.loc (c : Thread nD τ) ↦[geS 0]{fullShare} f) := by
  unfold gPts
  have : (gM : Memref sig .tc .vmem S32x1x512 .f32).view.set = geS 0 := by
    show (View.whole cc0_scratch0).set = _
    rw [View.set_whole]
    ext i
    simp only [geS, Finset.mem_filter, Finset.mem_univ, true_and, Nat.zero_le]
  rw [this]

omit [FloatOps F] in
/-- The rows from `j` on are row `j` and the rows from `j + 1` on. -/
theorem ge_split (c : Dev nD) (j : ℕ) (hj : j < 32) (q : PosShare TreeShare)
    (f : Buf (Elt F) ((gM : Memref sig .tc .vmem S32x1x512 .f32).view.loc (c : Thread nD τ))) :
    ((gM : Memref sig .tc .vmem S32x1x512 .f32).view.loc (c : Thread nD τ) ↦[geS j]{q} f)
      ⊣⊢ iprop(rowPts c j q f ∗ ((gM : Memref sig .tc .vmem S32x1x512 .f32).view.loc (c : Thread nD τ) ↦[geS (j + 1)]{q} f)) := by
  have hu : geS j = rowS j ∪ geS (j + 1) := by
    ext i
    simp only [geS, rowS, Finset.mem_union, Finset.mem_filter, Finset.mem_univ, true_and, Nat.mod_eq_of_lt hj]
    omega
  have hd : Disjoint (rowS j) (geS (j + 1)) := by
    rw [Finset.disjoint_left]
    intro i
    simp only [geS, rowS, Finset.mem_filter, Finset.mem_univ, true_and, Nat.mod_eq_of_lt hj]
    omega
  rw [rowPts_eq, hu]
  exact BI.Region.is_union hd

omit [FloatOps F] in
theorem ge_rows (c : Dev nD) (f : Buf (Elt F) ((gM : Memref sig .tc .vmem S32x1x512 .f32).view.loc (c : Thread nD τ))) :
    ∀ n j, j + n = 32 → (((gM : Memref sig .tc .vmem S32x1x512 .f32).view.loc (c : Thread nD τ) ↦[geS j]{fullShare} f)
      ⊣⊢ fromTo (fun k => rowPts c k fullShare f) j n)
  | 0, j, h => by
    have he : geS j = ∅ := by
      ext i
      have : (show Fin 32 from i 0).val < 32 := (i 0).isLt
      simp only [geS, Finset.mem_filter, Finset.mem_univ, true_and, Finset.notMem_empty, iff_false]
      omega
    rw [he, pointsTo_empty, fromTo_zero]
  | n + 1, j, h => by
    rw [fromTo_succ]
    exact (ge_split c j (by omega) fullShare f).trans (sep_congr_right (ge_rows c f n (j + 1) (by omega)))

omit [FloatOps F] in
/-- The buffer is its 32 rows. -/
theorem gPts_rows (c : Dev nD) (f : Buf (Elt F) ((gM : Memref sig .tc .vmem S32x1x512 .f32).view.loc (c : Thread nD τ))) :
    gPts c f ⊢ fromTo (fun k => rowPts c k fullShare f) 0 32 := by
  rw [gPts_eq]; exact (ge_rows c f 32 0 rfl).mp
omit [FloatOps F] in
theorem rows_gPts (c : Dev nD) (f : Buf (Elt F) ((gM : Memref sig .tc .vmem S32x1x512 .f32).view.loc (c : Thread nD τ))) :
    fromTo (fun k => rowPts c k fullShare f) 0 32 ⊢ gPts c f := by
  rw [gPts_eq]; exact (ge_rows c f 32 0 rfl).mpr

omit [FloatOps F] in
/-- A chain's last factor taken off. -/
theorem fromTo_snoc (Φ : ℕ → sProp 𝕄) : ∀ n i, fromTo Φ i (n + 1) ⊣⊢ iprop(fromTo Φ i n ∗ Φ (i + n))
  | 0, i => by
    rw [fromTo_succ, fromTo_zero, fromTo_zero, Nat.add_zero]
    exact sep_comm
  | n + 1, i => by
    rw [fromTo_succ Φ i (n + 1), fromTo_succ Φ i n]
    have h := fromTo_snoc Φ n (i + 1)
    rw [show i + 1 + n = i + (n + 1) by omega] at h
    exact (sep_congr_right h).trans sep_assoc.symm

omit [FloatOps F] in
/-- A chain over 1 … n read from its far end: factor `k` becomes factor `32 - k`. -/
theorem fromTo_rev (Φ Ψ : ℕ → sProp 𝕄) (h : ∀ k, 1 ≤ k → k ≤ 31 → Φ k ⊢ Ψ (32 - k)) :
    ∀ n, n ≤ 31 → fromTo Φ 1 n ⊢ fromTo Ψ (32 - n) n
  | 0, _ => by rw [fromTo_zero, fromTo_zero]
  | n + 1, hn => by
    have ih := fromTo_rev Φ Ψ h n (by omega)
    refine (fromTo_snoc Φ n 1).mp.trans ?_
    rw [show 32 - (n + 1) = 31 - n by omega, fromTo_succ, show 31 - n + 1 = 32 - n by omega]
    refine (BIClass.sep_mono ih (h (1 + n) (by omega) (by omega))).trans ?_
    rw [show 32 - (1 + n) = 31 - n by omega]
    exact sep_comm.mp

omit [FloatOps F] in
/-- The buffer is row 0 and, from the last row down, its other 31 rows. -/
theorem gPts_rows_rev (c : Dev nD) (f : Buf (Elt F) ((gM : Memref sig .tc .vmem S32x1x512 .f32).view.loc (c : Thread nD τ))) :
    gPts c f ⊢ iprop(rowPts c 0 fullShare f ∗ fromTo (fun k => iprop(∃ f' : Buf (Elt F) ((gM : Memref sig .tc .vmem S32x1x512 .f32).view.loc (c : Thread nD τ)), rowPts c (32 - k) fullShare f')) 1 31) := by
  refine (gPts_rows c f).trans ?_
  rw [fromTo_succ]
  refine sep_mono_right ?_
  refine fromTo_rev (fun k => rowPts c k fullShare f) (fun k => iprop(∃ f' : Buf (Elt F) ((gM : Memref sig .tc .vmem S32x1x512 .f32).view.loc (c : Thread nD τ)), rowPts c (32 - k) fullShare f')) ?_ 31 le_rfl
  intro k h1 h2
  beta_reduce
  rw [show 32 - (32 - k) = k by omega]
  exact exists_intro (Φ := fun f' => rowPts c k fullShare f') f
omit [FloatOps F] in
/-- What `n` copies have left of row 0 splits into copy `n + 1`'s share and what `n + 1` copies leave. -/
theorem rowPts_lend (c : Dev nD) (n : ℕ) (f : Buf (Elt F) ((gM : Memref sig .tc .vmem S32x1x512 .f32).view.loc (c : Thread nD τ))) :
    rowPts c 0 (rem n) f ⊢ iprop(rowPts c 0 (sh (n + 1)) f ∗ rowPts c 0 (rem (n + 1)) f) := by
  unfold rowPts
  exact (BI.Region.is_share (PosShare.mem_left_op_right (rem n))).mp
omit [FloatOps F] in
theorem rowPts_return (c : Dev nD) (n : ℕ) (f : Buf (Elt F) ((gM : Memref sig .tc .vmem S32x1x512 .f32).view.loc (c : Thread nD τ))) :
    iprop(rowPts c 0 (sh (n + 1)) f ∗ rowPts c 0 (rem (n + 1)) f) ⊢ rowPts c 0 (rem n) f := by
  unfold rowPts
  exact (BI.Region.is_share (PosShare.mem_left_op_right (rem n))).mpr

omit [FloatOps F] in
/-- A copy into any row is worth a row's credit on its arrival and on its departure semaphore. -/
theorem row_amount (k : ℕ) (sem : DmaSem sig) : (rowM k : Memref sig .tc .vmem S1x512 .f32).view.amount (.dma sem) = N := rfl

omit [FloatOps F] in
theorem access0_set : ((gM : Memref sig .tc .vmem S32x1x512 .f32).access r000).set = r000.set := by
  show ((View.whole cc0_scratch0).slice r000).set = _
  rw [View.set_slice_whole]

omit [FloatOps F] in
theorem mem_r000 {i : S32x1x512.Idx} (hi : i ∈ r000.set) : i ∈ (rowM 0 : Memref sig .tc .vmem S1x512 .f32).view.set := by
  rw [mem_row]
  have h0 := (Rect.mem_set_unit.mp hi) 0
  change 0 ≤ (i 0).val ∧ (i 0).val < 0 + 1 at h0
  show (i 0).val = 0 % 32
  omega

omit [FloatOps F] in
/-- The store into row 0 and the load before it touch row 0 only; the final load the whole buffer. -/
theorem store0_sub : ((gM : Memref sig .tc .vmem S32x1x512 .f32).access r000).setOn Finset.univ ⊆ (rowM 0 : Memref sig .tc .vmem S1x512 .f32).view.set := by
  intro i hi
  rw [View.setOn_univ, access0_set] at hi
  exact mem_r000 hi
omit [FloatOps F] in
theorem load0_sub : (gM : Memref sig .tc .vmem S32x1x512 .f32).view.setOn r000.toLoadRect.set ⊆ (rowM 0 : Memref sig .tc .vmem S1x512 .f32).view.set := by
  intro i hi
  obtain ⟨x, hx, e⟩ := Finset.mem_map.mp hi
  have : x = i := e
  subst this
  exact mem_r000 hx
omit [FloatOps F] in
theorem loadAll_sub : (gM : Memref sig .tc .vmem S32x1x512 .f32).view.setOn rAll.toLoadRect.set ⊆ (gM : Memref sig .tc .vmem S32x1x512 .f32).view.set :=
  View.setOn_subset_set _ _

omit [FloatOps F] in
/-- The store leaves the stored vector in row 0; -/
theorem store0_val (c : Dev nD) (f : Buf (Elt F) ((gM : Memref sig .tc .vmem S32x1x512 .f32).view.loc (c : Thread nD τ))) (v : S1x1x512.Idx → Elt F .f32) (i : S32x1x512.Idx)
    (hi : (show Fin 32 from i 0).val = 0) :
    ((gM : Memref sig .tc .vmem S32x1x512 .f32).access r000).write (Elt F) f v Finset.univ i = v (ValueIdx.ix3 (0 : Fin 1) (0 : Fin 1) (show Fin 512 from i 2)) := by
  change (i 0).val = 0 at hi
  have h1 : (i 1).val < 1 := (i 1).isLt
  have he : ((gM : Memref sig .tc .vmem S32x1x512 .f32).access r000).emb (ValueIdx.ix3 (0 : Fin 1) (0 : Fin 1) (show Fin 512 from i 2)) = i := by
    funext a
    apply Fin.ext
    fin_cases a
    · show 0 + 1 * 0 = (i 0).val; omega
    · show 0 + 1 * 0 = (i 1).val; omega
    · show 0 + 1 * (i 2).val = (i 2).val; omega
  have hw := View.write_emb_of_mem (v := (gM : Memref sig .tc .vmem S32x1x512 .f32).access r000) (Val := Elt F) f v
    (M := Finset.univ) (x := ValueIdx.ix3 (0 : Fin 1) (0 : Fin 1) (show Fin 512 from i 2)) (Finset.mem_univ _)
  rw [he] at hw
  exact hw

omit [FloatOps F] in
/-- a copy of the sender's row 0 leaves, in row `k` of the receiver, the sender's row 0; -/
theorem land_val (c c' : Dev nD) (k : ℕ)
    (fd : Buf (Elt F) ((rowM k : Memref sig .tc .vmem S1x512 .f32).view.loc (c' : Thread nD τ)))
    (fs : Buf (Elt F) ((rowM 0 : Memref sig .tc .vmem S1x512 .f32).view.loc (c : Thread nD τ))) (i : S32x1x512.Idx)
    (hi : (show Fin 32 from i 0).val = k % 32) :
    (rowM k : Memref sig .tc .vmem S1x512 .f32).view.write (Elt F) fd ((rowM 0 : Memref sig .tc .vmem S1x512 .f32).view.read (Elt F) fs) Finset.univ i
      = fs (ValueIdx.ix3 (0 : Fin 32) (0 : Fin 1) (show Fin 512 from i 2)) := by
  obtain ⟨x, hx⟩ := View.exists_emb_of_mem_set (rowM k : Memref sig .tc .vmem S1x512 .f32).view ((mem_row k i).mpr hi)
  have hw := View.write_emb_of_mem (v := (rowM k : Memref sig .tc .vmem S1x512 .f32).view) (Val := Elt F) fd
    ((rowM 0 : Memref sig .tc .vmem S1x512 .f32).view.read (Elt F) fs) (M := Finset.univ) (x := x) (Finset.mem_univ _)
  rw [hx] at hw
  rw [hw, View.read_apply]
  -- the row index `x` seen as an index of the 1 × 1 × 512 rectangle
  let y : S1x1x512.Idx := Shape.reshapeEquiv (Shape.Squeezes.numel_eq squeezes_S1x1x512_S1x512) x
  have e2 : (i 2).val = (y 2).val := by
    have := congrArg (fun j : S32x1x512.Idx => (j 2).val) hx
    change 0 + 1 * (y 2).val = (i 2).val at this
    omega
  have y0 : (y 0).val < 1 := (y 0).isLt
  have y1 : (y 1).val < 1 := (y 1).isLt
  have he : (rowM 0 : Memref sig .tc .vmem S1x512 .f32).view.emb x = ValueIdx.ix3 (0 : Fin 32) (0 : Fin 1) (show Fin 512 from i 2) := by
    funext a
    apply Fin.ext
    fin_cases a
    · show 0 % 32 + 1 * (y 0).val = 0; omega
    · show 0 + 1 * (y 1).val = 0; omega
    · show 0 + 1 * (y 2).val = (i 2).val; omega
  rw [he]
  rfl

omit [FloatOps F] in
/-- and the final load of the whole buffer reads its contents. -/
theorem readAll (f : (cc0_scratch0 : Ref sig .tc).ty.Contents (Elt F)) :
    (gM : Memref sig .tc .vmem S32x1x512 .f32).view.readAt (Elt F) rAll.toLoadRect f = f := by
  have hz : (![0, 0, 0] : Fin 3 → Nat) = fun _ => 0 := by
    funext a; fin_cases a <;> rfl
  exact Memref.readAt_unit_zero (Elt F) cc0_scratch0 hz _ f

/-- info: 'Cert.KernelIdealProof.gPts_rows_rev' depends on axioms: [propext, Classical.choice, Quot.sound] -/
#guard_msgs in #print axioms gPts_rows_rev

/-- info: 'Cert.KernelIdealProof.land_val' depends on axioms: [propext, Classical.choice, Quot.sound] -/
#guard_msgs in #print axioms land_val

end Cert.KernelIdealProof

end
-- ==== Proof.Steps.lean ====
/-
  One device's body, one effect at a time: each lemma takes the protocol's state before an effect to the state
  after it, for a symbolic ring offset.
-/
import proofs.«901070_g7700000000001071_dist_sum_ax0_shard0_i_m1024_n512_v7x_i32_bf16_1_alg».proof.Proof.Tables
import proofs.«901070_g7700000000001071_dist_sum_ax0_shard0_i_m1024_n512_v7x_i32_bf16_1_alg».proof.Proof.Rows

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

/-! ## Reading the records -/

theorem inv_at (ck : Dev nD × CK) :
    (bigSep Finset.univ fun ck : Dev nD × CK => (cellInv ER (Rd m ρ) (K ck) (kcell ck) : sProp 𝕄)) ⊢ cellInv ER (Rd m ρ) (K ck) (kcell ck) :=
  bigSep_elim (Finset.mem_univ ck)
omit [FloatOps F] in
theorem reached_at (ck : Dev nD × CK) :
    (bigSep Finset.univ fun ck : Dev nD × CK => (reached ER (kcell ck) 0 : sProp 𝕄)) ⊢ reached ER (kcell ck) 0 :=
  bigSep_elim (Finset.mem_univ ck)

theorem rec_inv (ck : Dev nD × CK) : records m ρ K ⊢ cellInv ER (Rd m ρ) (K ck) (kcell ck) := by
  unfold records
  iintro ⟨HI, -⟩
  iapply (inv_at m ρ K ck); iexact HI
theorem rec_reached (ck : Dev nD × CK) : records m ρ K ⊢ reached ER (kcell ck) 0 := by
  unfold records
  iintro ⟨-, HR⟩
  iapply (reached_at (F := F) ck); iexact HR

theorem rec_inv_bar (c' : Dev nD) : records m ρ K ⊢ cellInv ER (Rd m ρ) (K (c', .bar)) (barCell c') := rec_inv m ρ K (c', .bar)
theorem rec_inv_send (c' : Dev nD) (j : ℕ) (hj : j < 32) : records m ρ K ⊢ cellInv ER (Rd m ρ) (K (c', .send ⟨j, hj⟩)) (sendCell c' j) :=
  rec_inv m ρ K (c', .send ⟨j, hj⟩)
theorem rec_inv_recv (c' : Dev nD) (j : ℕ) (hj : j < 32) : records m ρ K ⊢ cellInv ER (Rd m ρ) (K (c', .recv ⟨j, hj⟩)) (recvCell c' j) :=
  rec_inv m ρ K (c', .recv ⟨j, hj⟩)
theorem rec_reached_bar (c' : Dev nD) : records m ρ K ⊢ reached ER (barCell c') 0 := rec_reached m ρ K (c', .bar)
theorem rec_reached_send (c' : Dev nD) (j : ℕ) (hj : j < 32) : records m ρ K ⊢ reached ER (sendCell c' j) 0 := rec_reached m ρ K (c', .send ⟨j, hj⟩)
theorem rec_reached_recv (c' : Dev nD) (j : ℕ) (hj : j < 32) : records m ρ K ⊢ reached ER (recvCell c' j) 0 := rec_reached m ρ K (c', .recv ⟨j, hj⟩)

theorem fk_val (k : ℕ) (hk : k ≤ 31) : (fk k).val = k := Nat.mod_eq_of_lt (by omega)
theorem fk_mem (k : ℕ) (hk1 : 1 ≤ k) (hk : k ≤ 31) : fk k ∈ (Finset.univ.erase 0 : Finset (Fin 32)) := by
  refine Finset.mem_erase.mpr ⟨fun h => ?_, Finset.mem_univ _⟩
  have := congrArg Fin.val h
  rw [fk_val k hk] at this
  exact absurd this (by show ¬ k = 0; omega)

/-! ## Chains that grow at the far end -/

/-- `((emp ∗ Φ 1) ∗ Φ 2) ∗ … ∗ Φ n`: what `n` steps have left behind, the latest last. -/
def accL (Φ : ℕ → sProp 𝕄) : ℕ → sProp 𝕄
  | 0 => iprop(emp)
  | n + 1 => iprop(accL Φ n ∗ Φ (n + 1))

omit [FloatOps F] in
theorem accL_succ (Φ : ℕ → sProp 𝕄) (n : ℕ) : accL Φ (n + 1) = iprop(accL Φ n ∗ Φ (n + 1)) := rfl

omit [FloatOps F] in
/-- What was collected first to last is the chain first to last. -/
theorem accL_fromTo (Φ : ℕ → sProp 𝕄) : ∀ n j : ℕ, iprop(accL Φ n ∗ fromTo Φ (n + 1) j) ⊢ fromTo Φ 1 (n + j)
  | 0, j => by
    rw [Nat.zero_add j]
    iintro ⟨-, H⟩; iexact H
  | n + 1, j => by
    have h := accL_fromTo Φ n (j + 1)
    rw [show n + 1 + j = n + (j + 1) by omega]
    have h2 : iprop(accL Φ (n + 1) ∗ fromTo Φ (n + 1 + 1) j) ⊢ iprop(accL Φ n ∗ fromTo Φ (n + 1) (j + 1)) := by
      rw [accL_succ, fromTo_succ]
      iintro ⟨⟨Ha, Hp⟩, Hf⟩
      isplitl [Ha]; · iexact Ha
      isplitl [Hp]; · iexact Hp
      iexact Hf
    exact h2.trans h

/-! ## A signal -/

def sigTok (c : Dev nD) (k : ℕ) : sProp 𝕄 := dutyTok ER (barCell (dv c k)) 0 (fk k)
def sigRow (c : Dev nD) (k : ℕ) : sProp 𝕄 :=
  iprop(∃ f' : Buf (Elt F) ((gM : Memref sig .tc .vmem S32x1x512 .f32).view.loc (c : Thread nD τ)), rowPts c (32 - k) fullShare f')

/-- Signal `k` (with `n` more to go): pays unit `k` of the peer's barrier cell with the row the peer's copy will land in. -/
theorem step_signal (c : Dev nD) (k n : ℕ) (hk : k + n = 31) (hk1 : 1 ≤ k)
    {α : Type} {Q : α → sProp 𝕄} {kont : PUnit → Prog (TpuEff nD τ sig (Elt F) Λ₀ .tc) α} (W : Waits sig Unit) (R : sProp 𝕄)
    (hnext : iprop(records m ρ K ∗ owes (c : Thread nD τ) (remG c n) W ∗ fromTo (sigTok (F := F) c) (k + 1) n ∗ fromTo (sigRow (F := F) c) (k + 1) n ∗ R)
        ⊢ wp frame (wpE (defs₀ (F := F)) 𝒱₀ (c : Thread nD τ) none) Set.univ (kont ⟨⟩) Q) :
    iprop(records m ρ K ∗ owes (c : Thread nD τ) (remG c (n + 1)) W ∗ fromTo (sigTok (F := F) c) k (n + 1) ∗ fromTo (sigRow (F := F) c) k (n + 1) ∗ R)
      ⊢ wp frame (wpE (defs₀ (F := F)) 𝒱₀ (c : Thread nD τ) none) Set.univ
          (.op (.semSignal (dv c k : Thread nD τ) barS 1) kont) Q := by
  have e31 : 31 - n = k := by omega
  have hk31 : k ≤ 31 := by omega
  rw [fromTo_succ, fromTo_succ]
  unfold sigTok sigRow
  iintro ⟨#Hrec, HO, ⟨Htok, Hrest⟩, ⟨⟨%f, Hrow⟩, Hrest'⟩, HR⟩
  iapply (Rounds.wp_signal 𝒱₀ ER (Rd m ρ) (c : Thread nD τ) none (dst := (dv c k : Thread nD τ)) (κ := K (dv c k, .bar))
      (d := fk k) (by rw [duties_bar]; exact fk_mem k hk1 hk31) (amount_bar m ρ (dv c k) (fk k)) () (remG c n)
      (by show remG c n + tallyAt (barCell (dv c (31 - n))) () 1 = _; rw [e31])) $$ [HO Htok Hrow]
  · isplitr; · iapply (rec_inv_bar m ρ K (dv c k)); iexact Hrec
    isplitl [HO]; · iexact HO
    isplitl [Htok]; · iexact Htok
    isplitl [Hrow]
    · rw [payload_bar]; unfold barPay; rw [fk_val k hk31, dv_back c k (by omega)]
      isplitl [Hrow]; · iexists f; iexact Hrow
      iapply (rec_reached_recv m ρ K c (32 - k) (by omega)); iexact Hrec
    · iapply (rec_reached_bar m ρ K (dv c k)); iexact Hrec
  iintro HO
  iapply hnext
  isplitr; · iexact Hrec
  isplitl [HO]; · iexact HO
  isplitl [Hrest]; · iexact Hrest
  isplitl [Hrest']; · iexact Hrest'
  iexact HR

/-! ## The device's own sums into row 0 -/

omit [FloatOps F] in
theorem hz2 : (![0, 0] : Fin 2 → Nat) = fun _ => 0 := funext fun a => by fin_cases a <;> rfl

abbrev rx : Rect S1024x512 := Rect.unit (s := S1024x512) ![0, 0] S1024x512.size inb_S1024x512_S1024x512_0_0
abbrev ro : Rect S1x512 := Rect.unit (s := S1x512) ![0, 0] S1x512.size inb_S1x512_S1x512_0_0

omit [FloatOps F] in
theorem read_x (f : (cc0_stg0_0 : Ref sig .tc).ty.Contents (Elt F)) : (xM : Memref sig .tc .vmem S1024x512 .f32).view.readAt (Elt F) rx.toLoadRect f = f :=
  Memref.readAt_unit_zero (Elt F) cc0_stg0_0 hz2 _ f
omit [FloatOps F] in
theorem write_out (f w : (cc0_stg1_0 : Ref sig .tc).ty.Contents (Elt F)) :
    ((oM : Memref sig .tc .vmem S1x512 .f32).access ro : View sig .tc _ _ _).write (Elt F) f w Finset.univ = w :=
  Memref.write_access_unit_zero_univ (Elt F) cc0_stg1_0 hz2 _ f w

theorem dv_32 (c : Dev nD) : dv c 32 = c := by
  apply Fin.ext
  show (c.val + 32) % 32 = c.val
  have h : c.val < 32 := c.isLt
  omega

/-- The device's block of `x`, whole. -/
abbrev xPts (c : Dev nD) : sProp 𝕄 := (((c : Thread nD τ).loc cc0_stg0_0) ↦{fullShare} xstg m ρ c : sProp 𝕄)

/-- Load the block, (load and) store its column sums into row 0: row 0 then holds what `gath` says. -/
theorem step_local (c : Dev nD) {α : Type} {Q : α → sProp 𝕄} {kont : PUnit → Prog (TpuEff nD τ sig (Elt F) Λ₀ .tc) α}
    {hl hl' hx hm} (f : Buf (Elt F) ((gM : Memref sig .tc .vmem S32x1x512 .f32).view.loc (c : Thread nD τ))) (R : sProp 𝕄)
    (hnext : iprop(xPts m ρ c ∗ rowPts c 0 (rem 0) (gath m ρ c) ∗ R)
        ⊢ wp frame (wpE (defs₀ (F := F)) 𝒱₀ (c : Thread nD τ) none) Set.univ (kont ⟨⟩) Q) :
    iprop(xPts m ρ c ∗ rowPts c 0 fullShare f ∗ R)
      ⊢ wp frame (wpE (defs₀ (F := F)) 𝒱₀ (c : Thread nD τ) none) Set.univ
          (.op (.load xM rx.toLoadRect hl) fun v128 =>
            .op (.load gM r000.toLoadRect hl') fun _ =>
              .op (.store gM r000 (k0_pay2 v128) Finset.univ hx hm) kont) Q := by
  iintro ⟨Hx, Hrow, HR⟩
  iapply (wp_load 𝒱₀ (c : Thread nD τ) none Set.univ (m := xM) (Finset.subset_univ _)) $$ Hx; iintro Hx
  rw [read_x]
  unfold rowPts
  iapply (wp_load 𝒱₀ (c : Thread nD τ) none Set.univ (m := gM) (load0_sub)) $$ Hrow; iintro Hrow
  iapply (wp_store 𝒱₀ (c : Thread nD τ) none Set.univ (m := gM) (r := r000) (Mk := Finset.univ) (store0_sub)) $$ Hrow; iintro Hrow
  iapply hnext
  isplitl [Hx]; · iexact Hx
  isplitl [Hrow]
  · have e := rowPts_congr (F := F) c 0 fullShare
      (f := ((gM : Memref sig .tc .vmem S32x1x512 .f32).access r000).write (Elt F) f (k0_pay2 (xstg m ρ c)) Finset.univ) (g := gath m ρ c)
      (fun i hi => by
        rw [store0_val c f _ i (by simpa using hi)]
        unfold gath
        rw [show (show Fin 32 from i 0).val = 0 from by simpa using hi, dv_32])
    rw [show rem 0 = fullShare from rfl, ← e]
    unfold rowPts
    iexact Hrow
  iexact HR

/-! ## The barrier wait -/

/-- The wait for 31 on the barrier, owing the 31 arrivals: the 31 peers' rows come with it. -/
theorem step_barwait (c : Dev nD) {α : Type} {Q : α → sProp 𝕄} {kont : PUnit → Prog (TpuEff nD τ sig (Elt F) Λ₀ .tc) α}
    (W : Waits sig Unit) (R : sProp 𝕄)
    (hnext : iprop(records m ρ K ∗ owes (c : Thread nD τ) (remS c 31) (insert (SemLoc.reg barS, ()) W) ∗ fromTo (peerRow (F := F) c) 1 31 ∗ R)
        ⊢ wp frame (wpE (defs₀ (F := F)) 𝒱₀ (c : Thread nD τ) none) Set.univ (kont ⟨⟩) Q) :
    iprop(records m ρ K ∗ owes (c : Thread nD τ) (remS c 31) W ∗ levAts L lv ∗ cred (tallyAt (barCell c) () 31) ∗ atPos ER (barCell c) 0 ∅ 0 ∗ R)
      ⊢ wp frame (wpE (defs₀ (F := F)) 𝒱₀ (c : Thread nD τ) none) Set.univ
          (.op (.semWait barS 31) kont) Q := by
  iintro ⟨#Hrec, HO, #Hlev, HcB, HatB, HR⟩
  iapply (Rounds.wp_wait_rest_token 𝒱₀ ER (Rd m ρ) (c : Thread nD τ) none (κ := K (c, .bar))
      (wpE_semWait_eq 𝒱₀ (c : Thread nD τ) none Set.univ) (Set.mem_univ _) () (O := remS c 31) (W := W) (R := 0) (m := 0) (T := ∅)
      (by rw [expect_bar])) $$ [HcB HO HatB]
  · isplitr; · iapply (rec_inv_bar m ρ K c); iexact Hrec
    isplitl [HcB]; · iexact HcB
    isplitl [HO]; · iexact HO
    isplitr; · iapply (mayWait_bar c); iexact Hlev
    iexact HatB
  iintro ⟨HO, -, -, Hpay⟩
  ihave Hp := (rest_bar m ρ c) $$ Hpay
  iapply hnext
  isplitr; · iexact Hrec
  isplitl [HO]; · iexact HO
  isplitl [Hp]; · iexact Hp
  iexact HR

/-! ## A copy -/

/-- The credit a copy's departure returns at once. -/
def credS (c : Dev nD) (k : ℕ) : sProp 𝕄 := cred (tallyAt (sendCell c k) () N)

/-- What lands in row `k` of the device `k` places on is what that device's `gath` says: the column sums of the
    device `k` places before it. -/
theorem landed_eq (c : Dev nD) (k : ℕ) (hk1 : 1 ≤ k) (hk : k ≤ 31)
    (fn : Buf (Elt F) ((rowM k : Memref sig .tc .vmem S1x512 .f32).view.loc (dv c k : Thread nD τ))) :
    rowPts (dv c k) k fullShare
        ((rowM k : Memref sig .tc .vmem S1x512 .f32).view.write (Elt F) fn ((rowM 0 : Memref sig .tc .vmem S1x512 .f32).view.read (Elt F) (gath m ρ c)) Finset.univ)
      = rowPts (dv c k) k fullShare (gath m ρ (dv c k)) := by
  refine rowPts_congr (F := F) (dv c k) k fullShare (fun i hi => ?_)
  have hi' : (show Fin 32 from i 0).val = k := by rw [hi]; exact Nat.mod_eq_of_lt (by omega)
  rw [land_val c (dv c k) k fn (gath m ρ c) i hi]
  unfold gath
  rw [hi', dv_back c k (by omega)]
  show k0_pay2 (xstg m ρ (dv c 32)) _ = _
  rw [dv_32]
  rfl

/-- Copy `j + 1` (with `n` more to go): lends a share of row 0, writes the peer's row, pays the peer's arrival. -/
theorem step_send (c : Dev nD) (j n : ℕ) (hj : j + 1 + n = 31) (d : Dev nD) (hd : d = dv c (j + 1))
    {α : Type} {Q : α → sProp 𝕄} {kont : PUnit → Prog (TpuEff nD τ sig (Elt F) Λ₀ .tc) α}
    {hsc hsrc hdst hsem} (W : Waits sig Unit) (R : sProp 𝕄)
    (hnext : iprop(records m ρ K ∗ owes (c : Thread nD τ) (remS c n) W ∗ fromTo (cpyRes (F := F) c) (j + 2) n ∗ fromTo (peerRow (F := F) c) (j + 2) n
          ∗ rowPts c 0 (rem (j + 1)) (gath m ρ c) ∗ accL (credS (F := F) c) (j + 1) ∗ R)
        ⊢ wp frame (wpE (defs₀ (F := F)) 𝒱₀ (c : Thread nD τ) none) Set.univ (kont ⟨⟩) Q) :
    iprop(records m ρ K ∗ owes (c : Thread nD τ) (remS c (n + 1)) W ∗ fromTo (cpyRes (F := F) c) (j + 1) (n + 1) ∗ fromTo (peerRow (F := F) c) (j + 1) (n + 1)
          ∗ rowPts c 0 (rem j) (gath m ρ c) ∗ accL (credS (F := F) c) j ∗ R)
      ⊢ wp frame (wpE (defs₀ (F := F)) 𝒱₀ (c : Thread nD τ) none) Set.univ
          (.op (.enqueueDma (rowM 0) (.remote (d : Thread nD τ) (rowM (j + 1)) (.dma (sendS (j + 1)).sem) hsc) (.dma (recvS (j + 1)).sem) hsrc hdst hsem) kont) Q := by
  subst hd
  have hk31 : j + 1 ≤ 31 := by omega
  have hlt : j + 1 < 32 := by omega
  have e31 : 31 - n = j + 1 := by omega
  rw [fromTo_succ, fromTo_succ]
  unfold cpyRes peerRow
  iintro ⟨#Hrec, HO, ⟨⟨HtS, HtV⟩, Hc'⟩, ⟨⟨⟨%fn, Hdst⟩, #HrV⟩, Hp'⟩, Hsrc, Hacc, HR⟩
  ihave Hsp := (rowPts_lend (F := F) c j (gath m ρ c)) $$ Hsrc
  icases Hsp with ⟨Hlend, Hkeep⟩
  iapply (Rounds.wp_send_pointsTo 𝒱₀ ER (Rd m ρ) (c : Thread nD τ) none (c' := (dv c (j + 1) : Thread nD τ))
      (src := rowM 0) (dst := rowM (j + 1)) (q := sh (j + 1)) (fs := gath m ρ c) (fd := fn)
      (κ₁ := K (c, .send ⟨j + 1, hlt⟩)) (κ₂ := K (dv c (j + 1), .recv ⟨j + 1, hlt⟩)) (r₁ := 0) (r₂ := 0) (d₁ := 0) (d₂ := 0)
      (by rw [duties_send m ρ c (j + 1) ⟨by omega, hk31⟩]; exact Finset.mem_singleton_self _)
      (by rw [duties_recv m ρ (dv c (j + 1)) (j + 1) ⟨by omega, hk31⟩]; exact Finset.mem_singleton_self _)
      () () N (row_amount (j + 1) _) (amount_send m ρ c (j + 1) 0) (amount_recv m ρ (dv c (j + 1)) (j + 1) 0) (remS c n)
      (by show remS c n + tallyAt (recvCell (dv c (31 - n)) (31 - n)) () N = _; rw [e31]) (W := W)
      (by rw [payload_send m ρ c (j + 1) ⟨by omega, hk31⟩]; unfold sendPay rowPts; exact BI.Entails.refl _)
      (by rw [payload_recv m ρ (dv c (j + 1)) (j + 1) ⟨by omega, hk31⟩]; unfold recvPay
          exact Entails.of_eq (landed_eq m ρ c (j + 1) (by omega) hk31 fn))) $$ [Hlend Hdst HO HtS HtV]
  · isplitr; · iapply (rec_inv_send m ρ K c (j + 1) hlt); iexact Hrec
    isplitr; · iapply (rec_inv_recv m ρ K (dv c (j + 1)) (j + 1) hlt); iexact Hrec
    isplitl [Hlend]; · unfold rowPts; iexact Hlend
    isplitl [Hdst]; · unfold rowPts; iexact Hdst
    isplitl [HO]; · iexact HO
    isplitl [HtS]; · iexact HtS
    isplitr; · iapply (rec_reached_send m ρ K c (j + 1) hlt); iexact Hrec
    isplitl [HtV]; · iexact HtV
    iexact HrV
  iintro ⟨HcS, HO⟩
  iapply hnext
  isplitr; · iexact Hrec
  isplitl [HO]; · iexact HO
  isplitl [Hc']; · iexact Hc'
  isplitl [Hp']; · iexact Hp'
  isplitl [Hkeep]; · iexact Hkeep
  isplitl [Hacc HcS]
  · rw [accL_succ]; isplitl [Hacc]; · iexact Hacc
    unfold credS; iexact HcS
  iexact HR

/-! ## The two waits of a copy -/

/-- What the two waits of copy `k` leave: the lent share of row 0 back, row `k` holding the sender's sums, both cells
    past their one round. -/
def doneRes (c : Dev nD) (k : ℕ) : sProp 𝕄 :=
  iprop(rowPts c 0 (sh k) (gath m ρ c) ∗ rowPts c k fullShare (gath m ρ c) ∗ atPos ER (sendCell c k) 1 ∅ 0 ∗ atPos ER (recvCell c k) 1 ∅ 0)

/-- The departure wait and the arrival wait of copy `j + 1` (with `n` more copies to wait for), nothing owed any more. -/
theorem step_waits (c : Dev nD) (j n : ℕ) (hj : j + 1 + n = 31)
    {α : Type} {Q : α → sProp 𝕄} {kont : PUnit → Prog (TpuEff nD τ sig (Elt F) Λ₀ .tc) α}
    {h1 h2 h3 h4} (W : Waits sig Unit) (R : sProp 𝕄)
    (hnext : ∀ W' : Waits sig Unit, iprop(records m ρ K ∗ owes (c : Thread nD τ) 0 W' ∗ fromTo (credS (F := F) c) (j + 2) n ∗ fromTo (waitRes (F := F) c) (j + 2) n
          ∗ accL (doneRes m ρ c) (j + 1) ∗ R)
        ⊢ wp frame (wpE (defs₀ (F := F)) 𝒱₀ (c : Thread nD τ) none) Set.univ (kont ⟨⟩) Q) :
    iprop(records m ρ K ∗ owes (c : Thread nD τ) 0 W ∗ fromTo (credS (F := F) c) (j + 1) (n + 1) ∗ fromTo (waitRes (F := F) c) (j + 1) (n + 1)
          ∗ accL (doneRes m ρ c) j ∗ R)
      ⊢ wp frame (wpE (defs₀ (F := F)) 𝒱₀ (c : Thread nD τ) none) Set.univ
          (.op (.waitDma2 (sendS (j + 1)).sem (rowM (j + 1)) (rowM 0) h1 h2) fun _ =>
            .op (.waitDma2 (recvS (j + 1)).sem (rowM 0) (rowM (j + 1)) h3 h4) kont) Q := by
  have hk31 : j + 1 ≤ 31 := by omega
  have hk : 1 ≤ j + 1 ∧ j + 1 ≤ 31 := ⟨by omega, hk31⟩
  have hlt : j + 1 < 32 := by omega
  rw [fromTo_succ, fromTo_succ]
  unfold credS waitRes
  iintro ⟨#Hrec, HO, ⟨HcS, Hc'⟩, ⟨⟨HatS, HatV, HcV⟩, Hw'⟩, Hacc, HR⟩
  iapply (Rounds.wp_wait_rest_token 𝒱₀ ER (Rd m ρ) (c : Thread nD τ) none (κ := K (c, .send ⟨j + 1, hlt⟩))
      (wpE_waitDma2_eq 𝒱₀ (c : Thread nD τ) none Set.univ) (Set.mem_univ _) () (O := 0) (W := W) (R := 0) (m := 0) (T := ∅)
      (by rw [Nat.zero_add, expect_send m ρ c (j + 1) hk])) $$ [HcS HO HatS]
  · isplitr; · iapply (rec_inv_send m ρ K c (j + 1) hlt); iexact Hrec
    isplitl [HcS]; · iexact HcS
    isplitl [HO]; · iexact HO
    isplitr; · rw [MayWait_zero]; iempintro
    iexact HatS
  iintro ⟨HO, HatS, -, Hpay⟩
  ihave Hshare := (Entails.of_eq (rest_send m ρ c (j + 1) hk)) $$ Hpay
  iapply (Rounds.wp_wait_rest_token 𝒱₀ ER (Rd m ρ) (c : Thread nD τ) none (κ := K (c, .recv ⟨j + 1, hlt⟩))
      (wpE_waitDma2_eq 𝒱₀ (c : Thread nD τ) none Set.univ) (Set.mem_univ _) () (O := 0) (R := 0) (m := 0) (T := ∅)
      (by rw [Nat.zero_add, expect_recv m ρ c (j + 1) hk])) $$ [HcV HO HatV]
  · isplitr; · iapply (rec_inv_recv m ρ K c (j + 1) hlt); iexact Hrec
    isplitl [HcV]; · iexact HcV
    isplitl [HO]; · iexact HO
    isplitr; · rw [MayWait_zero]; iempintro
    iexact HatV
  iintro ⟨HO, HatV, -, Hpay⟩
  ihave Hrow := (Entails.of_eq (rest_recv m ρ c (j + 1) hk)) $$ Hpay
  iapply (hnext _)
  isplitr; · iexact Hrec
  isplitl [HO]; · iexact HO
  isplitl [Hc']; · iexact Hc'
  isplitl [Hw']; · iexact Hw'
  isplitl [Hacc Hshare Hrow HatS HatV]
  · rw [accL_succ]; isplitl [Hacc]; · iexact Hacc
    unfold doneRes sendPay recvPay
    isplitl [Hshare]; · iexact Hshare
    isplitl [Hrow]; · iexact Hrow
    isplitl [HatS]; · iexact HatS
    iexact HatV
  iexact HR

end Cert.KernelIdealProof

end
-- ==== Proof.Chains.lean ====
/-
  Chains of resources taken apart and put together: three chains side by side, the 31 lent shares of row 0 back
  into one, and the departure and arrival cells closed one after the other.
-/
import proofs.«901070_g7700000000001071_dist_sum_ax0_shard0_i_m1024_n512_v7x_i32_bf16_1_alg».proof.Proof.Tables
import proofs.«901070_g7700000000001071_dist_sum_ax0_shard0_i_m1024_n512_v7x_i32_bf16_1_alg».proof.Proof.Rows

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- A chain of triples is three chains. -/
theorem fromTo_sep3 (A B C : ℕ → sProp 𝕄) : ∀ n i : ℕ,
    fromTo (fun k => iprop(A k ∗ B k ∗ C k)) i n ⊢ iprop(fromTo A i n ∗ fromTo B i n ∗ fromTo C i n)
  | 0, i => by
    rw [fromTo_zero, fromTo_zero, fromTo_zero, fromTo_zero]
    iintro -
    isplitr; · iempintro
    isplitr; · iempintro
    iempintro
  | n + 1, i => by
    rw [fromTo_succ, fromTo_succ, fromTo_succ, fromTo_succ]
    iintro ⟨⟨Ha, Hb, Hc⟩, Hr⟩
    ihave Hr' := (fromTo_sep3 A B C n (i + 1)) $$ Hr
    icases Hr' with ⟨Ha', Hb', Hc'⟩
    isplitl [Ha Ha']
    · isplitl [Ha]; · iexact Ha
      iexact Ha'
    isplitl [Hb Hb']
    · isplitl [Hb]; · iexact Hb
      iexact Hb'
    isplitl [Hc]; · iexact Hc
    iexact Hc'

omit [FloatOps F] in
/-- The shares of row 0 lent to copies `a + 1 … a + n`, and what `a + n` copies left, are what `a` copies left. -/
theorem shares_back (c : Dev nD) (g : Buf (Elt F) ((gM : Memref sig .tc .vmem S32x1x512 .f32).view.loc (c : Thread nD τ))) : ∀ n a : ℕ,
    iprop(fromTo (fun k => rowPts c 0 (sh k) g) (a + 1) n ∗ rowPts c 0 (rem (a + n)) g) ⊢ rowPts c 0 (rem a) g
  | 0, a => by
    rw [fromTo_zero, Nat.add_zero]
    iintro ⟨-, H⟩
    iexact H
  | n + 1, a => by
    rw [fromTo_succ, show a + (n + 1) = a + 1 + n from by omega]
    iintro ⟨⟨Hs, Hr⟩, Hrem⟩
    iapply (rowPts_return c a g)
    isplitl [Hs]; · iexact Hs
    iapply (shares_back c g n (a + 1))
    isplitl [Hr]; · iexact Hr
    iexact Hrem

variable (K : Dev nD × CK → ℕ)

/-- The invariants of a device's departure and arrival cells, out of the record of all cells. -/
theorem ch_inv_send (c : Dev nD) (k : ℕ) (hk : k < 32) :
    records m ρ K ⊢ cellInv ER (Rd m ρ) (K (c, .send ⟨k, hk⟩)) (sendCell c k) := by
  unfold records
  have h : (bigSep Finset.univ fun ck : Dev nD × CK => cellInv ER (Rd m ρ) (K ck) (kcell ck))
      ⊢ cellInv ER (Rd m ρ) (K (c, .send ⟨k, hk⟩)) (sendCell c k) := bigSep_elim (Finset.mem_univ (c, CK.send ⟨k, hk⟩))
  iintro ⟨H, -⟩
  iapply h
  iexact H
theorem ch_inv_recv (c : Dev nD) (k : ℕ) (hk : k < 32) :
    records m ρ K ⊢ cellInv ER (Rd m ρ) (K (c, .recv ⟨k, hk⟩)) (recvCell c k) := by
  unfold records
  have h : (bigSep Finset.univ fun ck : Dev nD × CK => cellInv ER (Rd m ρ) (K ck) (kcell ck))
      ⊢ cellInv ER (Rd m ρ) (K (c, .recv ⟨k, hk⟩)) (recvCell c k) := bigSep_elim (Finset.mem_univ (c, CK.recv ⟨k, hk⟩))
  iintro ⟨H, -⟩
  iapply h
  iexact H

/-- A departure or arrival cell standing, nothing taken, at a round from which on it has no duty closes: its counter reads zero. -/
theorem ch_close_send (c : Dev nD) (k : ℕ) (hk : k < 32) (R : ℕ) (hR : ∀ r, R ≤ r → (Rd (F := F) m ρ).duties (sendCell c k) r = ∅) :
    iprop(records m ρ K ∗ atPos ER (sendCell c k) R ∅ 0) ⊢ (|={Set.univ}=> semVal (sendCell c k) 0 : sProp 𝕄) := by
  iintro ⟨#Hrec, Hat⟩
  iapply (Rounds.cell_close ER (Rd m ρ) (Set.mem_univ (K (c, .send ⟨k, hk⟩))) (fun h => h) (R := R) hR)
  isplitr
  · iapply (ch_inv_send m ρ K c k hk); iexact Hrec
  · iexact Hat
theorem ch_close_recv (c : Dev nD) (k : ℕ) (hk : k < 32) (R : ℕ) (hR : ∀ r, R ≤ r → (Rd (F := F) m ρ).duties (recvCell c k) r = ∅) :
    iprop(records m ρ K ∗ atPos ER (recvCell c k) R ∅ 0) ⊢ (|={Set.univ}=> semVal (recvCell c k) 0 : sProp 𝕄) := by
  iintro ⟨#Hrec, Hat⟩
  iapply (Rounds.cell_close ER (Rd m ρ) (Set.mem_univ (K (c, .recv ⟨k, hk⟩))) (fun h => h) (R := R) hR)
  isplitr
  · iapply (ch_inv_recv m ρ K c k hk); iexact Hrec
  · iexact Hat

/-- The departure and arrival cells of copies `i … i + n - 1`, each past its one round, close: their counters read zero. -/
theorem close_cells (c : Dev nD) : ∀ n i : ℕ, 1 ≤ i → i + n ≤ 32 →
    iprop(records m ρ K ∗ fromTo (fun k => iprop(atPos ER (sendCell c k) 1 ∅ 0 ∗ atPos ER (recvCell c k) 1 ∅ 0)) i n)
      ⊢ (|={Set.univ}=> fromTo (fun k => iprop(semVal (sendCell c k) 0 ∗ semVal (recvCell c k) 0)) i n : sProp 𝕄)
  | 0, i, _, _ => by
    rw [fromTo_zero, fromTo_zero]
    iintro -
    imodintro
    iempintro
  | n + 1, i, hi, hn => by
    rw [fromTo_succ, fromTo_succ]
    iintro ⟨#Hrec, ⟨HatS, HatR⟩, Hrest⟩
    imod (ch_close_send m ρ K c i (by omega) 1 (duties_later m ρ (sendCell c i))) $$ [HatS] with HzS
    · isplitr; · iexact Hrec
      iexact HatS
    imod (ch_close_recv m ρ K c i (by omega) 1 (duties_later m ρ (recvCell c i))) $$ [HatR] with HzR
    · isplitr; · iexact Hrec
      iexact HatR
    imod (close_cells c n (i + 1) (by omega) (by omega)) $$ [Hrest] with Hz
    · isplitr; · iexact Hrec
      iexact Hrest
    imodintro
    isplitl [HzS HzR]
    · isplitl [HzS]; · iexact HzS
      iexact HzR
    iexact Hz

/-- The two cells of index 0, which nothing ever pays or waits on, close from where they started. -/
theorem close_cells0 (c : Dev nD) :
    iprop(records m ρ K ∗ atPos ER (sendCell c 0) 0 ∅ 0 ∗ atPos ER (recvCell c 0) 0 ∅ 0)
      ⊢ (|={Set.univ}=> iprop(semVal (sendCell c 0) 0 ∗ semVal (recvCell c 0) 0) : sProp 𝕄) := by
  have hS : ∀ r, 0 ≤ r → (Rd (F := F) m ρ).duties (sendCell c 0) r = ∅ := fun r _ => by
    rcases Nat.eq_zero_or_pos r with rfl | h
    · exact duties_send0 m ρ c
    · exact duties_later m ρ (sendCell c 0) r h
  have hR : ∀ r, 0 ≤ r → (Rd (F := F) m ρ).duties (recvCell c 0) r = ∅ := fun r _ => by
    rcases Nat.eq_zero_or_pos r with rfl | h
    · exact duties_recv0 m ρ c
    · exact duties_later m ρ (recvCell c 0) r h
  iintro ⟨#Hrec, HatS, HatR⟩
  imod (ch_close_send m ρ K c 0 (by decide) 0 hS) $$ [HatS] with HzS
  · isplitr; · iexact Hrec
    iexact HatS
  imod (ch_close_recv m ρ K c 0 (by decide) 0 hR) $$ [HatR] with HzR
  · isplitr; · iexact Hrec
    iexact HatR
  imodintro
  isplitl [HzS]; · iexact HzS
  iexact HzR

/-- info: 'Cert.KernelIdealProof.close_cells' depends on axioms: [propext, Classical.choice, Quot.sound] -/
#guard_msgs in #print axioms close_cells
/-- info: 'Cert.KernelIdealProof.close_cells0' depends on axioms: [propext, Classical.choice, Quot.sound] -/
#guard_msgs in #print axioms close_cells0
/-- info: 'Cert.KernelIdealProof.shares_back' depends on axioms: [propext, Classical.choice, Quot.sound] -/
#guard_msgs in #print axioms shares_back
/-- info: 'Cert.KernelIdealProof.fromTo_sep3' depends on axioms: [propext, Classical.choice, Quot.sound] -/
#guard_msgs in #print axioms fromTo_sep3

end Cert.KernelIdealProof

end
-- ==== Proof.Body.lean ====
/-
  One device's body, stepped from the protocol's start state to its end state: 31 signals, the device's own
  column sums into row 0, the barrier wait, 31 copies, their 62 waits, the cells closed, the 32 rows summed.
-/
import proofs.«901070_g7700000000001071_dist_sum_ax0_shard0_i_m1024_n512_v7x_i32_bf16_1_alg».proof.Proof.Steps
import proofs.«901070_g7700000000001071_dist_sum_ax0_shard0_i_m1024_n512_v7x_i32_bf16_1_alg».proof.Proof.Chains

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

/-! ## Rearrangements between the phases -/

omit [FloatOps F] in
theorem glue1 {A B E1 E2 X Y R : sProp 𝕄} : iprop(A ∗ B ∗ E1 ∗ E2 ∗ (X ∗ Y ∗ R)) ⊢ iprop(X ∗ Y ∗ (A ∗ B ∗ R)) := by
  iintro ⟨HA, HB, -, -, HX, HY, HR⟩
  isplitl [HX]; · iexact HX
  isplitl [HY]; · iexact HY
  isplitl [HA]; · iexact HA
  isplitl [HB]; · iexact HB
  iexact HR

omit [FloatOps F] in
theorem glue2 {X Y P1 P2 L' C A R3 : sProp 𝕄} : iprop(X ∗ Y ∗ (P1 ∗ P2 ∗ (L' ∗ C ∗ A ∗ R3))) ⊢ iprop(P1 ∗ P2 ∗ L' ∗ C ∗ A ∗ (X ∗ Y ∗ R3)) := by
  iintro ⟨HX, HY, H1, H2, HL, HC, HA, HR⟩
  isplitl [H1]; · iexact H1
  isplitl [H2]; · iexact H2
  isplitl [HL]; · iexact HL
  isplitl [HC]; · iexact HC
  isplitl [HA]; · iexact HA
  isplitl [HX]; · iexact HX
  isplitl [HY]; · iexact HY
  iexact HR

omit [FloatOps F] in
theorem glue3 {P1 P2 PR X Y CP R4 : sProp 𝕄} : iprop(P1 ∗ P2 ∗ PR ∗ (X ∗ Y ∗ (CP ∗ R4))) ⊢ iprop(P1 ∗ P2 ∗ CP ∗ PR ∗ Y ∗ emp ∗ (X ∗ R4)) := by
  iintro ⟨H1, H2, HP, HX, HY, HC, HR⟩
  isplitl [H1]; · iexact H1
  isplitl [H2]; · iexact H2
  isplitl [HC]; · iexact HC
  isplitl [HP]; · iexact HP
  isplitl [HY]; · iexact HY
  isplitr; · iempintro
  isplitl [HX]; · iexact HX
  iexact HR

/-- After the 31 copies: the departure credits, collected one by one, are the chain the waits consume. -/
theorem glue4 (c : Dev nD) {P1 P2 E1 E2 Y X WR R5 : sProp 𝕄} :
    iprop(P1 ∗ P2 ∗ E1 ∗ E2 ∗ Y ∗ accL (credS (F := F) c) 31 ∗ (X ∗ (WR ∗ R5)))
      ⊢ iprop(P1 ∗ P2 ∗ fromTo (credS (F := F) c) 1 31 ∗ WR ∗ emp ∗ (Y ∗ X ∗ R5)) := by
  iintro ⟨H1, H2, -, -, HY, HA, HX, HW, HR⟩
  isplitl [H1]; · iexact H1
  isplitl [H2]; · iexact H2
  isplitl [HA]
  · iapply (accL_fromTo (credS (F := F) c) 31 0)
    isplitl [HA]; · iexact HA
    rw [fromTo_zero]; iempintro
  isplitl [HW]; · iexact HW
  isplitr; · iempintro
  isplitl [HY]; · iexact HY
  isplitl [HX]; · iexact HX
  iexact HR

omit [FloatOps F] in
/-- Two chains side by side, the first of pairs, are one chain of triples. -/
theorem fromTo_zip3 (A B C : ℕ → sProp 𝕄) : ∀ n i : ℕ,
    iprop(fromTo (fun k => iprop(A k ∗ B k)) i n ∗ fromTo C i n) ⊢ fromTo (fun k => iprop(A k ∗ B k ∗ C k)) i n
  | 0, i => by rw [fromTo_zero, fromTo_zero, fromTo_zero]; iintro -; iempintro
  | n + 1, i => by
    rw [fromTo_succ, fromTo_succ, fromTo_succ]
    iintro ⟨⟨⟨HA, HB⟩, H1⟩, HC, H2⟩
    isplitl [HA HB HC]
    · isplitl [HA]; · iexact HA
      isplitl [HB]; · iexact HB
      iexact HC
    iapply (fromTo_zip3 A B C n (i + 1))
    isplitl [H1]; · iexact H1
    iexact H2

omit [FloatOps F] in
theorem fromTo_cons (Φ : ℕ → sProp 𝕄) (i n : ℕ) : iprop(Φ i ∗ fromTo Φ (i + 1) n) ⊢ fromTo Φ i (n + 1) :=
  Entails.of_eq (fromTo_succ Φ i n).symm

/-! ## The end: the cells closed, row 0 whole again, the rows joined, the 32 rows summed -/

abbrev outPts (c : Dev nD) (g : (cc0_stg1_0 : Ref sig .tc).ty.Contents (Elt F)) : sProp 𝕄 := (((c : Thread nD τ).loc cc0_stg1_0) ↦{fullShare} g : sProp 𝕄)

theorem step_final (c : Dev nD) {hl hl' hx hm} (W : Waits sig Unit) (E1 E2 : sProp 𝕄) (g1 : (cc0_stg1_0 : Ref sig .tc).ty.Contents (Elt F)) (Kt : PUnit → sProp 𝕄)
    (hpost : iprop(Φ₁ m ρ c ∗ owes (c : Thread nD τ) 0 W ∗ xPts m ρ c ∗ outPts c (outAt m ρ c)) ⊢ Kt ⟨⟩) :
    iprop(records m ρ K ∗ owes (c : Thread nD τ) 0 W ∗ E1 ∗ E2 ∗ accL (doneRes m ρ c) 31
        ∗ (rowPts c 0 (rem 31) (gath m ρ c) ∗ xPts m ρ c ∗ (atPos ER (sendCell c 0) 0 ∅ 0 ∗ atPos ER (recvCell c 0) 0 ∅ 0 ∗ outPts c g1)))
      ⊢ wp frame (wpE (defs₀ (F := F)) 𝒱₀ (c : Thread nD τ) none) Set.univ
          (.op (.load gM rAll.toLoadRect hl) fun v940 =>
            .op (.load oM ro.toLoadRect hl') fun _ =>
              .op (.store oM ro (k0_pay1 v940) Finset.univ hx hm) fun _ => .ret ⟨⟩) Kt := by
  iintro ⟨#Hrec, HO, -, -, Hacc, Hrow0, Hx, Hat0s, Hat0r, Hout⟩
  ihave Hd := (accL_fromTo (doneRes m ρ c) 31 0) $$ [Hacc]
  · isplitl [Hacc]; · iexact Hacc
    rw [fromTo_zero]; iempintro
  unfold doneRes
  ihave H3 := (fromTo_sep3 (fun k => rowPts c 0 (sh k) (gath m ρ c)) (fun k => rowPts c k fullShare (gath m ρ c))
      (fun k => iprop(atPos ER (sendCell c k) 1 ∅ 0 ∗ atPos ER (recvCell c k) 1 ∅ 0)) 31 1) $$ Hd
  icases H3 with ⟨Hsh, Hrows, Hats⟩
  ihave Hr0 := (shares_back c (gath m ρ c) 31 0) $$ [Hsh Hrow0]
  · isplitl [Hsh]; · iexact Hsh
    iexact Hrow0
  imod (close_cells m ρ K c 31 1 (by decide) (by decide)) $$ [Hats] with Hz
  · isplitr; · iexact Hrec
    iexact Hats
  imod (close_cells0 m ρ K c) $$ [Hat0s Hat0r] with Hz0
  · isplitr; · iexact Hrec
    isplitl [Hat0s]; · iexact Hat0s
    iexact Hat0r
  ihave Hg := (rows_gPts c (gath m ρ c)) $$ [Hr0 Hrows]
  · iapply (fromTo_cons (fun k => rowPts c k fullShare (gath m ρ c)) 0 31)
    isplitl [Hr0]; · iexact Hr0
    iexact Hrows
  unfold gPts
  iapply (wp_load 𝒱₀ (c : Thread nD τ) none Set.univ (m := gM) (loadAll_sub)) $$ Hg; iintro Hg
  rw [readAll]
  iapply (wp_load 𝒱₀ (c : Thread nD τ) none Set.univ (m := oM) (Finset.subset_univ _)) $$ Hout; iintro Hout
  iapply (wp_store 𝒱₀ (c : Thread nD τ) none Set.univ (m := oM) (r := ro) (Mk := Finset.univ) (Finset.subset_univ _)) $$ Hout; iintro Hout
  rw [write_out, wp_ret]; imodintro
  iapply hpost
  isplitl [Hg Hz Hz0]
  · unfold Φ₁ gPts
    isplitl [Hg]; · iexact Hg
    iapply (fromTo_cons (fun k => iprop(semVal (sendCell c k) 0 ∗ semVal (recvCell c k) 0)) 0 31)
    isplitl [Hz0]; · iexact Hz0
    iexact Hz
  isplitl [HO]; · iexact HO
  isplitl [Hx]; · iexact Hx
  iexact Hout

/-! ## The whole body -/

set_option maxRecDepth 65536 in
set_option maxHeartbeats 1600000 in
/-- The printed body, one effect after the other, from the start state laid out in the order the phases use it. -/
theorem body_chain (c : Dev nD) (W : Waits sig Unit) (f0 : Buf (Elt F) ((gM : Memref sig .tc .vmem S32x1x512 .f32).view.loc (c : Thread nD τ)))
    (g1 : (cc0_stg1_0 : Ref sig .tc).ty.Contents (Elt F)) (Kt : PUnit → sProp 𝕄)
    (hpost : ∀ W' : Waits sig Unit, iprop(Φ₁ m ρ c ∗ owes (c : Thread nD τ) 0 W' ∗ xPts m ρ c ∗ outPts c (outAt m ρ c)) ⊢ Kt ⟨⟩) :
    iprop(records m ρ K ∗ owes (c : Thread nD τ) (remG c 31) W ∗ fromTo (sigTok (F := F) c) 1 31 ∗ fromTo (sigRow (F := F) c) 1 31
        ∗ (xPts m ρ c ∗ rowPts c 0 fullShare f0
          ∗ (levAts L lv ∗ cred (tallyAt (barCell c) () 31) ∗ atPos ER (barCell c) 0 ∅ 0
            ∗ (fromTo (cpyRes (F := F) c) 1 31
              ∗ (fromTo (waitRes (F := F) c) 1 31
                ∗ (atPos ER (sendCell c 0) 0 ∅ 0 ∗ atPos ER (recvCell c 0) 0 ∅ 0 ∗ outPts c g1))))))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]
  unfold cc0_body_skel
  simp only [k0_part37_eq_skeleton]
  unfold k0_part37_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel
  simp only [semSignalWord, semWaitWord, Prog.lift, Prog.bind_op, Prog.bind_ret, Prog.pure_eq_ret, wp_deviceId]
  simp only [k0_dev1_eq, k0_dev2_eq, k0_dev3_eq, k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq, k0_dev31_eq]
  refine step_signal m ρ K c 1 30 rfl (by decide) _ _ ?_
  refine step_signal m ρ K c 2 29 rfl (by decide) _ _ ?_
  refine step_signal m ρ K c 3 28 rfl (by decide) _ _ ?_
  refine step_signal m ρ K c 4 27 rfl (by decide) _ _ ?_
  refine step_signal m ρ K c 5 26 rfl (by decide) _ _ ?_
  refine step_signal m ρ K c 6 25 rfl (by decide) _ _ ?_
  refine step_signal m ρ K c 7 24 rfl (by decide) _ _ ?_
  refine step_signal m ρ K c 8 23 rfl (by decide) _ _ ?_
  refine step_signal m ρ K c 9 22 rfl (by decide) _ _ ?_
  refine step_signal m ρ K c 10 21 rfl (by decide) _ _ ?_
  refine step_signal m ρ K c 11 20 rfl (by decide) _ _ ?_
  refine step_signal m ρ K c 12 19 rfl (by decide) _ _ ?_
  refine step_signal m ρ K c 13 18 rfl (by decide) _ _ ?_
  refine step_signal m ρ K c 14 17 rfl (by decide) _ _ ?_
  refine step_signal m ρ K c 15 16 rfl (by decide) _ _ ?_
  refine step_signal m ρ K c 16 15 rfl (by decide) _ _ ?_
  refine step_signal m ρ K c 17 14 rfl (by decide) _ _ ?_
  refine step_signal m ρ K c 18 13 rfl (by decide) _ _ ?_
  refine step_signal m ρ K c 19 12 rfl (by decide) _ _ ?_
  refine step_signal m ρ K c 20 11 rfl (by decide) _ _ ?_
  refine step_signal m ρ K c 21 10 rfl (by decide) _ _ ?_
  refine step_signal m ρ K c 22 9 rfl (by decide) _ _ ?_
  refine step_signal m ρ K c 23 8 rfl (by decide) _ _ ?_
  refine step_signal m ρ K c 24 7 rfl (by decide) _ _ ?_
  refine step_signal m ρ K c 25 6 rfl (by decide) _ _ ?_
  refine step_signal m ρ K c 26 5 rfl (by decide) _ _ ?_
  refine step_signal m ρ K c 27 4 rfl (by decide) _ _ ?_
  refine step_signal m ρ K c 28 3 rfl (by decide) _ _ ?_
  refine step_signal m ρ K c 29 2 rfl (by decide) _ _ ?_
  refine step_signal m ρ K c 30 1 rfl (by decide) _ _ ?_
  refine step_signal m ρ K c 31 0 rfl (by decide) _ _ ?_
  refine BI.Entails.trans glue1 ?_
  refine step_local m ρ c f0 _ ?_
  refine BI.Entails.trans glue2 ?_
  refine step_barwait m ρ K c _ _ ?_
  refine BI.Entails.trans glue3 ?_
  refine step_send m ρ K c 0 30 rfl _ (Fin.ext (k0_dev32_eq c)) _ _ ?_
  refine step_send m ρ K c 1 29 rfl _ (Fin.ext (k0_dev33_eq c)) _ _ ?_
  refine step_send m ρ K c 2 28 rfl _ (Fin.ext (k0_dev34_eq c)) _ _ ?_
  refine step_send m ρ K c 3 27 rfl _ (Fin.ext (k0_dev35_eq c)) _ _ ?_
  refine step_send m ρ K c 4 26 rfl _ (Fin.ext (k0_dev36_eq c)) _ _ ?_
  refine step_send m ρ K c 5 25 rfl _ (Fin.ext (k0_dev37_eq c)) _ _ ?_
  refine step_send m ρ K c 6 24 rfl _ (Fin.ext (k0_dev38_eq c)) _ _ ?_
  refine step_send m ρ K c 7 23 rfl _ (Fin.ext (k0_dev39_eq c)) _ _ ?_
  refine step_send m ρ K c 8 22 rfl _ (Fin.ext (k0_dev40_eq c)) _ _ ?_
  refine step_send m ρ K c 9 21 rfl _ (Fin.ext (k0_dev41_eq c)) _ _ ?_
  refine step_send m ρ K c 10 20 rfl _ (Fin.ext (k0_dev42_eq c)) _ _ ?_
  refine step_send m ρ K c 11 19 rfl _ (Fin.ext (k0_dev43_eq c)) _ _ ?_
  refine step_send m ρ K c 12 18 rfl _ (Fin.ext (k0_dev44_eq c)) _ _ ?_
  refine step_send m ρ K c 13 17 rfl _ (Fin.ext (k0_dev45_eq c)) _ _ ?_
  refine step_send m ρ K c 14 16 rfl _ (Fin.ext (k0_dev46_eq c)) _ _ ?_
  refine step_send m ρ K c 15 15 rfl _ (Fin.ext (k0_dev47_eq c)) _ _ ?_
  refine step_send m ρ K c 16 14 rfl _ (Fin.ext (k0_dev48_eq c)) _ _ ?_
  refine step_send m ρ K c 17 13 rfl _ (Fin.ext (k0_dev49_eq c)) _ _ ?_
  refine step_send m ρ K c 18 12 rfl _ (Fin.ext (k0_dev50_eq c)) _ _ ?_
  refine step_send m ρ K c 19 11 rfl _ (Fin.ext (k0_dev51_eq c)) _ _ ?_
  refine step_send m ρ K c 20 10 rfl _ (Fin.ext (k0_dev52_eq c)) _ _ ?_
  refine step_send m ρ K c 21 9 rfl _ (Fin.ext (k0_dev53_eq c)) _ _ ?_
  refine step_send m ρ K c 22 8 rfl _ (Fin.ext (k0_dev54_eq c)) _ _ ?_
  refine step_send m ρ K c 23 7 rfl _ (Fin.ext (k0_dev55_eq c)) _ _ ?_
  refine step_send m ρ K c 24 6 rfl _ (Fin.ext (k0_dev56_eq c)) _ _ ?_
  refine step_send m ρ K c 25 5 rfl _ (Fin.ext (k0_dev57_eq c)) _ _ ?_
  refine step_send m ρ K c 26 4 rfl _ (Fin.ext (k0_dev58_eq c)) _ _ ?_
  refine step_send m ρ K c 27 3 rfl _ (Fin.ext (k0_dev59_eq c)) _ _ ?_
  refine step_send m ρ K c 28 2 rfl _ (Fin.ext (k0_dev60_eq c)) _ _ ?_
  refine step_send m ρ K c 29 1 rfl _ (Fin.ext (k0_dev61_eq c)) _ _ ?_
  refine step_send m ρ K c 30 0 rfl _ (Fin.ext (k0_dev62_eq c)) _ _ ?_
  refine BI.Entails.trans (glue4 c) ?_
  refine step_waits m ρ K c 0 30 rfl _ _ (fun _ => ?_)
  refine step_waits m ρ K c 1 29 rfl _ _ (fun _ => ?_)
  refine step_waits m ρ K c 2 28 rfl _ _ (fun _ => ?_)
  refine step_waits m ρ K c 3 27 rfl _ _ (fun _ => ?_)
  refine step_waits m ρ K c 4 26 rfl _ _ (fun _ => ?_)
  refine step_waits m ρ K c 5 25 rfl _ _ (fun _ => ?_)
  refine step_waits m ρ K c 6 24 rfl _ _ (fun _ => ?_)
  refine step_waits m ρ K c 7 23 rfl _ _ (fun _ => ?_)
  refine step_waits m ρ K c 8 22 rfl _ _ (fun _ => ?_)
  refine step_waits m ρ K c 9 21 rfl _ _ (fun _ => ?_)
  refine step_waits m ρ K c 10 20 rfl _ _ (fun _ => ?_)
  refine step_waits m ρ K c 11 19 rfl _ _ (fun _ => ?_)
  refine step_waits m ρ K c 12 18 rfl _ _ (fun _ => ?_)
  refine step_waits m ρ K c 13 17 rfl _ _ (fun _ => ?_)
  refine step_waits m ρ K c 14 16 rfl _ _ (fun _ => ?_)
  refine step_waits m ρ K c 15 15 rfl _ _ (fun _ => ?_)
  refine step_waits m ρ K c 16 14 rfl _ _ (fun _ => ?_)
  refine step_waits m ρ K c 17 13 rfl _ _ (fun _ => ?_)
  refine step_waits m ρ K c 18 12 rfl _ _ (fun _ => ?_)
  refine step_waits m ρ K c 19 11 rfl _ _ (fun _ => ?_)
  refine step_waits m ρ K c 20 10 rfl _ _ (fun _ => ?_)
  refine step_waits m ρ K c 21 9 rfl _ _ (fun _ => ?_)
  refine step_waits m ρ K c 22 8 rfl _ _ (fun _ => ?_)
  refine step_waits m ρ K c 23 7 rfl _ _ (fun _ => ?_)
  refine step_waits m ρ K c 24 6 rfl _ _ (fun _ => ?_)
  refine step_waits m ρ K c 25 5 rfl _ _ (fun _ => ?_)
  refine step_waits m ρ K c 26 4 rfl _ _ (fun _ => ?_)
  refine step_waits m ρ K c 27 3 rfl _ _ (fun _ => ?_)
  refine step_waits m ρ K c 28 2 rfl _ _ (fun _ => ?_)
  refine step_waits m ρ K c 29 1 rfl _ _ (fun _ => ?_)
  refine step_waits m ρ K c 30 0 rfl _ _ (fun _ => ?_)
  exact step_final m ρ K c _ _ _ g1 Kt (hpost _)

/-! ## The library's body obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- After the body: the protocol's end state, nothing owed, the block of `x` as it was, the result block holding the sum. -/
def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

theorem post_intro (c : Dev nD) (W' : Waits sig Unit) :
    iprop(Φ₁ m ρ c ∗ owes (c : Thread nD τ) 0 W' ∗ xPts m ρ c ∗ outPts c (outAt m ρ c)) ⊢ bodyPost m ρ c := by
  unfold bodyPost Dat.owesAt Pipeline.owesWithin
  rw [show (dats m ρ 0 c).owed t₀.succ = 0 from rfl]
  iintro ⟨HΦ, HO, Hx, Hout⟩
  isplitl [HΦ]; · iexact HΦ
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 65536 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start ghost linear
  iintro ⟨⟨⟨⟨%K, #Hrec, HatB, Hat0s, Hat0r, Hsig, Hcpy, Hats⟩, HcB, HcR, #Hlev⟩, ⟨%f0, Hg⟩⟩, Ho, ⟨%d0, %g0, %hg0, Hx⟩, ⟨%d1, %g1, %hg1, Hout⟩⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = remG c 31 from rfl]
  ihave Hrows := (gPts_rows_rev c f0) $$ Hg
  icases Hrows with ⟨Hrow0, Hrows⟩
  ihave Hw := (fromTo_zip3 (fun k => atPos ER (sendCell c k) 0 ∅ 0) (fun k => atPos ER (recvCell c k) 0 ∅ 0)
      (fun k => cred (tallyAt (recvCell c k) () N)) 31 1) $$ [Hats HcR]
  · isplitl [Hats]; · iexact Hats
    iexact HcR
  iapply (body_chain m ρ K c W f0 g1 (fun _ => bodyPost m ρ c) (fun W' => post_intro m ρ c W'))
  isplitr; · iexact Hrec
  isplitl [HO]; · iexact HO
  isplitl [Hsig]; · iexact Hsig
  isplitl [Hrows]; · iexact Hrows
  isplitl [Hx]; · iexact Hx
  isplitl [Hrow0]; · iexact Hrow0
  isplitr; · iexact Hlev
  isplitl [HcB]; · iexact HcB
  isplitl [HatB]; · iexact HatB
  isplitl [Hcpy]; · iexact Hcpy
  isplitl [Hw]; · iexact Hw
  isplitl [Hat0s]; · iexact Hat0s
  isplitl [Hat0r]; · iexact Hat0r
  iexact Hout

end Cert.KernelIdealProof

end
-- ==== Proof.Credit.lean ====
/-
  The credit a device is dealt when the kernels start: one barrier unit from each of the 31 other devices, and a
  row's credit on each of its 31 arrival cells, from the device that copies into that row.
-/
import proofs.«901070_g7700000000001071_dist_sum_ax0_shard0_i_m1024_n512_v7x_i32_bf16_1_alg».proof.Proof.Tables

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- Copy `k` of every device, seen from the arrival cell it lands on: the devices `d` and `dv d k` correspond one to one,
    so device `c` is dealt exactly one row's credit on its arrival cell `k`. -/
theorem cred_recv_one (c : Dev nD) (k : ℕ) (hk : k ≤ 32) :
    (Pipeline.launchCred (fun d => tallyAt (recvCell (dv d k) k) () N) c : sProp 𝕄) ⊢ cred (tallyAt (recvCell c k) () N) :=
  Pipeline.launchCred_tallyAt (.dma (recvS k).sem) (fun d => dv d k) (fun c => dv c (32 - k))
    (fun c => dv_back' c k hk) (fun d => dv_back d k hk) () N c

omit [FloatOps F] in
/-- The same for signal `k`: one unit on device `c`'s barrier cell. -/
theorem cred_bar_one (c : Dev nD) (k : ℕ) (hk : k ≤ 32) :
    (Pipeline.launchCred (fun d => tallyAt (barCell (dv d k)) () 1) c : sProp 𝕄) ⊢ cred (tallyAt (barCell c) () 1) :=
  Pipeline.launchCred_tallyAt (.reg barS) (fun d => dv d k) (fun c => dv c (32 - k))
    (fun c => dv_back' c k hk) (fun d => dv_back d k hk) () 1 c

omit [FloatOps F] in
/-- The last `n` copies of all devices deal device `c` a row's credit on each of its last `n` arrival cells. -/
theorem cred_recvs (c : Dev nD) : ∀ n, n ≤ 31 →
    (Pipeline.launchCred (fun d => remS d n) c : sProp 𝕄) ⊢ fromTo (fun k => cred (tallyAt (recvCell c k) () N)) (32 - n) n
  | 0, _ => by
    rw [show (fun d : Dev nD => remS d 0) = fun _ => (0 : CellTallies nD τ sig Unit) from rfl, Pipeline.launchCred_zero]
    exact .rfl
  | n + 1, hn => by
    rw [show (fun d : Dev nD => remS d (n + 1)) = fun d => remS d n + tallyAt (recvCell (dv d (31 - n)) (31 - n)) () N from rfl,
      Pipeline.launchCred_add, show 32 - (n + 1) = 31 - n from by omega, fromTo_succ, show 31 - n + 1 = 32 - n from by omega]
    iintro ⟨H1, H2⟩
    isplitl [H2]
    · iapply (cred_recv_one c (31 - n) (by omega)); iexact H2
    · iapply (cred_recvs c n (by omega)); iexact H1

omit [FloatOps F] in
/-- With the last `n` signals of all devices as well: `n` units on device `c`'s barrier cell. -/
theorem cred_all (c : Dev nD) : ∀ n, n ≤ 31 →
    (Pipeline.launchCred (fun d => remG d n) c : sProp 𝕄)
      ⊢ iprop(cred (tallyAt (barCell c) () n) ∗ fromTo (fun k => cred (tallyAt (recvCell c k) () N)) 1 31)
  | 0, _ => by
    rw [tallyAt_zero, cred_zero]
    iintro H
    isplitr
    · iempintro
    · iapply (cred_recvs c 31 (le_refl _)); iexact H
  | n + 1, hn => by
    rw [show (fun d : Dev nD => remG d (n + 1)) = fun d => remG d n + tallyAt (barCell (dv d (31 - n))) () 1 from rfl,
      Pipeline.launchCred_add, ← tallyAt_add]
    iintro ⟨H1, H2⟩
    ihave H3 := (cred_all c n (by omega)) $$ H1
    icases H3 with ⟨Hb, Hr⟩
    isplitr [Hr]
    · iapply (cred_add _ _).2
      isplitl [Hb]
      · iexact Hb
      · iapply (cred_bar_one c (31 - n) (by omega)); iexact H2
    · iexact Hr

omit [FloatOps F] in
/-- What all devices together owe device `c`'s cells at launch is what `c`'s waits consume. -/
theorem creds (c : Dev nD) :
    (Pipeline.launchCred O₀ c : sProp 𝕄) ⊢ iprop(cred (tallyAt (barCell c) () 31) ∗ fromTo (fun k => cred (tallyAt (recvCell c k) () N)) 1 31) :=
  cred_all c 31 (le_refl _)

/-- info: 'Cert.KernelIdealProof.creds' depends on axioms: [propext, Classical.choice, Quot.sound] -/
#guard_msgs in #print axioms creds

end Cert.KernelIdealProof

end
-- ==== Proof.Launch.lean ====
/-
  The launch: the ghost state of all 32 devices' cells dealt from one element, what each device owes and is
  credited, the pipeline's side conditions, and the run of the whole program with every array named.
-/
import proofs.«901070_g7700000000001071_dist_sum_ax0_shard0_i_m1024_n512_v7x_i32_bf16_1_alg».proof.Proof.Body
import proofs.«901070_g7700000000001071_dist_sum_ax0_shard0_i_m1024_n512_v7x_i32_bf16_1_alg».proof.Proof.Credit
import proofs.«901070_g7700000000001071_dist_sum_ax0_shard0_i_m1024_n512_v7x_i32_bf16_1_alg».proof.Proof.Gen.KernelIdeal.Points
import proofs.«901070_g7700000000001071_dist_sum_ax0_shard0_i_m1024_n512_v7x_i32_bf16_1_alg».proof.Proof.Gen.KernelIdeal.Frame

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Chains and products over finite index types -/

/-- A chain of `n` factors from `i` is the product over `Fin n`. -/
theorem fromTo_fin (Φ : ℕ → sProp 𝕄) : ∀ n i, fromTo Φ i n = bigSep (Finset.univ : Finset (Fin n)) (fun j => Φ (i + j.val))
  | 0, i => rfl
  | n + 1, i => by
    rw [fromTo_succ, fromTo_fin Φ n (i + 1), Fin.univ_succ, Finset.cons_eq_insert, bigSep_insert (by simp), bigSep_map]
    refine congrArg₂ _ rfl (bigSep_congr fun j _ => ?_)
    show Φ (i + 1 + j.val) = Φ (i + (j.val + 1))
    rw [Nat.add_assoc, Nat.add_comm 1]

theorem fromTo_one (Φ : ℕ → sProp 𝕄) (n : ℕ) : fromTo Φ 1 n = bigSep Finset.univ fun j : Fin n => Φ (j.val + 1) := by
  rw [fromTo_fin]; exact bigSep_congr fun j _ => by rw [Nat.add_comm]

theorem fromTo_zero' (Φ : ℕ → sProp 𝕄) (n : ℕ) : fromTo Φ 0 n = bigSep Finset.univ fun j : Fin n => Φ j.val := by
  rw [fromTo_fin]; exact bigSep_congr fun j _ => by rw [Nat.zero_add]

/-- The 32 offsets: offset 0, then the 31 others. -/
theorem bigSep_fin32 (Φ : Fin 32 → sProp 𝕄) : bigSep Finset.univ Φ = iprop(Φ 0 ∗ bigSep Finset.univ fun j : Fin 31 => Φ j.succ) := by
  rw [Fin.univ_succ, Finset.cons_eq_insert, bigSep_insert (by simp), bigSep_map]; rfl

theorem bigSep_fin3' (Φ : Fin 3 → sProp 𝕄) : bigSep Finset.univ Φ = iprop(Φ 0 ∗ Φ 1 ∗ Φ 2) :=
  bigSep_univ_eq_bigSepL [0, 1, 2] (by decide) (by decide) Φ

theorem bigSep_bool (Φ : Bool → sProp 𝕄) : bigSep Finset.univ Φ = iprop(Φ false ∗ Φ true) :=
  bigSep_univ_eq_bigSepL [false, true] (by decide) (by decide) Φ

/-- A device's cells, listed: the barrier's, the 32 departure cells, the 32 arrival cells. -/
def ckEquiv : Unit ⊕ (Fin 32 ⊕ Fin 32) ≃ CK where
  toFun | .inl _ => .bar | .inr (.inl k) => .send k | .inr (.inr k) => .recv k
  invFun | .bar => .inl () | .send k => .inr (.inl k) | .recv k => .inr (.inr k)
  left_inv x := by rcases x with _ | _ | _ <;> rfl
  right_inv x := by cases x <;> rfl

theorem bigSep_CK (Φ : CK → sProp 𝕄) :
    bigSep Finset.univ Φ = iprop(Φ .bar ∗ (bigSep Finset.univ fun k : Fin 32 => Φ (.send k)) ∗ bigSep Finset.univ fun k : Fin 32 => Φ (.recv k)) := by
  rw [bigSep_univ_equiv ckEquiv Φ, bigSep_univ_sum, bigSep_univ_sum, bigSep_univ_of_subsingleton ()]
  rfl

/-! ## The kernel's own semaphores, the cells, the tokens -/

/-- The kernel's own (scoped) semaphores: the 32 departure and the 32 arrival semaphores. -/
abbrev osem : Fin 32 × Bool → SemLoc sig := fun
  | (k, false) => .dma (sendS k.val).sem
  | (k, true) => .dma (recvS k.val).sem

theorem dma_scoped : ∀ q : DmaSem sig, 2 ≤ q.val → (SemLoc.dma q : SemLoc sig).isScoped .tc = true := by decide
theorem stage_sem_le : ∀ (w : Fin cfg0.W) (s : Fin (cfg0.spec w).nbuf), ((cfg0.spec w).sem s).val ≤ 1 := by decide

theorem csem_dma_val (k : Fin 32) : ((sendS k.val).sem : DmaSem sig).val = 2 + k.val ∧ ((recvS k.val).sem : DmaSem sig).val = 34 + k.val := by
  rw [sendS_val, recvS_val, Nat.mod_eq_of_lt k.isLt]; exact ⟨rfl, rfl⟩

theorem ownSemFacts : Pipeline.OwnSemFacts cfg0.spec osem where
  isScoped := by
    rintro ⟨k, _ | _⟩
    · exact dma_scoped _ (by rw [(csem_dma_val k).1]; omega)
    · exact dma_scoped _ (by rw [(csem_dma_val k).2]; omega)
  inj := by
    rintro ⟨k, b⟩ ⟨k', b'⟩ h
    have hk := k.isLt; have hk' := k'.isLt
    rcases b with _ | _ <;> rcases b' with _ | _
    · have h1 : ((sendS k.val).sem : DmaSem sig).val = ((sendS k'.val).sem : DmaSem sig).val := congrArg Fin.val (SemLoc.dma.inj h)
      rw [(csem_dma_val k).1, (csem_dma_val k').1] at h1
      exact Prod.ext (Fin.ext (show k.val = k'.val by omega)) rfl
    · have h1 : ((sendS k.val).sem : DmaSem sig).val = ((recvS k'.val).sem : DmaSem sig).val := congrArg Fin.val (SemLoc.dma.inj h)
      rw [(csem_dma_val k).1, (csem_dma_val k').2] at h1
      omega
    · have h1 : ((recvS k.val).sem : DmaSem sig).val = ((sendS k'.val).sem : DmaSem sig).val := congrArg Fin.val (SemLoc.dma.inj h)
      rw [(csem_dma_val k).2, (csem_dma_val k').1] at h1
      omega
    · have h1 : ((recvS k.val).sem : DmaSem sig).val = ((recvS k'.val).sem : DmaSem sig).val := congrArg Fin.val (SemLoc.dma.inj h)
      rw [(csem_dma_val k).2, (csem_dma_val k').2] at h1
      exact Prod.ext (Fin.ext (show k.val = k'.val by omega)) rfl
  disj := by
    rintro ⟨k, _ | _⟩ w s h
    · have h1 : ((sendS k.val).sem : DmaSem sig).val = ((cfg0.spec w).sem s).val := congrArg Fin.val (SemLoc.dma.inj h)
      have := stage_sem_le w s
      rw [(csem_dma_val k).1] at h1
      omega
    · have h1 : ((recvS k.val).sem : DmaSem sig).val = ((cfg0.spec w).sem s).val := congrArg Fin.val (SemLoc.dma.inj h)
      have := stage_sem_le w s
      rw [(csem_dma_val k).2] at h1
      omega

theorem share_eq (c : Dev nD) (w : Fin cfg0.W) : (dats m ρ 0 c).share w = fullShare := by unfold Dat.share; split <;> rfl

theorem csem_injective : Function.Injective (csem : CK → SemLoc sig) := by
  intro a b h
  rcases a with _ | k | k <;> rcases b with _ | k' | k'
  · rfl
  · cases h
  · cases h
  · cases h
  · have h1 : ((sendS k.val).sem : DmaSem sig).val = ((sendS k'.val).sem : DmaSem sig).val := congrArg Fin.val (SemLoc.dma.inj h)
    rw [(csem_dma_val k).1, (csem_dma_val k').1] at h1
    exact congrArg CK.send (Fin.ext (by omega))
  · have h1 : ((sendS k.val).sem : DmaSem sig).val = ((recvS k'.val).sem : DmaSem sig).val := congrArg Fin.val (SemLoc.dma.inj h)
    have := k.isLt
    rw [(csem_dma_val k).1, (csem_dma_val k').2] at h1
    omega
  · cases h
  · have h1 : ((recvS k.val).sem : DmaSem sig).val = ((sendS k'.val).sem : DmaSem sig).val := congrArg Fin.val (SemLoc.dma.inj h)
    have := k'.isLt
    rw [(csem_dma_val k).2, (csem_dma_val k').1] at h1
    omega
  · have h1 : ((recvS k.val).sem : DmaSem sig).val = ((recvS k'.val).sem : DmaSem sig).val := congrArg Fin.val (SemLoc.dma.inj h)
    rw [(csem_dma_val k).2, (csem_dma_val k').2] at h1
    exact congrArg CK.recv (Fin.ext (by omega))

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

/-- The duty tokens as minted, per device and offset `j + 1`: unit `j + 1` of its barrier cell, the one duty of its
    departure cell and of its arrival cell for copy `j + 1`. -/
abbrev tokOf (x : Dev nD × Fin 31 × Fin 3) : GSem nD τ sig × ℕ × Fin 32 := match x.2.2 with
  | 0 => (barCell x.1, 0, fk (x.2.1.val + 1))
  | 1 => (sendCell x.1 (x.2.1.val + 1), 0, 0)
  | 2 => (recvCell x.1 (x.2.1.val + 1), 0, 0)

theorem csem_j_val (j : Fin 31) : ((sendS (j.val + 1)).sem : DmaSem sig).val = 3 + j.val ∧ ((recvS (j.val + 1)).sem : DmaSem sig).val = 35 + j.val := by
  have := j.isLt
  rw [sendS_val, recvS_val, Nat.mod_eq_of_lt (by omega)]; exact ⟨by omega, by omega⟩

theorem tokOf_injective : Function.Injective (tokOf : Dev nD × Fin 31 × Fin 3 → GSem nD τ sig × ℕ × Fin 32) := by
  rintro ⟨c, j, t⟩ ⟨c', j', t'⟩ h
  have h1 : c = c' := by
    have := congrArg (fun x : GSem nD τ sig × ℕ × Fin 32 => x.1.1.1) h
    fin_cases t <;> fin_cases t' <;> exact this
  subst h1
  have hs : (tokOf (c, j, t)).1.2 = (tokOf (c, j', t')).1.2 := congrArg (fun x : GSem nD τ sig × ℕ × Fin 32 => x.1.2) h
  have hd : (tokOf (c, j, t)).2.2 = (tokOf (c, j', t')).2.2 := congrArg (fun x : GSem nD τ sig × ℕ × Fin 32 => x.2.2) h
  have hj := j.isLt; have hj' := j'.isLt
  fin_cases t <;> fin_cases t'
  · have h2 : (fk (j.val + 1)).val = (fk (j'.val + 1)).val := congrArg Fin.val hd
    have h3 : (j.val + 1) % 32 = (j'.val + 1) % 32 := h2
    rw [Nat.mod_eq_of_lt (by omega), Nat.mod_eq_of_lt (by omega)] at h3
    rw [show j = j' from Fin.ext (by omega)]
  · cases hs
  · cases hs
  · cases hs
  · have h2 : ((sendS (j.val + 1)).sem : DmaSem sig).val = ((sendS (j'.val + 1)).sem : DmaSem sig).val := congrArg Fin.val (SemLoc.dma.inj hs)
    rw [(csem_j_val j).1, (csem_j_val j').1] at h2
    rw [show j = j' from Fin.ext (by omega)]
  · have h2 : ((sendS (j.val + 1)).sem : DmaSem sig).val = ((recvS (j'.val + 1)).sem : DmaSem sig).val := congrArg Fin.val (SemLoc.dma.inj hs)
    rw [(csem_j_val j).1, (csem_j_val j').2] at h2
    omega
  · cases hs
  · have h2 : ((recvS (j.val + 1)).sem : DmaSem sig).val = ((sendS (j'.val + 1)).sem : DmaSem sig).val := congrArg Fin.val (SemLoc.dma.inj hs)
    rw [(csem_j_val j).2, (csem_j_val j').1] at h2
    omega
  · have h2 : ((recvS (j.val + 1)).sem : DmaSem sig).val = ((recvS (j'.val + 1)).sem : DmaSem sig).val := congrArg Fin.val (SemLoc.dma.inj hs)
    rw [(csem_j_val j).2, (csem_j_val j').2] at h2
    rw [show j = j' from Fin.ext (by omega)]
def ringToks : Finset (GSem nD τ sig × ℕ × Fin 32) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def tokRow (c : Dev nD) (j : Fin 31) : sProp 𝕄 :=
  iprop(dutyTok ER (barCell c) 0 (fk (j.val + 1)) ∗ dutyTok ER (sendCell c (j.val + 1)) 0 0 ∗ dutyTok ER (recvCell c (j.val + 1)) 0 0)
def toks (c : Dev nD) : sProp 𝕄 := bigSep Finset.univ (tokRow (F := F) c)

/-- What the launch element deals device `c`. -/
def G (c : Dev nD) : sProp 𝕄 :=
  iprop((bigSep Finset.univ fun k : CK => roundState ER (Rd m ρ) (kcell (c, k)) 0)
    ∗ (bigSep Finset.univ fun k : CK => iprop(atPos ER (kcell (c, k)) 0 ∅ 0 ∗ reached ER (kcell (c, k)) 0)) ∗ toks c)

/-- What the global step makes of it. -/
def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks tokRow
    rw [bigSep_univ_prod]
    exact bigSep_congr fun j _ => by rw [bigSep_fin3']; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The departure and arrival semaphores are the kernel's own 64; -/
theorem ownSems0_eq (c : Dev nD) : (Pipeline.ownSems0 (Ix := Unit) (Name := ℕ) (U := UU) (Lvl := ℕ) (Val := Elt F) (τ := τ) osem c : sProp 𝕄)
    = iprop((bigSep Finset.univ fun k : Fin 32 => semVal (kcell (c, .send k)) 0) ∗ bigSep Finset.univ fun k : Fin 32 => semVal (kcell (c, .recv k)) 0) := by
  unfold Pipeline.ownSems0
  rw [bigSep_univ_prod, ← bigSep_sep']
  exact bigSep_congr fun k _ => by rw [bigSep_bool]
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt round the ring -/

/-- For each offset `k`, `c ↦ dv c k` is a permutation of the devices. -/
def ring (k : ℕ) (hk : k ≤ 32) : Dev nD ≃ Dev nD := ⟨fun c => dv c k, fun c => dv c (32 - k), fun c => dv_back c k hk, fun c => dv_back' c k hk⟩

/-- What device `c` pays with for offset `j + 1`: unit `j + 1` of the barrier cell of the device `j + 1` places on, the
    departure duty of its own copy, the arrival duty at the device the copy lands on. -/
def payRow (c : Dev nD) (j : Fin 31) : sProp 𝕄 :=
  iprop(dutyTok ER (barCell (dv c (j.val + 1))) 0 (fk (j.val + 1)) ∗ dutyTok ER (sendCell c (j.val + 1)) 0 0
    ∗ dutyTok ER (recvCell (dv c (j.val + 1)) (j.val + 1)) 0 0)
def payToks (c : Dev nD) : sProp 𝕄 := bigSep Finset.univ (payRow (F := F) c)

theorem row_around (j : Fin 31) : (bigSep Finset.univ fun c : Dev nD => (tokRow c j : sProp 𝕄)) = bigSep Finset.univ fun c : Dev nD => payRow c j := by
  have hj : j.val + 1 ≤ 32 := by have := j.isLt; omega
  unfold tokRow payRow
  rw [bigSep_sep', bigSep_sep', bigSep_sep', bigSep_sep',
    bigSep_univ_equiv (ring (j.val + 1) hj) (fun c : Dev nD => (dutyTok ER (barCell c) 0 (fk (j.val + 1)) : sProp 𝕄)),
    bigSep_univ_equiv (ring (j.val + 1) hj) (fun c : Dev nD => (dutyTok ER (recvCell c (j.val + 1)) 0 0 : sProp 𝕄))]
  rfl

theorem toks_around : (bigSep Finset.univ fun c : Dev nD => (toks c : sProp 𝕄)) = bigSep Finset.univ fun c : Dev nD => payToks c :=
  (bigSep_univ_comm (fun (c : Dev nD) (j : Fin 31) => (tokRow c j : sProp 𝕄))).trans
    ((bigSep_congr fun j _ => row_around j).trans (bigSep_univ_comm (fun (c : Dev nD) (j : Fin 31) => (payRow c j : sProp 𝕄))).symm)

theorem linear_intro (c : Dev nD) :
    iprop((bigSep Finset.univ fun k : CK => (atPos ER (kcell (c, k)) 0 ∅ 0 : sProp 𝕄)) ∗ payToks c) ⊢ linear c := by
  have e1 : fromTo (fun k => (dutyTok ER (barCell (dv c k)) 0 (fk k) : sProp 𝕄)) 1 31
      = bigSep Finset.univ fun j : Fin 31 => dutyTok ER (barCell (dv c (j.val + 1))) 0 (fk (j.val + 1)) := fromTo_one _ _
  have e2 : fromTo (cpyRes (F := F) c) 1 31
      = iprop((bigSep Finset.univ fun j : Fin 31 => dutyTok ER (sendCell c (j.val + 1)) 0 0)
          ∗ bigSep Finset.univ fun j : Fin 31 => dutyTok ER (recvCell (dv c (j.val + 1)) (j.val + 1)) 0 0) := by
    rw [fromTo_one]; unfold cpyRes; exact bigSep_sep' _ _ _
  have e3 : fromTo (fun k => (iprop(atPos ER (sendCell c k) 0 ∅ 0 ∗ atPos ER (recvCell c k) 0 ∅ 0) : sProp 𝕄)) 1 31
      = iprop((bigSep Finset.univ fun j : Fin 31 => atPos ER (sendCell c (j.val + 1)) 0 ∅ 0)
          ∗ bigSep Finset.univ fun j : Fin 31 => atPos ER (recvCell c (j.val + 1)) 0 ∅ 0) := by
    rw [fromTo_one]; exact bigSep_sep' _ _ _
  have e4 : payToks (F := F) c = iprop((bigSep Finset.univ fun j : Fin 31 => dutyTok ER (barCell (dv c (j.val + 1))) 0 (fk (j.val + 1)))
      ∗ (bigSep Finset.univ fun j : Fin 31 => dutyTok ER (sendCell c (j.val + 1)) 0 0)
      ∗ bigSep Finset.univ fun j : Fin 31 => dutyTok ER (recvCell (dv c (j.val + 1)) (j.val + 1)) 0 0) := by
    unfold payToks payRow; rw [bigSep_sep', bigSep_sep']
  have e5 : (bigSep Finset.univ fun k : CK => (atPos ER (kcell (c, k)) 0 ∅ 0 : sProp 𝕄))
      = iprop(atPos ER (barCell c) 0 ∅ 0
          ∗ (atPos ER (sendCell c 0) 0 ∅ 0 ∗ bigSep Finset.univ fun j : Fin 31 => atPos ER (sendCell c (j.val + 1)) 0 ∅ 0)
          ∗ (atPos ER (recvCell c 0) 0 ∅ 0 ∗ bigSep Finset.univ fun j : Fin 31 => atPos ER (recvCell c (j.val + 1)) 0 ∅ 0)) := by
    rw [bigSep_CK, bigSep_fin32 (fun k : Fin 32 => (atPos ER (kcell (c, .send k)) 0 ∅ 0 : sProp 𝕄)),
      bigSep_fin32 (fun k : Fin 32 => (atPos ER (kcell (c, .recv k)) 0 ∅ 0 : sProp 𝕄))]
    rfl
  unfold linear
  rw [e1, e2, e3, e4, e5]
  iintro ⟨⟨HB, ⟨HS0, HS⟩, HR0, HR⟩, HtB, HtS, HtR⟩
  isplitl [HB]; · iexact HB
  isplitl [HS0]; · iexact HS0
  isplitl [HR0]; · iexact HR0
  isplitl [HtB]; · iexact HtB
  isplitl [HtS HtR]
  · isplitl [HtS] <;> iassumption
  isplitl [HS] <;> iassumption

theorem ghost_intro (K : Dev nD × CK → ℕ) (c : Dev nD) : iprop(records m ρ K ∗ linear c) ⊢ G' m ρ c := by
  unfold G' ghost
  iintro H; iexists K; iexact H

theorem regroup :
    (bigSep Finset.univ fun c : Dev nD => iprop((bigSep Finset.univ fun k => iprop(∃ κ : ℕ, cellInv ER (Rd m ρ) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (Rd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m ρ) κ (kcell ck) : sProp 𝕄))) $$ HI
  icases HK with ⟨%K, #HI⟩
  ihave Htk := (Entails.of_eq (toks_around (F := F))) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => linear_intro c))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The theorem's side conditions -/

theorem g_set : (gM : Memref sig .tc .vmem S32x1x512 .f32).view.set = Finset.univ := View.set_whole _
theorem gPts_whole (c : Dev nD) (f : Buf (Elt F) ((c : Thread nD τ).loc cc0_scratch0)) :
    gPts c f = (((c : Thread nD τ).loc cc0_scratch0) ↦{fullShare} f : sProp 𝕄) := by unfold gPts; rw [g_set]

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; rw [gPts_whole]; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  rw [fromTo_zero', bigSep_sep']
  iintro ⟨Hr, HzS, HzV⟩
  isplitr; · iempintro
  isplitl [HzS HzV]
  · isplitl [HzS] <;> iassumption
  iexists (gath m ρ c); rw [← gPts_whole]; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of 32 devices, for any float values, from any memory with zero counters: every weakly fair
    execution terminates, and every final state has each window's array at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The `x` array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the sum of the 32 rows: its one block is the whole array, written back once. -/
theorem finalA_out (c : Dev nD) : finalA m ρ c (1 : Fin 2) = outAt m ρ c := by
  have hz : (fun a => (win0_1.index t₀) a * main_v1.ty.shape.size a) = fun _ => 0 := funext fun a => by fin_cases a <;> decide
  have hr := fun f => Memref.read_access_unit_zero (Elt F) main_v1 hz (fun a => by fin_cases a <;> decide) f
  unfold finalA
  rw [show cfg0.N = (t₀ : Fin cfg0.N).val + 1 from rfl, (dats (F := F) m ρ 0 c).arrAt_succ (1 : Fin 2) t₀, flush0_1 t₀, if_pos rfl]
  refine (hr _).symm.trans ((View.read_write_univ _ _).trans ?_)
  rfl

/-- From any memory with zero counters, every weakly fair execution of the 32 devices terminates, nothing faults, every
    device's result array ends holding the sum of its 32 rows, and every device's block of `x` is unchanged. -/
theorem run_out : θ_run defs (onTc (τ := τ) (main (F := F))) ⟨m, fun _ => 0, ρ⟩ (fun r => ∀ c : Dev nD,
    r.2.mem ((c.tc : Thread nD τ).loc main_v1) = outAt m ρ c
    ∧ r.2.mem ((c.tc : Thread nD τ).loc main_arg0) = m ((c.tc : Thread nD τ).loc main_arg0)) := by
  refine (θ_run defs _ _).mono (fun r h c => ?_) (run_main m ρ)
  exact ⟨(h c (1 : Fin 2)).trans (finalA_out m ρ c), (h c (0 : Fin 2)).trans (finalA_x m ρ c)⟩

/-- info: 'Cert.KernelIdealProof.run_out' depends on axioms: [propext, Classical.choice, Quot.sound] -/
#guard_msgs in #print axioms run_out

end Cert.KernelIdealProof

end
-- ==== Proof.KProto.lean ====
/-
  Column sums over 32 devices: every device sums its own 1024 rows into row 0 of a 32-row gather buffer,
  tells each of the 31 other devices (one unit on their barrier semaphore) that it is inside the kernel,
  waits for 31 such units, copies its row 0 into row k of the device k places further round the ring
  (k = 1 … 31), waits for its 31 departures and its 31 arrivals, and sums the 32 rows it then holds.

  This module fixes the protocol: the ring arithmetic, the buffer rows and semaphore cells, what every
  unit of every cell hands its owner (the schedule), what a device owes when it starts, the levels that
  order the waits, and the pipeline's proof data.
-/
import proofs.«901070_g7700000000001071_dist_sum_ax0_shard0_i_m1024_n512_v7x_i32_bf16_1_alg».proof.Proof.Gen.Kernel
import proofs.«901070_g7700000000001071_dist_sum_ax0_shard0_i_m1024_n512_v7x_i32_bf16_1_alg».proof.Proof.Gen.Kernel.Skeleton
import proofs.«901070_g7700000000001071_dist_sum_ax0_shard0_i_m1024_n512_v7x_i32_bf16_1_alg».proof.Proof.Gen.Kernel.Launch
import Idealize.ShloMosaic.Lib.Pipeline.Launch
import Idealize.ShloMosaic.Lib.Pipeline.Kit
import Idealize.ShloMosaic.Lib.Tactic
import Idealize.ShloMosaic.Lib.ValueIdx

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the ring's (duties named by a ring offset) -/

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The ring of 32 devices -/

/-- The device `k` places after `c`. -/
def dv (c : Dev nD) (k : ℕ) : Dev nD := ⟨(c.val + k) % 32, Nat.mod_lt _ (by decide)⟩

/-- An offset as a duty's name. -/
def fk (k : ℕ) : Fin 32 := ⟨k % 32, Nat.mod_lt _ (by decide)⟩

theorem dv_back (c : Dev nD) (k : ℕ) (hk : k ≤ 32) : dv (dv c k) (32 - k) = c := by
  apply Fin.ext
  show ((c.val + k) % 32 + (32 - k)) % 32 = c.val
  have h : c.val < 32 := c.isLt
  omega

theorem dv_back' (c : Dev nD) (k : ℕ) (hk : k ≤ 32) : dv (dv c (32 - k)) k = c := by
  apply Fin.ext
  show ((c.val + (32 - k)) % 32 + k) % 32 = c.val
  have h : c.val < 32 := c.isLt
  omega

/-! ## Buffers, rows and cells -/

abbrev xM : Memref sig .tc .vmem S1024x512 .f32 := Memref.whole cc0_stg0_0
abbrev oM : Memref sig .tc .vmem S1x512 .f32 := Memref.whole cc0_stg1_0
abbrev gM : Memref sig .tc .vmem S32x1x512 .f32 := Memref.whole cc0_scratch0

theorem row_inb (k : ℕ) : ∀ a, (![k % 32, 0, 0] : Fin 3 → Nat) a + S1x1x512.size a ≤ S32x1x512.size a := by
  intro a
  have : k % 32 < 32 := Nat.mod_lt _ (by decide)
  fin_cases a
  · show k % 32 + 1 ≤ 32; omega
  · show 0 + 1 ≤ 1; omega
  · show 0 + 512 ≤ 512; omega

/-- Row `k` of the gather buffer, as the kernel's copies name it. -/
abbrev rowM (k : ℕ) : Memref sig .tc .vmem S1x512 .f32 :=
  ((gM : Memref sig .tc .vmem S32x1x512 .f32).slice (Rect.unit (s := S32x1x512) ![k % 32, 0, 0] S1x1x512.size (row_inb k)) (fun _ => rfl)).squeeze S1x512 squeezes_S1x1x512_S1x512

theorem sem_inb (k : ℕ) : ∀ a, (![k % 32] : Fin 1 → Nat) a + S1.size a ≤ S32.size a := by
  intro a
  have : k % 32 < 32 := Nat.mod_lt _ (by decide)
  fin_cases a
  show k % 32 + 1 ≤ 32; omega

/-- The barrier semaphore, and the departure and arrival semaphores of copy `k`. -/
abbrev barS : Sem sig := (SemArray.scalar (sig.barrier 0 rfl) : Sems sig S_).sem
abbrev sendS (k : ℕ) : DmaSems sig S_ := (cc0_scratch1.slice (Rect.unit (s := S32) ![k % 32] S1.size (sem_inb k))).squeeze S_ squeezes_S1_S_
abbrev recvS (k : ℕ) : DmaSems sig S_ := (cc0_scratch2.slice (Rect.unit (s := S32) ![k % 32] S1.size (sem_inb k))).squeeze S_ squeezes_S1_S_

abbrev barCell (c : Dev nD) : GSem nD τ sig := ((c : Thread nD τ), .reg barS)
abbrev sendCell (c : Dev nD) (k : ℕ) : GSem nD τ sig := ((c : Thread nD τ), .dma (sendS k).sem)
abbrev recvCell (c : Dev nD) (k : ℕ) : GSem nD τ sig := ((c : Thread nD τ), .dma (recvS k).sem)

/-- A device's cells, as the launch indexes them. -/
inductive CK where
  | bar
  | send (k : Fin 32)
  | recv (k : Fin 32)
  deriving DecidableEq, Fintype

abbrev csem : CK → SemLoc sig
  | .bar => .reg barS
  | .send k => .dma (sendS k.val).sem
  | .recv k => .dma (recvS k.val).sem
abbrev kcell (ck : Dev nD × CK) : GSem nD τ sig := ((ck.1 : Thread nD τ), csem ck.2)

/-- One copy's credit: a row's bytes. -/
abbrev N : ℕ := (rowM 1 : Memref sig .tc .vmem S1x512 .f32).view.dmaCredit
theorem N_pos : 0 < N := View.dmaCredit_pos _ (by decide)

/-! ## Contents -/

/-- Device `c`'s block of `x` as the region finds it. -/
def xstg (c : Dev nD) : (cc0_stg0_0 : Ref sig .tc).ty.Contents (Elt F) :=
  (win0_0.blk (0 : Fin 1)).view.read (Elt F) ((s₀ m ρ).mem ((c : Thread nD τ).loc main_arg0))

/-- What device `c`'s gather buffer holds in the end: in row `k` the column sums of the device `k` places BEFORE `c`. -/
def gath (c : Dev nD) : (cc0_scratch0 : Ref sig .tc).ty.Contents (Elt F) := fun i =>
  k0_pay2 (xstg m ρ (dv c (32 - (show Fin 32 from i 0).val))) (ValueIdx.ix3 (0 : Fin 1) (0 : Fin 1) (show Fin 512 from i 2))

/-- The kernel's result on device `c`: the sum of the 32 rows. -/
def outAt (c : Dev nD) : (cc0_stg1_0 : Ref sig .tc).ty.Contents (Elt F) := k0_pay1 (gath m ρ c)

/-- Share `q` of row `k` of device `c`'s gather buffer, the buffer's contents there `f`'s. -/
def rowPts (c : Dev nD) (k : ℕ) (q : PosShare TreeShare) (f : Buf (Elt F) ((gM : Memref sig .tc .vmem S32x1x512 .f32).view.loc (c : Thread nD τ))) : sProp 𝕄 :=
  (rowM k : Memref sig .tc .vmem S1x512 .f32).view.loc (c : Thread nD τ) ↦[(rowM k : Memref sig .tc .vmem S1x512 .f32).view.set]{q} f

/-- The whole gather buffer of device `c`. -/
def gPts (c : Dev nD) (f : Buf (Elt F) ((gM : Memref sig .tc .vmem S32x1x512 .f32).view.loc (c : Thread nD τ))) : sProp 𝕄 :=
  (gM : Memref sig .tc .vmem S32x1x512 .f32).view.loc (c : Thread nD τ) ↦[(gM : Memref sig .tc .vmem S32x1x512 .f32).view.set]{fullShare} f

/-- The shares of row 0 lent to the 31 copies, one after the other: copy `k` borrows the left half of what
    the copies before it left. -/
def rem : ℕ → PosShare TreeShare
  | 0 => fullShare
  | n + 1 => (rem n).right
def sh (k : ℕ) : PosShare TreeShare := (rem (k - 1)).left

/-! ## Chains of resources -/

/-- `Φ i ∗ Φ (i + 1) ∗ … ` (`n` factors). -/
def fromTo (Φ : ℕ → sProp 𝕄) : ℕ → ℕ → sProp 𝕄
  | _, 0 => iprop(emp)
  | i, n + 1 => iprop(Φ i ∗ fromTo Φ (i + 1) n)

omit [FloatOps F] in
theorem fromTo_succ (Φ : ℕ → sProp 𝕄) (i n : ℕ) : fromTo Φ i (n + 1) = iprop(Φ i ∗ fromTo Φ (i + 1) n) := rfl
omit [FloatOps F] in
theorem fromTo_zero (Φ : ℕ → sProp 𝕄) (i : ℕ) : fromTo Φ i 0 = iprop(emp) := rfl

/-! ## The schedule -/

/-- Which copy a DMA semaphore belongs to, and whether as its arrival (`true`) or departure semaphore. -/
def semKind : SemLoc sig → Option (Bool × ℕ)
  | .reg _ => none
  | .dma q => if 3 ≤ q.val ∧ q.val ≤ 33 then some (false, q.val - 2) else if 35 ≤ q.val ∧ q.val ≤ 65 then some (true, q.val - 34) else none

/-- Unit `k` of device `c`'s barrier cell comes from the device `k` places BEFORE `c` and hands `c` the row of
    that device's buffer that `c`'s copy lands in, with that device's arrival cell for it at round 0. -/
def barPay (c : Dev nD) (d : Fin 32) : sProp 𝕄 :=
  iprop((∃ f, rowPts (dv c (32 - d.val)) (32 - d.val) fullShare f) ∗ reached ER (recvCell (dv c (32 - d.val)) (32 - d.val)) 0)
/-- An arrival hands the owner its row holding the sender's column sums; -/
def recvPay (c : Dev nD) (k : ℕ) : sProp 𝕄 := rowPts c k fullShare (gath m ρ c)
/-- a departure hands back the lent share of row 0. -/
def sendPay (c : Dev nD) (k : ℕ) : sProp 𝕄 := rowPts c 0 (sh k) (gath m ρ c)

/-- One round. A barrier cell: the 31 units `k ≠ 0`; a departure or arrival cell of a copy `k = 1 … 31`: one duty, a
    row's credit. -/
def Rd : Rounds.Schedule (GSem nD τ sig) (Fin 32) 𝕄 where
  duties g r :=
    if r = 0 ∧ g.1.2 = .tc then
      (if g.2 = .reg barS then Finset.univ.erase 0 else match semKind g.2 with | some _ => {0} | none => ∅)
    else ∅
  unitless _ := False
  amount g _ _ := if g.2 = .reg barS then 1 else N
  payload g _ d :=
    if g.2 = .reg barS then barPay g.1.1 d
    else match semKind g.2 with
      | some (false, k) => sendPay m ρ g.1.1 k
      | some (true, k) => recvPay m ρ g.1.1 k
      | none => iprop(emp)
  amount_pos g _ _ _ := by
    by_cases h : g.2 = .reg barS
    · rw [if_pos h]; exact Nat.one_pos
    · rw [if_neg h]; exact N_pos

instance Rd_payload_storable (g : GSem nD τ sig) (r : ℕ) (d : Fin 32) :
    BI.Storable (upEmb : UEmb _ 𝕄) ((Rd (F := F) m ρ).payload g r d) := by
  show BI.Storable upEmb (if g.2 = .reg barS then barPay g.1.1 d
    else match semKind g.2 with
      | some (false, k) => sendPay m ρ g.1.1 k
      | some (true, k) => recvPay m ρ g.1.1 k
      | none => iprop(emp))
  unfold barPay recvPay sendPay rowPts
  (repeat' split) <;> infer_instance

/-! ## What a device owes; the levels -/

/-- What is still owed with `n` copies to go: an arrival's credit to each of the last `n` peers' arrival cells. -/
def remS (c : Dev nD) : ℕ → CellTallies nD τ sig Unit
  | 0 => 0
  | n + 1 => remS c n + tallyAt (recvCell (dv c (31 - n)) (31 - n)) () N
/-- What is still owed with `n` signals to go: all the copies', and a unit to each of the last `n` peers' barrier cells. -/
def remG (c : Dev nD) : ℕ → CellTallies nD τ sig Unit
  | 0 => remS c 31
  | n + 1 => remG c n + tallyAt (barCell (dv c (31 - n))) () 1
def O₀ (c : Dev nD) : CellTallies nD τ sig Unit := remG c 31

def L (g : GSem nD τ sig) : Finset Unit := if g.1.2 = .tc then {()} else ∅
/-- Barrier cells at 1, arrival cells at 2, everything else (staging, departures) at 0. -/
def lv (g : GSem nD τ sig) (_ : Unit) : ℕ :=
  if g.2 = .reg barS then 1 else match semKind g.2 with | some (true, _) => 2 | _ => 0

theorem L_of_ne (g : GSem nD τ sig) (h : g.1.2 ≠ .tc) : L g = ∅ := if_neg h
theorem L_tc (c : Dev nD) (sm : SemLoc sig) : L ((c : Thread nD τ), sm) = {()} := if_pos rfl

/-! ## What a device's body starts from and ends with -/

/-- The cells' invariants and round-0 marks of ALL devices, at the names `K` the launch allocated them at. -/
def records (K : Dev nD × CK → ℕ) : sProp 𝕄 :=
  iprop((bigSep Finset.univ fun ck : Dev nD × CK => cellInv ER (Rd m ρ) (K ck) (kcell ck))
    ∗ bigSep Finset.univ fun ck : Dev nD × CK => reached ER (kcell ck) 0)

instance records_persistent (K : Dev nD × CK → ℕ) : BI.Persistent (records m ρ K) := by unfold records; infer_instance

/-- What signal `k` pays with: the token of unit `k` of the peer's barrier cell, and the row the peer's copy lands in. -/
def sigRes (c : Dev nD) (k : ℕ) : sProp 𝕄 :=
  iprop(dutyTok ER (barCell (dv c k)) 0 (fk k) ∗ ∃ f, rowPts c (32 - k) fullShare f)
/-- What copy `k` pays with: its departure's and its arrival's tokens. -/
def cpyRes (c : Dev nD) (k : ℕ) : sProp 𝕄 :=
  iprop(dutyTok ER (sendCell c k) 0 0 ∗ dutyTok ER (recvCell (dv c k) k) 0 0)
/-- What the two waits of copy `k` start from: the two cells' positions and the arrival's credit. -/
def waitRes (c : Dev nD) (k : ℕ) : sProp 𝕄 :=
  iprop(atPos ER (sendCell c k) 0 ∅ 0 ∗ atPos ER (recvCell c k) 0 ∅ 0 ∗ cred (tallyAt (recvCell c k) () N))

/-- The linear ghost state of device `c`. -/
def linear (c : Dev nD) : sProp 𝕄 :=
  iprop(atPos ER (barCell c) 0 ∅ 0 ∗ atPos ER (sendCell c 0) 0 ∅ 0 ∗ atPos ER (recvCell c 0) 0 ∅ 0
    ∗ fromTo (fun k => dutyTok ER (barCell (dv c k)) 0 (fk k)) 1 31
    ∗ fromTo (cpyRes c) 1 31
    ∗ fromTo (fun k => iprop(atPos ER (sendCell c k) 0 ∅ 0 ∗ atPos ER (recvCell c k) 0 ∅ 0)) 1 31)

def ghost (K : Dev nD × CK → ℕ) (c : Dev nD) : sProp 𝕄 := iprop(records m ρ K ∗ linear c)

/-- What device `c`'s body starts from besides its buffers: the ghost state at some names, the credit its waits
    consume (31 barrier units, a row's credit on each arrival cell), and the level facts. -/
def start (c : Dev nD) : sProp 𝕄 :=
  iprop((∃ K, ghost m ρ K c) ∗ cred (tallyAt (barCell c) () 31)
    ∗ fromTo (fun k => cred (tallyAt (recvCell c k) () N)) 1 31 ∗ levAts L lv)

def Φ₀ (c : Dev nD) : sProp 𝕄 := iprop(start m ρ c ∗ ∃ f, gPts c f)
/-- After the body: the gather buffer holding the 32 rows of sums, and the 64 own semaphores at zero, closed. -/
def Φ₁ (c : Dev nD) : sProp 𝕄 :=
  iprop(gPts c (gath m ρ c) ∗ fromTo (fun k => iprop(semVal (sendCell c k) 0 ∗ semVal (recvCell c k) 0)) 0 32)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.KernelProof

end
-- ==== Proof.KTables.lean ====
/-
  The schedule read cell by cell: which units a barrier, departure or arrival cell expects in its one round,
  how much each is worth, what each hands the owner; and the level facts that let a device wait.
-/
import proofs.«901070_g7700000000001071_dist_sum_ax0_shard0_i_m1024_n512_v7x_i32_bf16_1_alg».proof.Proof.KProto

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores' places in the pool -/

/-- A rank-one rectangle of one element at offset `o` sends the one index of the squeezed shape to position `o`. -/
theorem unit1_pos (o : ℕ) (inb : ∀ a, (![o] : Fin 1 → Nat) a + S1.size a ≤ S32.size a) :
    (S32.rowMajor ((Rect.unit (s := S32) ![o] S1.size inb).emb
      (Shape.reshapeEquiv squeezes_S1_S_.numel_eq (fun i : Fin 0 => i.elim0)))).val = o := by
  rw [Shape.rowMajor_val_one, Rect.emb_apply]
  have hlt := ((Shape.reshapeEquiv (s := (Rect.unit (s := S32) ![o] S1.size inb).shape) squeezes_S1_S_.numel_eq (fun i : Fin 0 => i.elim0)) 0).isLt
  have h1 : (Rect.unit (s := S32) ![o] S1.size inb).shape.size 0 = 1 := rfl
  show o + 1 * _ = o
  omega

theorem sendS_val (k : ℕ) : ((sendS k).sem : DmaSem sig).val = 2 + k % 32 := by
  show 2 + _ = 2 + k % 32
  congr 1
  exact unit1_pos (k % 32) (sem_inb k)
theorem recvS_val (k : ℕ) : ((recvS k).sem : DmaSem sig).val = 34 + k % 32 := by
  show 34 + _ = 34 + k % 32
  congr 1
  exact unit1_pos (k % 32) (sem_inb k)

theorem semKind_dma (q : DmaSem sig) : semKind (.dma q) =
    if 3 ≤ q.val ∧ q.val ≤ 33 then some (false, q.val - 2) else if 35 ≤ q.val ∧ q.val ≤ 65 then some (true, q.val - 34) else none := rfl

theorem semKind_send (k : ℕ) (hk : 1 ≤ k ∧ k ≤ 31) : semKind (.dma (sendS k).sem) = some (false, k) := by
  have hv := sendS_val k
  have hm : k % 32 = k := Nat.mod_eq_of_lt (by omega)
  rw [semKind_dma]
  rw [if_pos (by omega)]
  congr 2
  omega
theorem semKind_recv (k : ℕ) (hk : 1 ≤ k ∧ k ≤ 31) : semKind (.dma (recvS k).sem) = some (true, k) := by
  have hv := recvS_val k
  have hm : k % 32 = k := Nat.mod_eq_of_lt (by omega)
  rw [semKind_dma]
  rw [if_neg (by omega), if_pos (by omega)]
  congr 2
  omega
theorem semKind_send0 : semKind (.dma (sendS 0).sem) = none := by
  have hv := sendS_val 0
  rw [semKind_dma]
  rw [if_neg (by omega), if_neg (by omega)]
theorem semKind_recv0 : semKind (.dma (recvS 0).sem) = none := by
  have hv := recvS_val 0
  rw [semKind_dma]
  rw [if_neg (by omega), if_neg (by omega)]

theorem send_ne_bar (k : ℕ) : (SemLoc.dma (sendS k).sem : SemLoc sig) ≠ .reg barS := fun h => by cases h
theorem recv_ne_bar (k : ℕ) : (SemLoc.dma (recvS k).sem : SemLoc sig) ≠ .reg barS := fun h => by cases h

/-! ## Duties, amounts, payloads -/

/-- What the barrier wait hands device `c` for copy `j`: row `j` of the device `j` places on, and that device's arrival cell for it at round 0. -/
def peerRow (c : Dev nD) (j : ℕ) : sProp 𝕄 :=
  iprop((∃ f, rowPts (dv c j) j fullShare f) ∗ reached ER (recvCell (dv c j) j) 0)

section Sched
variable (c : Dev nD)

theorem duties_bar : (Rd (F := F) m ρ).duties (barCell c) 0 = Finset.univ.erase 0 := by
  dsimp only [Rd]; rw [if_pos ⟨rfl, rfl⟩, if_pos rfl]
theorem duties_send (k : ℕ) (hk : 1 ≤ k ∧ k ≤ 31) : (Rd (F := F) m ρ).duties (sendCell c k) 0 = {0} := by
  dsimp only [Rd]; rw [if_pos ⟨rfl, rfl⟩, if_neg (send_ne_bar k)]; simp only [semKind_send k hk]
theorem duties_recv (k : ℕ) (hk : 1 ≤ k ∧ k ≤ 31) : (Rd (F := F) m ρ).duties (recvCell c k) 0 = {0} := by
  dsimp only [Rd]; rw [if_pos ⟨rfl, rfl⟩, if_neg (recv_ne_bar k)]; simp only [semKind_recv k hk]
theorem duties_send0 : (Rd (F := F) m ρ).duties (sendCell c 0) 0 = ∅ := by
  dsimp only [Rd]; rw [if_pos ⟨rfl, rfl⟩, if_neg (send_ne_bar 0)]; simp only [semKind_send0]
theorem duties_recv0 : (Rd (F := F) m ρ).duties (recvCell c 0) 0 = ∅ := by
  dsimp only [Rd]; rw [if_pos ⟨rfl, rfl⟩, if_neg (recv_ne_bar 0)]; simp only [semKind_recv0]
theorem duties_later (g : GSem nD τ sig) : ∀ r, 1 ≤ r → (Rd (F := F) m ρ).duties g r = ∅ :=
  fun r hr => by dsimp only [Rd]; rw [if_neg fun h => by omega]

theorem amount_bar (d : Fin 32) : (Rd (F := F) m ρ).amount (barCell c) 0 d = 1 := by
  dsimp only [Rd]; exact if_pos rfl
theorem amount_send (k : ℕ) (d : Fin 32) : (Rd (F := F) m ρ).amount (sendCell c k) 0 d = N := by
  dsimp only [Rd]; exact if_neg (send_ne_bar k)
theorem amount_recv (k : ℕ) (d : Fin 32) : (Rd (F := F) m ρ).amount (recvCell c k) 0 d = N := by
  dsimp only [Rd]; exact if_neg (recv_ne_bar k)

theorem expect_bar : (Rd (F := F) m ρ).expect (barCell c) 0 = 31 := by
  unfold Schedule.expect Schedule.amountOf
  rw [duties_bar, Finset.sum_congr rfl fun d _ => amount_bar m ρ c d, Finset.sum_const, smul_eq_mul, mul_one]
  decide
theorem expect_send (k : ℕ) (hk : 1 ≤ k ∧ k ≤ 31) : (Rd (F := F) m ρ).expect (sendCell c k) 0 = N := by
  unfold Schedule.expect Schedule.amountOf; rw [duties_send m ρ c k hk, Finset.sum_singleton, amount_send]
theorem expect_recv (k : ℕ) (hk : 1 ≤ k ∧ k ≤ 31) : (Rd (F := F) m ρ).expect (recvCell c k) 0 = N := by
  unfold Schedule.expect Schedule.amountOf; rw [duties_recv m ρ c k hk, Finset.sum_singleton, amount_recv]

theorem payload_bar (d : Fin 32) : (Rd (F := F) m ρ).payload (barCell c) 0 d = barPay c d := by
  dsimp only [Rd]; rw [if_pos rfl]
theorem payload_send (k : ℕ) (hk : 1 ≤ k ∧ k ≤ 31) (d : Fin 32) : (Rd (F := F) m ρ).payload (sendCell c k) 0 d = sendPay m ρ c k := by
  dsimp only [Rd]; rw [if_neg (send_ne_bar k)]; simp only [semKind_send k hk]
theorem payload_recv (k : ℕ) (hk : 1 ≤ k ∧ k ≤ 31) (d : Fin 32) : (Rd (F := F) m ρ).payload (recvCell c k) 0 d = recvPay m ρ c k := by
  dsimp only [Rd]; rw [if_neg (recv_ne_bar k)]; simp only [semKind_recv k hk]

theorem rest_send (k : ℕ) (hk : 1 ≤ k ∧ k ≤ 31) :
    bigSep ((Rd (F := F) m ρ).duties (sendCell c k) 0 \ ∅) (fun d => (Rd (F := F) m ρ).payload (sendCell c k) 0 d) = sendPay m ρ c k := by
  rw [Finset.sdiff_empty, duties_send m ρ c k hk, bigSep_singleton, payload_send m ρ c k hk]
theorem rest_recv (k : ℕ) (hk : 1 ≤ k ∧ k ≤ 31) :
    bigSep ((Rd (F := F) m ρ).duties (recvCell c k) 0 \ ∅) (fun d => (Rd (F := F) m ρ).payload (recvCell c k) 0 d) = recvPay m ρ c k := by
  rw [Finset.sdiff_empty, duties_recv m ρ c k hk, bigSep_singleton, payload_recv m ρ c k hk]

end Sched

/-- A chain over a listed range: when duty `g j` hands what `Ψ j` says, the listed round is the chain of the `Ψ j`. -/
theorem bigSepL_range_eq (Φ : Fin 32 → sProp 𝕄) (Ψ : ℕ → sProp 𝕄) (g : ℕ → Fin 32) :
    ∀ n i, (∀ j, i ≤ j → j < i + n → Φ (g j) = Ψ j) → bigSepL ((List.range' i n).map g) Φ = fromTo Ψ i n
  | 0, i, _ => rfl
  | n + 1, i, h => by
    rw [List.range'_succ, List.map_cons, bigSepL_cons, fromTo_succ, h i (le_refl _) (by omega),
      bigSepL_range_eq Φ Ψ g n (i + 1) (fun j h1 h2 => h j (by omega) (by omega))]
    rfl

/-- Unit `32 - j` of a barrier cell hands over what copy `j` needs. -/
theorem barPay_peerRow (c : Dev nD) (j : ℕ) (hj : 1 ≤ j ∧ j ≤ 31) : barPay (F := F) c (fk (32 - j)) = peerRow c j := by
  have h : 32 - (fk (32 - j)).val = j := by
    show 32 - (32 - j) % 32 = j
    omega
  unfold barPay peerRow
  rw [h]

section Sched2
variable (c : Dev nD)
/-- The whole round of a barrier cell, no unit taken yet: the 31 peers' rows, in the order of the copies that land in them. -/
theorem rest_bar : bigSep ((Rd (F := F) m ρ).duties (barCell c) 0 \ ∅) (fun d => (Rd (F := F) m ρ).payload (barCell c) 0 d)
    ⊢ fromTo (peerRow (F := F) c) 1 31 := by
  rw [Finset.sdiff_empty, duties_bar,
    bigSep_eq_bigSepL_of_eq ((List.range' 1 31).map fun j => fk (32 - j)) (by decide) (by decide),
    bigSepL_range_eq _ (peerRow (F := F) c) (fun j => fk (32 - j)) 31 1
      (fun j h1 h2 => by rw [payload_bar, barPay_peerRow c j ⟨h1, by omega⟩])]
end Sched2

/-! ## Levels -/

theorem lv_bar (d : Dev nD) : lv (barCell d) () = 1 := by dsimp only [lv]; rw [if_pos rfl]
theorem lv_recv (d : Dev nD) (k : ℕ) (hk : 1 ≤ k ∧ k ≤ 31) : lv (recvCell d k) () = 2 := by
  dsimp only [lv]; rw [if_neg (recv_ne_bar k)]; simp only [semKind_recv k hk]
theorem lv_stage (c : Dev nD) (q : DmaSem sig) (hq : q.val ≤ 1) : lv ((c : Thread nD τ), .dma q) () = 0 := by
  dsimp only [lv]; rw [if_neg (fun h => by cases h), semKind_dma, if_neg (by omega), if_neg (by omega)]

/-- Whatever is owed towards the copies is owed at an arrival cell of one of them. -/
theorem remS_pos (c : Dev nD) : ∀ n, n ≤ 31 → ∀ (g : GSem nD τ sig) (u : Unit), 0 < remS c n g u →
    ∃ k, (1 ≤ k ∧ k ≤ 31) ∧ g = recvCell (dv c k) k
  | 0, _, g, u, h => absurd h (Nat.lt_irrefl 0)
  | n + 1, hn, g, u, h => by
    rw [show remS c (n + 1) = remS c n + tallyAt (recvCell (dv c (31 - n)) (31 - n)) () N from rfl,
      Pi.add_apply, Finsupp.add_apply, tallyAt_apply] at h
    by_cases hg : g = recvCell (dv c (31 - n)) (31 - n) ∧ u = ()
    · exact ⟨31 - n, ⟨by omega, by omega⟩, hg.1⟩
    · rw [if_neg hg, Nat.add_zero] at h
      exact remS_pos c n (by omega) g u h

/-- Whatever a device owes at launch is owed at an arrival cell of a copy or at a barrier cell. -/
theorem remG_pos (c : Dev nD) : ∀ n (g : GSem nD τ sig) (u : Unit), 0 < remG c n g u →
    (∃ k, (1 ≤ k ∧ k ≤ 31) ∧ g = recvCell (dv c k) k) ∨ ∃ d, g = barCell d
  | 0, g, u, h => .inl (remS_pos c 31 (le_refl _) g u h)
  | n + 1, g, u, h => by
    rw [show remG c (n + 1) = remG c n + tallyAt (barCell (dv c (31 - n))) () 1 from rfl,
      Pi.add_apply, Finsupp.add_apply, tallyAt_apply] at h
    by_cases hg : g = barCell (dv c (31 - n)) ∧ u = ()
    · exact .inr ⟨_, hg.1⟩
    · rw [if_neg hg, Nat.add_zero] at h
      exact remG_pos c n g u h

/-- At its barrier wait a device owes arrival credits only: arrival cells sit above barrier cells. -/
theorem mayWait_bar (c : Dev nD) :
    (levAts L lv : sProp 𝕄) ⊢ MayWait (c : Thread nD τ) (.reg barS) () (remS c 31) :=
  MayOwe.of_cut (L := L) (lev := lv) 1 (fun p hp => by rw [Finset.mem_singleton.mp hp, L_tc]; exact Finset.mem_singleton_self _)
    (fun g u hg => by
      obtain ⟨k, hk, rfl⟩ := remS_pos c 31 (le_refl _) g u hg
      rw [L_tc]; exact Finset.mem_singleton_self _)
    (fun p hp => by rw [Finset.mem_singleton.mp hp]; exact le_of_eq (lv_bar c))
    (fun g u hg => by
      obtain ⟨k, hk, rfl⟩ := remS_pos c 31 (le_refl _) g u hg
      rw [lv_recv _ k hk]; decide)

/-- A staging semaphore (the pool's first two) sits below everything a device ever owes. -/
theorem mayWait_stage (c : Dev nD) (q : DmaSem sig) (hq : q.val ≤ 1) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases remG_pos c 31 g u hg with ⟨k, hk, rfl⟩ | ⟨d, rfl⟩ <;> (rw [L_tc]; exact Finset.mem_singleton_self _))
      (fun p hp => by rw [Finset.mem_singleton.mp hp]; exact le_of_eq (lv_stage c q hq))
      (fun g u hg => by
        rcases remG_pos c 31 g u hg with ⟨k, hk, rfl⟩ | ⟨d, rfl⟩
        · rw [lv_recv _ k hk]; decide
        · rw [lv_bar]; decide)
  · rw [MayWait_zero]; iintro -; iempintro

/-- info: 'Cert.KernelProof.rest_bar' depends on axioms: [propext, Classical.choice, Quot.sound] -/
#guard_msgs in #print axioms rest_bar
/-- info: 'Cert.KernelProof.mayWait_bar' depends on axioms: [propext, Classical.choice, Quot.sound] -/
#guard_msgs in #print axioms mayWait_bar
/-- info: 'Cert.KernelProof.mayWait_stage' depends on axioms: [propext, Classical.choice, Quot.sound] -/
#guard_msgs in #print axioms mayWait_stage

end Cert.KernelProof

end
-- ==== Proof.KRows.lean ====
/-
  The gather buffer row by row: which elements a row is, that the buffer is its 32 rows, that row 0's share
  splits once per copy, what a store into row 0 and a copy landing in row k leave there, and a copy's credit.
-/
import proofs.«901070_g7700000000001071_dist_sum_ax0_shard0_i_m1024_n512_v7x_i32_bf16_1_alg».proof.Proof.KProto
import Idealize.ShloMosaic.Lib.Pipeline.Value

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev r000 : Rect S32x1x512 := Rect.unit (s := S32x1x512) ![0, 0, 0] S1x1x512.size inb_S32x1x512_S1x1x512_0_0_0
abbrev rAll : Rect S32x1x512 := Rect.unit (s := S32x1x512) ![0, 0, 0] S32x1x512.size inb_S32x1x512_S32x1x512_0_0_0

omit [FloatOps F] in
/-- A row's elements are those of the unit rectangle it is cut along. -/
theorem row_set (k : ℕ) : (rowM k : Memref sig .tc .vmem S1x512 .f32).view.set
    = (Rect.unit (s := S32x1x512) ![k % 32, 0, 0] S1x1x512.size (row_inb k)).set := by
  show (((View.whole cc0_scratch0).slice _).reshape _ _).set = _
  rw [View.set_reshape, View.set_slice_whole]

/-- An element of the gather buffer is in row `k` exactly when its first coordinate is `k`. -/
theorem mem_row (k : ℕ) (i : S32x1x512.Idx) :
    i ∈ (rowM k : Memref sig .tc .vmem S1x512 .f32).view.set ↔ (show Fin 32 from i 0).val = k % 32 := by
  rw [row_set, Rect.mem_set_unit]
  have h1 : (i 1).val < 1 := (i 1).isLt
  have h2 : (i 2).val < 512 := (i 2).isLt
  constructor
  · intro h
    have h0 := h 0
    change k % 32 ≤ (i 0).val ∧ (i 0).val < k % 32 + 1 at h0
    show (i 0).val = k % 32
    omega
  · intro h a
    change (i 0).val = k % 32 at h
    fin_cases a
    · show k % 32 ≤ (i 0).val ∧ (i 0).val < k % 32 + 1; omega
    · show 0 ≤ (i 1).val ∧ (i 1).val < 0 + 1; omega
    · show 0 ≤ (i 2).val ∧ (i 2).val < 0 + 512; omega

omit [FloatOps F] in
/-- Contents that agree on row `k` are the same share of it. -/
theorem rowPts_congr (c : Dev nD) (k : ℕ) (q : PosShare TreeShare)
    {f g : Buf (Elt F) ((gM : Memref sig .tc .vmem S32x1x512 .f32).view.loc (c : Thread nD τ))}
    (h : ∀ i : S32x1x512.Idx, (show Fin 32 from i 0).val = k % 32 → f i = g i) : rowPts c k q f = rowPts c k q g := by
  unfold rowPts
  exact BI.Region.is_congr fun i hi => h i ((mem_row k i).mp hi)

/-- The elements of the gather buffer in row `k`, and those in the rows from `j` on. -/
def rowS (k : ℕ) : Finset S32x1x512.Idx := Finset.univ.filter fun i => (show Fin 32 from i 0).val = k % 32
def geS (j : ℕ) : Finset S32x1x512.Idx := Finset.univ.filter fun i => j ≤ (show Fin 32 from i 0).val

theorem row_set_eq (k : ℕ) : (rowM k : Memref sig .tc .vmem S1x512 .f32).view.set = rowS k := by
  ext i
  rw [mem_row]
  simp only [rowS, Finset.mem_filter, Finset.mem_univ, true_and]

omit [FloatOps F] in
theorem rowPts_eq (c : Dev nD) (k : ℕ) (q : PosShare TreeShare)
    (f : Buf (Elt F) ((gM : Memref sig .tc .vmem S32x1x512 .f32).view.loc (c : Thread nD τ))) :
    rowPts c k q f = ((gM : Memref sig .tc .vmem S32x1x512 .f32).view.loc (c : Thread nD τ) ↦[rowS k]{q} f) := by
  unfold rowPts
  rw [row_set_eq]

omit [FloatOps F] in
theorem gPts_eq (c : Dev nD)
    (f : Buf (Elt F) ((gM : Memref sig .tc .vmem S32x1x512 .f32).view.loc (c : Thread nD τ))) :
    gPts c f = ((gM : Memref sig .tc .vmem S32x1x512 .f32).view.loc (c : Thread nD τ) ↦[geS 0]{fullShare} f) := by
  unfold gPts
  have : (gM : Memref sig .tc .vmem S32x1x512 .f32).view.set = geS 0 := by
    show (View.whole cc0_scratch0).set = _
    rw [View.set_whole]
    ext i
    simp only [geS, Finset.mem_filter, Finset.mem_univ, true_and, Nat.zero_le]
  rw [this]

omit [FloatOps F] in
/-- The rows from `j` on are row `j` and the rows from `j + 1` on. -/
theorem ge_split (c : Dev nD) (j : ℕ) (hj : j < 32) (q : PosShare TreeShare)
    (f : Buf (Elt F) ((gM : Memref sig .tc .vmem S32x1x512 .f32).view.loc (c : Thread nD τ))) :
    ((gM : Memref sig .tc .vmem S32x1x512 .f32).view.loc (c : Thread nD τ) ↦[geS j]{q} f)
      ⊣⊢ iprop(rowPts c j q f ∗ ((gM : Memref sig .tc .vmem S32x1x512 .f32).view.loc (c : Thread nD τ) ↦[geS (j + 1)]{q} f)) := by
  have hu : geS j = rowS j ∪ geS (j + 1) := by
    ext i
    simp only [geS, rowS, Finset.mem_union, Finset.mem_filter, Finset.mem_univ, true_and, Nat.mod_eq_of_lt hj]
    omega
  have hd : Disjoint (rowS j) (geS (j + 1)) := by
    rw [Finset.disjoint_left]
    intro i
    simp only [geS, rowS, Finset.mem_filter, Finset.mem_univ, true_and, Nat.mod_eq_of_lt hj]
    omega
  rw [rowPts_eq, hu]
  exact BI.Region.is_union hd

omit [FloatOps F] in
theorem ge_rows (c : Dev nD) (f : Buf (Elt F) ((gM : Memref sig .tc .vmem S32x1x512 .f32).view.loc (c : Thread nD τ))) :
    ∀ n j, j + n = 32 → (((gM : Memref sig .tc .vmem S32x1x512 .f32).view.loc (c : Thread nD τ) ↦[geS j]{fullShare} f)
      ⊣⊢ fromTo (fun k => rowPts c k fullShare f) j n)
  | 0, j, h => by
    have he : geS j = ∅ := by
      ext i
      have : (show Fin 32 from i 0).val < 32 := (i 0).isLt
      simp only [geS, Finset.mem_filter, Finset.mem_univ, true_and, Finset.notMem_empty, iff_false]
      omega
    rw [he, pointsTo_empty, fromTo_zero]
  | n + 1, j, h => by
    rw [fromTo_succ]
    exact (ge_split c j (by omega) fullShare f).trans (sep_congr_right (ge_rows c f n (j + 1) (by omega)))

omit [FloatOps F] in
/-- The buffer is its 32 rows. -/
theorem gPts_rows (c : Dev nD) (f : Buf (Elt F) ((gM : Memref sig .tc .vmem S32x1x512 .f32).view.loc (c : Thread nD τ))) :
    gPts c f ⊢ fromTo (fun k => rowPts c k fullShare f) 0 32 := by
  rw [gPts_eq]; exact (ge_rows c f 32 0 rfl).mp
omit [FloatOps F] in
theorem rows_gPts (c : Dev nD) (f : Buf (Elt F) ((gM : Memref sig .tc .vmem S32x1x512 .f32).view.loc (c : Thread nD τ))) :
    fromTo (fun k => rowPts c k fullShare f) 0 32 ⊢ gPts c f := by
  rw [gPts_eq]; exact (ge_rows c f 32 0 rfl).mpr

omit [FloatOps F] in
/-- A chain's last factor taken off. -/
theorem fromTo_snoc (Φ : ℕ → sProp 𝕄) : ∀ n i, fromTo Φ i (n + 1) ⊣⊢ iprop(fromTo Φ i n ∗ Φ (i + n))
  | 0, i => by
    rw [fromTo_succ, fromTo_zero, fromTo_zero, Nat.add_zero]
    exact sep_comm
  | n + 1, i => by
    rw [fromTo_succ Φ i (n + 1), fromTo_succ Φ i n]
    have h := fromTo_snoc Φ n (i + 1)
    rw [show i + 1 + n = i + (n + 1) by omega] at h
    exact (sep_congr_right h).trans sep_assoc.symm

omit [FloatOps F] in
/-- A chain over 1 … n read from its far end: factor `k` becomes factor `32 - k`. -/
theorem fromTo_rev (Φ Ψ : ℕ → sProp 𝕄) (h : ∀ k, 1 ≤ k → k ≤ 31 → Φ k ⊢ Ψ (32 - k)) :
    ∀ n, n ≤ 31 → fromTo Φ 1 n ⊢ fromTo Ψ (32 - n) n
  | 0, _ => by rw [fromTo_zero, fromTo_zero]
  | n + 1, hn => by
    have ih := fromTo_rev Φ Ψ h n (by omega)
    refine (fromTo_snoc Φ n 1).mp.trans ?_
    rw [show 32 - (n + 1) = 31 - n by omega, fromTo_succ, show 31 - n + 1 = 32 - n by omega]
    refine (BIClass.sep_mono ih (h (1 + n) (by omega) (by omega))).trans ?_
    rw [show 32 - (1 + n) = 31 - n by omega]
    exact sep_comm.mp

omit [FloatOps F] in
/-- The buffer is row 0 and, from the last row down, its other 31 rows. -/
theorem gPts_rows_rev (c : Dev nD) (f : Buf (Elt F) ((gM : Memref sig .tc .vmem S32x1x512 .f32).view.loc (c : Thread nD τ))) :
    gPts c f ⊢ iprop(rowPts c 0 fullShare f ∗ fromTo (fun k => iprop(∃ f' : Buf (Elt F) ((gM : Memref sig .tc .vmem S32x1x512 .f32).view.loc (c : Thread nD τ)), rowPts c (32 - k) fullShare f')) 1 31) := by
  refine (gPts_rows c f).trans ?_
  rw [fromTo_succ]
  refine sep_mono_right ?_
  refine fromTo_rev (fun k => rowPts c k fullShare f) (fun k => iprop(∃ f' : Buf (Elt F) ((gM : Memref sig .tc .vmem S32x1x512 .f32).view.loc (c : Thread nD τ)), rowPts c (32 - k) fullShare f')) ?_ 31 le_rfl
  intro k h1 h2
  beta_reduce
  rw [show 32 - (32 - k) = k by omega]
  exact exists_intro (Φ := fun f' => rowPts c k fullShare f') f
omit [FloatOps F] in
/-- What `n` copies have left of row 0 splits into copy `n + 1`'s share and what `n + 1` copies leave. -/
theorem rowPts_lend (c : Dev nD) (n : ℕ) (f : Buf (Elt F) ((gM : Memref sig .tc .vmem S32x1x512 .f32).view.loc (c : Thread nD τ))) :
    rowPts c 0 (rem n) f ⊢ iprop(rowPts c 0 (sh (n + 1)) f ∗ rowPts c 0 (rem (n + 1)) f) := by
  unfold rowPts
  exact (BI.Region.is_share (PosShare.mem_left_op_right (rem n))).mp
omit [FloatOps F] in
theorem rowPts_return (c : Dev nD) (n : ℕ) (f : Buf (Elt F) ((gM : Memref sig .tc .vmem S32x1x512 .f32).view.loc (c : Thread nD τ))) :
    iprop(rowPts c 0 (sh (n + 1)) f ∗ rowPts c 0 (rem (n + 1)) f) ⊢ rowPts c 0 (rem n) f := by
  unfold rowPts
  exact (BI.Region.is_share (PosShare.mem_left_op_right (rem n))).mpr

omit [FloatOps F] in
/-- A copy into any row is worth a row's credit on its arrival and on its departure semaphore. -/
theorem row_amount (k : ℕ) (sem : DmaSem sig) : (rowM k : Memref sig .tc .vmem S1x512 .f32).view.amount (.dma sem) = N := rfl

omit [FloatOps F] in
theorem access0_set : ((gM : Memref sig .tc .vmem S32x1x512 .f32).access r000).set = r000.set := by
  show ((View.whole cc0_scratch0).slice r000).set = _
  rw [View.set_slice_whole]

omit [FloatOps F] in
theorem mem_r000 {i : S32x1x512.Idx} (hi : i ∈ r000.set) : i ∈ (rowM 0 : Memref sig .tc .vmem S1x512 .f32).view.set := by
  rw [mem_row]
  have h0 := (Rect.mem_set_unit.mp hi) 0
  change 0 ≤ (i 0).val ∧ (i 0).val < 0 + 1 at h0
  show (i 0).val = 0 % 32
  omega

omit [FloatOps F] in
/-- The store into row 0 and the load before it touch row 0 only; the final load the whole buffer. -/
theorem store0_sub : ((gM : Memref sig .tc .vmem S32x1x512 .f32).access r000).setOn Finset.univ ⊆ (rowM 0 : Memref sig .tc .vmem S1x512 .f32).view.set := by
  intro i hi
  rw [View.setOn_univ, access0_set] at hi
  exact mem_r000 hi
omit [FloatOps F] in
theorem load0_sub : (gM : Memref sig .tc .vmem S32x1x512 .f32).view.setOn r000.toLoadRect.set ⊆ (rowM 0 : Memref sig .tc .vmem S1x512 .f32).view.set := by
  intro i hi
  obtain ⟨x, hx, e⟩ := Finset.mem_map.mp hi
  have : x = i := e
  subst this
  exact mem_r000 hx
omit [FloatOps F] in
theorem loadAll_sub : (gM : Memref sig .tc .vmem S32x1x512 .f32).view.setOn rAll.toLoadRect.set ⊆ (gM : Memref sig .tc .vmem S32x1x512 .f32).view.set :=
  View.setOn_subset_set _ _

omit [FloatOps F] in
/-- The store leaves the stored vector in row 0; -/
theorem store0_val (c : Dev nD) (f : Buf (Elt F) ((gM : Memref sig .tc .vmem S32x1x512 .f32).view.loc (c : Thread nD τ))) (v : S1x1x512.Idx → Elt F .f32) (i : S32x1x512.Idx)
    (hi : (show Fin 32 from i 0).val = 0) :
    ((gM : Memref sig .tc .vmem S32x1x512 .f32).access r000).write (Elt F) f v Finset.univ i = v (ValueIdx.ix3 (0 : Fin 1) (0 : Fin 1) (show Fin 512 from i 2)) := by
  change (i 0).val = 0 at hi
  have h1 : (i 1).val < 1 := (i 1).isLt
  have he : ((gM : Memref sig .tc .vmem S32x1x512 .f32).access r000).emb (ValueIdx.ix3 (0 : Fin 1) (0 : Fin 1) (show Fin 512 from i 2)) = i := by
    funext a
    apply Fin.ext
    fin_cases a
    · show 0 + 1 * 0 = (i 0).val; omega
    · show 0 + 1 * 0 = (i 1).val; omega
    · show 0 + 1 * (i 2).val = (i 2).val; omega
  have hw := View.write_emb_of_mem (v := (gM : Memref sig .tc .vmem S32x1x512 .f32).access r000) (Val := Elt F) f v
    (M := Finset.univ) (x := ValueIdx.ix3 (0 : Fin 1) (0 : Fin 1) (show Fin 512 from i 2)) (Finset.mem_univ _)
  rw [he] at hw
  exact hw

omit [FloatOps F] in
/-- a copy of the sender's row 0 leaves, in row `k` of the receiver, the sender's row 0; -/
theorem land_val (c c' : Dev nD) (k : ℕ)
    (fd : Buf (Elt F) ((rowM k : Memref sig .tc .vmem S1x512 .f32).view.loc (c' : Thread nD τ)))
    (fs : Buf (Elt F) ((rowM 0 : Memref sig .tc .vmem S1x512 .f32).view.loc (c : Thread nD τ))) (i : S32x1x512.Idx)
    (hi : (show Fin 32 from i 0).val = k % 32) :
    (rowM k : Memref sig .tc .vmem S1x512 .f32).view.write (Elt F) fd ((rowM 0 : Memref sig .tc .vmem S1x512 .f32).view.read (Elt F) fs) Finset.univ i
      = fs (ValueIdx.ix3 (0 : Fin 32) (0 : Fin 1) (show Fin 512 from i 2)) := by
  obtain ⟨x, hx⟩ := View.exists_emb_of_mem_set (rowM k : Memref sig .tc .vmem S1x512 .f32).view ((mem_row k i).mpr hi)
  have hw := View.write_emb_of_mem (v := (rowM k : Memref sig .tc .vmem S1x512 .f32).view) (Val := Elt F) fd
    ((rowM 0 : Memref sig .tc .vmem S1x512 .f32).view.read (Elt F) fs) (M := Finset.univ) (x := x) (Finset.mem_univ _)
  rw [hx] at hw
  rw [hw, View.read_apply]
  -- the row index `x` seen as an index of the 1 × 1 × 512 rectangle
  let y : S1x1x512.Idx := Shape.reshapeEquiv (Shape.Squeezes.numel_eq squeezes_S1x1x512_S1x512) x
  have e2 : (i 2).val = (y 2).val := by
    have := congrArg (fun j : S32x1x512.Idx => (j 2).val) hx
    change 0 + 1 * (y 2).val = (i 2).val at this
    omega
  have y0 : (y 0).val < 1 := (y 0).isLt
  have y1 : (y 1).val < 1 := (y 1).isLt
  have he : (rowM 0 : Memref sig .tc .vmem S1x512 .f32).view.emb x = ValueIdx.ix3 (0 : Fin 32) (0 : Fin 1) (show Fin 512 from i 2) := by
    funext a
    apply Fin.ext
    fin_cases a
    · show 0 % 32 + 1 * (y 0).val = 0; omega
    · show 0 + 1 * (y 1).val = 0; omega
    · show 0 + 1 * (y 2).val = (i 2).val; omega
  rw [he]
  rfl

omit [FloatOps F] in
/-- and the final load of the whole buffer reads its contents. -/
theorem readAll (f : (cc0_scratch0 : Ref sig .tc).ty.Contents (Elt F)) :
    (gM : Memref sig .tc .vmem S32x1x512 .f32).view.readAt (Elt F) rAll.toLoadRect f = f := by
  have hz : (![0, 0, 0] : Fin 3 → Nat) = fun _ => 0 := by
    funext a; fin_cases a <;> rfl
  exact Memref.readAt_unit_zero (Elt F) cc0_scratch0 hz _ f

/-- info: 'Cert.KernelProof.gPts_rows_rev' depends on axioms: [propext, Classical.choice, Quot.sound] -/
#guard_msgs in #print axioms gPts_rows_rev

/-- info: 'Cert.KernelProof.land_val' depends on axioms: [propext, Classical.choice, Quot.sound] -/
#guard_msgs in #print axioms land_val

end Cert.KernelProof

end
-- ==== Proof.KSteps.lean ====
/-
  One device's body, one effect at a time: each lemma takes the protocol's state before an effect to the state
  after it, for a symbolic ring offset.
-/
import proofs.«901070_g7700000000001071_dist_sum_ax0_shard0_i_m1024_n512_v7x_i32_bf16_1_alg».proof.Proof.KTables
import proofs.«901070_g7700000000001071_dist_sum_ax0_shard0_i_m1024_n512_v7x_i32_bf16_1_alg».proof.Proof.KRows

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

/-! ## Reading the records -/

theorem inv_at (ck : Dev nD × CK) :
    (bigSep Finset.univ fun ck : Dev nD × CK => (cellInv ER (Rd m ρ) (K ck) (kcell ck) : sProp 𝕄)) ⊢ cellInv ER (Rd m ρ) (K ck) (kcell ck) :=
  bigSep_elim (Finset.mem_univ ck)
omit [FloatOps F] in
theorem reached_at (ck : Dev nD × CK) :
    (bigSep Finset.univ fun ck : Dev nD × CK => (reached ER (kcell ck) 0 : sProp 𝕄)) ⊢ reached ER (kcell ck) 0 :=
  bigSep_elim (Finset.mem_univ ck)

theorem rec_inv (ck : Dev nD × CK) : records m ρ K ⊢ cellInv ER (Rd m ρ) (K ck) (kcell ck) := by
  unfold records
  iintro ⟨HI, -⟩
  iapply (inv_at m ρ K ck); iexact HI
theorem rec_reached (ck : Dev nD × CK) : records m ρ K ⊢ reached ER (kcell ck) 0 := by
  unfold records
  iintro ⟨-, HR⟩
  iapply (reached_at (F := F) ck); iexact HR

theorem rec_inv_bar (c' : Dev nD) : records m ρ K ⊢ cellInv ER (Rd m ρ) (K (c', .bar)) (barCell c') := rec_inv m ρ K (c', .bar)
theorem rec_inv_send (c' : Dev nD) (j : ℕ) (hj : j < 32) : records m ρ K ⊢ cellInv ER (Rd m ρ) (K (c', .send ⟨j, hj⟩)) (sendCell c' j) :=
  rec_inv m ρ K (c', .send ⟨j, hj⟩)
theorem rec_inv_recv (c' : Dev nD) (j : ℕ) (hj : j < 32) : records m ρ K ⊢ cellInv ER (Rd m ρ) (K (c', .recv ⟨j, hj⟩)) (recvCell c' j) :=
  rec_inv m ρ K (c', .recv ⟨j, hj⟩)
theorem rec_reached_bar (c' : Dev nD) : records m ρ K ⊢ reached ER (barCell c') 0 := rec_reached m ρ K (c', .bar)
theorem rec_reached_send (c' : Dev nD) (j : ℕ) (hj : j < 32) : records m ρ K ⊢ reached ER (sendCell c' j) 0 := rec_reached m ρ K (c', .send ⟨j, hj⟩)
theorem rec_reached_recv (c' : Dev nD) (j : ℕ) (hj : j < 32) : records m ρ K ⊢ reached ER (recvCell c' j) 0 := rec_reached m ρ K (c', .recv ⟨j, hj⟩)

theorem fk_val (k : ℕ) (hk : k ≤ 31) : (fk k).val = k := Nat.mod_eq_of_lt (by omega)
theorem fk_mem (k : ℕ) (hk1 : 1 ≤ k) (hk : k ≤ 31) : fk k ∈ (Finset.univ.erase 0 : Finset (Fin 32)) := by
  refine Finset.mem_erase.mpr ⟨fun h => ?_, Finset.mem_univ _⟩
  have := congrArg Fin.val h
  rw [fk_val k hk] at this
  exact absurd this (by show ¬ k = 0; omega)

/-! ## Chains that grow at the far end -/

/-- `((emp ∗ Φ 1) ∗ Φ 2) ∗ … ∗ Φ n`: what `n` steps have left behind, the latest last. -/
def accL (Φ : ℕ → sProp 𝕄) : ℕ → sProp 𝕄
  | 0 => iprop(emp)
  | n + 1 => iprop(accL Φ n ∗ Φ (n + 1))

omit [FloatOps F] in
theorem accL_succ (Φ : ℕ → sProp 𝕄) (n : ℕ) : accL Φ (n + 1) = iprop(accL Φ n ∗ Φ (n + 1)) := rfl

omit [FloatOps F] in
/-- What was collected first to last is the chain first to last. -/
theorem accL_fromTo (Φ : ℕ → sProp 𝕄) : ∀ n j : ℕ, iprop(accL Φ n ∗ fromTo Φ (n + 1) j) ⊢ fromTo Φ 1 (n + j)
  | 0, j => by
    rw [Nat.zero_add j]
    iintro ⟨-, H⟩; iexact H
  | n + 1, j => by
    have h := accL_fromTo Φ n (j + 1)
    rw [show n + 1 + j = n + (j + 1) by omega]
    have h2 : iprop(accL Φ (n + 1) ∗ fromTo Φ (n + 1 + 1) j) ⊢ iprop(accL Φ n ∗ fromTo Φ (n + 1) (j + 1)) := by
      rw [accL_succ, fromTo_succ]
      iintro ⟨⟨Ha, Hp⟩, Hf⟩
      isplitl [Ha]; · iexact Ha
      isplitl [Hp]; · iexact Hp
      iexact Hf
    exact h2.trans h

/-! ## A signal -/

def sigTok (c : Dev nD) (k : ℕ) : sProp 𝕄 := dutyTok ER (barCell (dv c k)) 0 (fk k)
def sigRow (c : Dev nD) (k : ℕ) : sProp 𝕄 :=
  iprop(∃ f' : Buf (Elt F) ((gM : Memref sig .tc .vmem S32x1x512 .f32).view.loc (c : Thread nD τ)), rowPts c (32 - k) fullShare f')

/-- Signal `k` (with `n` more to go): pays unit `k` of the peer's barrier cell with the row the peer's copy will land in. -/
theorem step_signal (c : Dev nD) (k n : ℕ) (hk : k + n = 31) (hk1 : 1 ≤ k)
    {α : Type} {Q : α → sProp 𝕄} {kont : PUnit → Prog (TpuEff nD τ sig (Elt F) Λ₀ .tc) α} (W : Waits sig Unit) (R : sProp 𝕄)
    (hnext : iprop(records m ρ K ∗ owes (c : Thread nD τ) (remG c n) W ∗ fromTo (sigTok (F := F) c) (k + 1) n ∗ fromTo (sigRow (F := F) c) (k + 1) n ∗ R)
        ⊢ wp frame (wpE (defs₀ (F := F)) 𝒱₀ (c : Thread nD τ) none) Set.univ (kont ⟨⟩) Q) :
    iprop(records m ρ K ∗ owes (c : Thread nD τ) (remG c (n + 1)) W ∗ fromTo (sigTok (F := F) c) k (n + 1) ∗ fromTo (sigRow (F := F) c) k (n + 1) ∗ R)
      ⊢ wp frame (wpE (defs₀ (F := F)) 𝒱₀ (c : Thread nD τ) none) Set.univ
          (.op (.semSignal (dv c k : Thread nD τ) barS 1) kont) Q := by
  have e31 : 31 - n = k := by omega
  have hk31 : k ≤ 31 := by omega
  rw [fromTo_succ, fromTo_succ]
  unfold sigTok sigRow
  iintro ⟨#Hrec, HO, ⟨Htok, Hrest⟩, ⟨⟨%f, Hrow⟩, Hrest'⟩, HR⟩
  iapply (Rounds.wp_signal 𝒱₀ ER (Rd m ρ) (c : Thread nD τ) none (dst := (dv c k : Thread nD τ)) (κ := K (dv c k, .bar))
      (d := fk k) (by rw [duties_bar]; exact fk_mem k hk1 hk31) (amount_bar m ρ (dv c k) (fk k)) () (remG c n)
      (by show remG c n + tallyAt (barCell (dv c (31 - n))) () 1 = _; rw [e31])) $$ [HO Htok Hrow]
  · isplitr; · iapply (rec_inv_bar m ρ K (dv c k)); iexact Hrec
    isplitl [HO]; · iexact HO
    isplitl [Htok]; · iexact Htok
    isplitl [Hrow]
    · rw [payload_bar]; unfold barPay; rw [fk_val k hk31, dv_back c k (by omega)]
      isplitl [Hrow]; · iexists f; iexact Hrow
      iapply (rec_reached_recv m ρ K c (32 - k) (by omega)); iexact Hrec
    · iapply (rec_reached_bar m ρ K (dv c k)); iexact Hrec
  iintro HO
  iapply hnext
  isplitr; · iexact Hrec
  isplitl [HO]; · iexact HO
  isplitl [Hrest]; · iexact Hrest
  isplitl [Hrest']; · iexact Hrest'
  iexact HR

/-! ## The device's own sums into row 0 -/

omit [FloatOps F] in
theorem hz2 : (![0, 0] : Fin 2 → Nat) = fun _ => 0 := funext fun a => by fin_cases a <;> rfl

abbrev rx : Rect S1024x512 := Rect.unit (s := S1024x512) ![0, 0] S1024x512.size inb_S1024x512_S1024x512_0_0
abbrev ro : Rect S1x512 := Rect.unit (s := S1x512) ![0, 0] S1x512.size inb_S1x512_S1x512_0_0

omit [FloatOps F] in
theorem read_x (f : (cc0_stg0_0 : Ref sig .tc).ty.Contents (Elt F)) : (xM : Memref sig .tc .vmem S1024x512 .f32).view.readAt (Elt F) rx.toLoadRect f = f :=
  Memref.readAt_unit_zero (Elt F) cc0_stg0_0 hz2 _ f
omit [FloatOps F] in
theorem write_out (f w : (cc0_stg1_0 : Ref sig .tc).ty.Contents (Elt F)) :
    ((oM : Memref sig .tc .vmem S1x512 .f32).access ro : View sig .tc _ _ _).write (Elt F) f w Finset.univ = w :=
  Memref.write_access_unit_zero_univ (Elt F) cc0_stg1_0 hz2 _ f w

theorem dv_32 (c : Dev nD) : dv c 32 = c := by
  apply Fin.ext
  show (c.val + 32) % 32 = c.val
  have h : c.val < 32 := c.isLt
  omega

/-- The device's block of `x`, whole. -/
abbrev xPts (c : Dev nD) : sProp 𝕄 := (((c : Thread nD τ).loc cc0_stg0_0) ↦{fullShare} xstg m ρ c : sProp 𝕄)

/-- Load the block, (load and) store its column sums into row 0: row 0 then holds what `gath` says. -/
theorem step_local (c : Dev nD) {α : Type} {Q : α → sProp 𝕄} {kont : PUnit → Prog (TpuEff nD τ sig (Elt F) Λ₀ .tc) α}
    {hl hl' hx hm} (f : Buf (Elt F) ((gM : Memref sig .tc .vmem S32x1x512 .f32).view.loc (c : Thread nD τ))) (R : sProp 𝕄)
    (hnext : iprop(xPts m ρ c ∗ rowPts c 0 (rem 0) (gath m ρ c) ∗ R)
        ⊢ wp frame (wpE (defs₀ (F := F)) 𝒱₀ (c : Thread nD τ) none) Set.univ (kont ⟨⟩) Q) :
    iprop(xPts m ρ c ∗ rowPts c 0 fullShare f ∗ R)
      ⊢ wp frame (wpE (defs₀ (F := F)) 𝒱₀ (c : Thread nD τ) none) Set.univ
          (.op (.load xM rx.toLoadRect hl) fun v128 =>
            .op (.load gM r000.toLoadRect hl') fun _ =>
              .op (.store gM r000 (k0_pay2 v128) Finset.univ hx hm) kont) Q := by
  iintro ⟨Hx, Hrow, HR⟩
  iapply (wp_load 𝒱₀ (c : Thread nD τ) none Set.univ (m := xM) (Finset.subset_univ _)) $$ Hx; iintro Hx
  rw [read_x]
  unfold rowPts
  iapply (wp_load 𝒱₀ (c : Thread nD τ) none Set.univ (m := gM) (load0_sub)) $$ Hrow; iintro Hrow
  iapply (wp_store 𝒱₀ (c : Thread nD τ) none Set.univ (m := gM) (r := r000) (Mk := Finset.univ) (store0_sub)) $$ Hrow; iintro Hrow
  iapply hnext
  isplitl [Hx]; · iexact Hx
  isplitl [Hrow]
  · have e := rowPts_congr (F := F) c 0 fullShare
      (f := ((gM : Memref sig .tc .vmem S32x1x512 .f32).access r000).write (Elt F) f (k0_pay2 (xstg m ρ c)) Finset.univ) (g := gath m ρ c)
      (fun i hi => by
        rw [store0_val c f _ i (by simpa using hi)]
        unfold gath
        rw [show (show Fin 32 from i 0).val = 0 from by simpa using hi, dv_32])
    rw [show rem 0 = fullShare from rfl, ← e]
    unfold rowPts
    iexact Hrow
  iexact HR

/-! ## The barrier wait -/

/-- The wait for 31 on the barrier, owing the 31 arrivals: the 31 peers' rows come with it. -/
theorem step_barwait (c : Dev nD) {α : Type} {Q : α → sProp 𝕄} {kont : PUnit → Prog (TpuEff nD τ sig (Elt F) Λ₀ .tc) α}
    (W : Waits sig Unit) (R : sProp 𝕄)
    (hnext : iprop(records m ρ K ∗ owes (c : Thread nD τ) (remS c 31) (insert (SemLoc.reg barS, ()) W) ∗ fromTo (peerRow (F := F) c) 1 31 ∗ R)
        ⊢ wp frame (wpE (defs₀ (F := F)) 𝒱₀ (c : Thread nD τ) none) Set.univ (kont ⟨⟩) Q) :
    iprop(records m ρ K ∗ owes (c : Thread nD τ) (remS c 31) W ∗ levAts L lv ∗ cred (tallyAt (barCell c) () 31) ∗ atPos ER (barCell c) 0 ∅ 0 ∗ R)
      ⊢ wp frame (wpE (defs₀ (F := F)) 𝒱₀ (c : Thread nD τ) none) Set.univ
          (.op (.semWait barS 31) kont) Q := by
  iintro ⟨#Hrec, HO, #Hlev, HcB, HatB, HR⟩
  iapply (Rounds.wp_wait_rest_token 𝒱₀ ER (Rd m ρ) (c : Thread nD τ) none (κ := K (c, .bar))
      (wpE_semWait_eq 𝒱₀ (c : Thread nD τ) none Set.univ) (Set.mem_univ _) () (O := remS c 31) (W := W) (R := 0) (m := 0) (T := ∅)
      (by rw [expect_bar])) $$ [HcB HO HatB]
  · isplitr; · iapply (rec_inv_bar m ρ K c); iexact Hrec
    isplitl [HcB]; · iexact HcB
    isplitl [HO]; · iexact HO
    isplitr; · iapply (mayWait_bar c); iexact Hlev
    iexact HatB
  iintro ⟨HO, -, -, Hpay⟩
  ihave Hp := (rest_bar m ρ c) $$ Hpay
  iapply hnext
  isplitr; · iexact Hrec
  isplitl [HO]; · iexact HO
  isplitl [Hp]; · iexact Hp
  iexact HR

/-! ## A copy -/

/-- The credit a copy's departure returns at once. -/
def credS (c : Dev nD) (k : ℕ) : sProp 𝕄 := cred (tallyAt (sendCell c k) () N)

/-- What lands in row `k` of the device `k` places on is what that device's `gath` says: the column sums of the
    device `k` places before it. -/
theorem landed_eq (c : Dev nD) (k : ℕ) (hk1 : 1 ≤ k) (hk : k ≤ 31)
    (fn : Buf (Elt F) ((rowM k : Memref sig .tc .vmem S1x512 .f32).view.loc (dv c k : Thread nD τ))) :
    rowPts (dv c k) k fullShare
        ((rowM k : Memref sig .tc .vmem S1x512 .f32).view.write (Elt F) fn ((rowM 0 : Memref sig .tc .vmem S1x512 .f32).view.read (Elt F) (gath m ρ c)) Finset.univ)
      = rowPts (dv c k) k fullShare (gath m ρ (dv c k)) := by
  refine rowPts_congr (F := F) (dv c k) k fullShare (fun i hi => ?_)
  have hi' : (show Fin 32 from i 0).val = k := by rw [hi]; exact Nat.mod_eq_of_lt (by omega)
  rw [land_val c (dv c k) k fn (gath m ρ c) i hi]
  unfold gath
  rw [hi', dv_back c k (by omega)]
  show k0_pay2 (xstg m ρ (dv c 32)) _ = _
  rw [dv_32]
  rfl

/-- Copy `j + 1` (with `n` more to go): lends a share of row 0, writes the peer's row, pays the peer's arrival. -/
theorem step_send (c : Dev nD) (j n : ℕ) (hj : j + 1 + n = 31) (d : Dev nD) (hd : d = dv c (j + 1))
    {α : Type} {Q : α → sProp 𝕄} {kont : PUnit → Prog (TpuEff nD τ sig (Elt F) Λ₀ .tc) α}
    {hsc hsrc hdst hsem} (W : Waits sig Unit) (R : sProp 𝕄)
    (hnext : iprop(records m ρ K ∗ owes (c : Thread nD τ) (remS c n) W ∗ fromTo (cpyRes (F := F) c) (j + 2) n ∗ fromTo (peerRow (F := F) c) (j + 2) n
          ∗ rowPts c 0 (rem (j + 1)) (gath m ρ c) ∗ accL (credS (F := F) c) (j + 1) ∗ R)
        ⊢ wp frame (wpE (defs₀ (F := F)) 𝒱₀ (c : Thread nD τ) none) Set.univ (kont ⟨⟩) Q) :
    iprop(records m ρ K ∗ owes (c : Thread nD τ) (remS c (n + 1)) W ∗ fromTo (cpyRes (F := F) c) (j + 1) (n + 1) ∗ fromTo (peerRow (F := F) c) (j + 1) (n + 1)
          ∗ rowPts c 0 (rem j) (gath m ρ c) ∗ accL (credS (F := F) c) j ∗ R)
      ⊢ wp frame (wpE (defs₀ (F := F)) 𝒱₀ (c : Thread nD τ) none) Set.univ
          (.op (.enqueueDma (rowM 0) (.remote (d : Thread nD τ) (rowM (j + 1)) (.dma (sendS (j + 1)).sem) hsc) (.dma (recvS (j + 1)).sem) hsrc hdst hsem) kont) Q := by
  subst hd
  have hk31 : j + 1 ≤ 31 := by omega
  have hlt : j + 1 < 32 := by omega
  have e31 : 31 - n = j + 1 := by omega
  rw [fromTo_succ, fromTo_succ]
  unfold cpyRes peerRow
  iintro ⟨#Hrec, HO, ⟨⟨HtS, HtV⟩, Hc'⟩, ⟨⟨⟨%fn, Hdst⟩, #HrV⟩, Hp'⟩, Hsrc, Hacc, HR⟩
  ihave Hsp := (rowPts_lend (F := F) c j (gath m ρ c)) $$ Hsrc
  icases Hsp with ⟨Hlend, Hkeep⟩
  iapply (Rounds.wp_send_pointsTo 𝒱₀ ER (Rd m ρ) (c : Thread nD τ) none (c' := (dv c (j + 1) : Thread nD τ))
      (src := rowM 0) (dst := rowM (j + 1)) (q := sh (j + 1)) (fs := gath m ρ c) (fd := fn)
      (κ₁ := K (c, .send ⟨j + 1, hlt⟩)) (κ₂ := K (dv c (j + 1), .recv ⟨j + 1, hlt⟩)) (r₁ := 0) (r₂ := 0) (d₁ := 0) (d₂ := 0)
      (by rw [duties_send m ρ c (j + 1) ⟨by omega, hk31⟩]; exact Finset.mem_singleton_self _)
      (by rw [duties_recv m ρ (dv c (j + 1)) (j + 1) ⟨by omega, hk31⟩]; exact Finset.mem_singleton_self _)
      () () N (row_amount (j + 1) _) (amount_send m ρ c (j + 1) 0) (amount_recv m ρ (dv c (j + 1)) (j + 1) 0) (remS c n)
      (by show remS c n + tallyAt (recvCell (dv c (31 - n)) (31 - n)) () N = _; rw [e31]) (W := W)
      (by rw [payload_send m ρ c (j + 1) ⟨by omega, hk31⟩]; unfold sendPay rowPts; exact BI.Entails.refl _)
      (by rw [payload_recv m ρ (dv c (j + 1)) (j + 1) ⟨by omega, hk31⟩]; unfold recvPay
          exact Entails.of_eq (landed_eq m ρ c (j + 1) (by omega) hk31 fn))) $$ [Hlend Hdst HO HtS HtV]
  · isplitr; · iapply (rec_inv_send m ρ K c (j + 1) hlt); iexact Hrec
    isplitr; · iapply (rec_inv_recv m ρ K (dv c (j + 1)) (j + 1) hlt); iexact Hrec
    isplitl [Hlend]; · unfold rowPts; iexact Hlend
    isplitl [Hdst]; · unfold rowPts; iexact Hdst
    isplitl [HO]; · iexact HO
    isplitl [HtS]; · iexact HtS
    isplitr; · iapply (rec_reached_send m ρ K c (j + 1) hlt); iexact Hrec
    isplitl [HtV]; · iexact HtV
    iexact HrV
  iintro ⟨HcS, HO⟩
  iapply hnext
  isplitr; · iexact Hrec
  isplitl [HO]; · iexact HO
  isplitl [Hc']; · iexact Hc'
  isplitl [Hp']; · iexact Hp'
  isplitl [Hkeep]; · iexact Hkeep
  isplitl [Hacc HcS]
  · rw [accL_succ]; isplitl [Hacc]; · iexact Hacc
    unfold credS; iexact HcS
  iexact HR

/-! ## The two waits of a copy -/

/-- What the two waits of copy `k` leave: the lent share of row 0 back, row `k` holding the sender's sums, both cells
    past their one round. -/
def doneRes (c : Dev nD) (k : ℕ) : sProp 𝕄 :=
  iprop(rowPts c 0 (sh k) (gath m ρ c) ∗ rowPts c k fullShare (gath m ρ c) ∗ atPos ER (sendCell c k) 1 ∅ 0 ∗ atPos ER (recvCell c k) 1 ∅ 0)

/-- The departure wait and the arrival wait of copy `j + 1` (with `n` more copies to wait for), nothing owed any more. -/
theorem step_waits (c : Dev nD) (j n : ℕ) (hj : j + 1 + n = 31)
    {α : Type} {Q : α → sProp 𝕄} {kont : PUnit → Prog (TpuEff nD τ sig (Elt F) Λ₀ .tc) α}
    {h1 h2 h3 h4} (W : Waits sig Unit) (R : sProp 𝕄)
    (hnext : ∀ W' : Waits sig Unit, iprop(records m ρ K ∗ owes (c : Thread nD τ) 0 W' ∗ fromTo (credS (F := F) c) (j + 2) n ∗ fromTo (waitRes (F := F) c) (j + 2) n
          ∗ accL (doneRes m ρ c) (j + 1) ∗ R)
        ⊢ wp frame (wpE (defs₀ (F := F)) 𝒱₀ (c : Thread nD τ) none) Set.univ (kont ⟨⟩) Q) :
    iprop(records m ρ K ∗ owes (c : Thread nD τ) 0 W ∗ fromTo (credS (F := F) c) (j + 1) (n + 1) ∗ fromTo (waitRes (F := F) c) (j + 1) (n + 1)
          ∗ accL (doneRes m ρ c) j ∗ R)
      ⊢ wp frame (wpE (defs₀ (F := F)) 𝒱₀ (c : Thread nD τ) none) Set.univ
          (.op (.waitDma2 (sendS (j + 1)).sem (rowM (j + 1)) (rowM 0) h1 h2) fun _ =>
            .op (.waitDma2 (recvS (j + 1)).sem (rowM 0) (rowM (j + 1)) h3 h4) kont) Q := by
  have hk31 : j + 1 ≤ 31 := by omega
  have hk : 1 ≤ j + 1 ∧ j + 1 ≤ 31 := ⟨by omega, hk31⟩
  have hlt : j + 1 < 32 := by omega
  rw [fromTo_succ, fromTo_succ]
  unfold credS waitRes
  iintro ⟨#Hrec, HO, ⟨HcS, Hc'⟩, ⟨⟨HatS, HatV, HcV⟩, Hw'⟩, Hacc, HR⟩
  iapply (Rounds.wp_wait_rest_token 𝒱₀ ER (Rd m ρ) (c : Thread nD τ) none (κ := K (c, .send ⟨j + 1, hlt⟩))
      (wpE_waitDma2_eq 𝒱₀ (c : Thread nD τ) none Set.univ) (Set.mem_univ _) () (O := 0) (W := W) (R := 0) (m := 0) (T := ∅)
      (by rw [Nat.zero_add, expect_send m ρ c (j + 1) hk])) $$ [HcS HO HatS]
  · isplitr; · iapply (rec_inv_send m ρ K c (j + 1) hlt); iexact Hrec
    isplitl [HcS]; · iexact HcS
    isplitl [HO]; · iexact HO
    isplitr; · rw [MayWait_zero]; iempintro
    iexact HatS
  iintro ⟨HO, HatS, -, Hpay⟩
  ihave Hshare := (Entails.of_eq (rest_send m ρ c (j + 1) hk)) $$ Hpay
  iapply (Rounds.wp_wait_rest_token 𝒱₀ ER (Rd m ρ) (c : Thread nD τ) none (κ := K (c, .recv ⟨j + 1, hlt⟩))
      (wpE_waitDma2_eq 𝒱₀ (c : Thread nD τ) none Set.univ) (Set.mem_univ _) () (O := 0) (R := 0) (m := 0) (T := ∅)
      (by rw [Nat.zero_add, expect_recv m ρ c (j + 1) hk])) $$ [HcV HO HatV]
  · isplitr; · iapply (rec_inv_recv m ρ K c (j + 1) hlt); iexact Hrec
    isplitl [HcV]; · iexact HcV
    isplitl [HO]; · iexact HO
    isplitr; · rw [MayWait_zero]; iempintro
    iexact HatV
  iintro ⟨HO, HatV, -, Hpay⟩
  ihave Hrow := (Entails.of_eq (rest_recv m ρ c (j + 1) hk)) $$ Hpay
  iapply (hnext _)
  isplitr; · iexact Hrec
  isplitl [HO]; · iexact HO
  isplitl [Hc']; · iexact Hc'
  isplitl [Hw']; · iexact Hw'
  isplitl [Hacc Hshare Hrow HatS HatV]
  · rw [accL_succ]; isplitl [Hacc]; · iexact Hacc
    unfold doneRes sendPay recvPay
    isplitl [Hshare]; · iexact Hshare
    isplitl [Hrow]; · iexact Hrow
    isplitl [HatS]; · iexact HatS
    iexact HatV
  iexact HR

end Cert.KernelProof

end
-- ==== Proof.KChains.lean ====
/-
  Chains of resources taken apart and put together: three chains side by side, the 31 lent shares of row 0 back
  into one, and the departure and arrival cells closed one after the other.
-/
import proofs.«901070_g7700000000001071_dist_sum_ax0_shard0_i_m1024_n512_v7x_i32_bf16_1_alg».proof.Proof.KTables
import proofs.«901070_g7700000000001071_dist_sum_ax0_shard0_i_m1024_n512_v7x_i32_bf16_1_alg».proof.Proof.KRows

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- A chain of triples is three chains. -/
theorem fromTo_sep3 (A B C : ℕ → sProp 𝕄) : ∀ n i : ℕ,
    fromTo (fun k => iprop(A k ∗ B k ∗ C k)) i n ⊢ iprop(fromTo A i n ∗ fromTo B i n ∗ fromTo C i n)
  | 0, i => by
    rw [fromTo_zero, fromTo_zero, fromTo_zero, fromTo_zero]
    iintro -
    isplitr; · iempintro
    isplitr; · iempintro
    iempintro
  | n + 1, i => by
    rw [fromTo_succ, fromTo_succ, fromTo_succ, fromTo_succ]
    iintro ⟨⟨Ha, Hb, Hc⟩, Hr⟩
    ihave Hr' := (fromTo_sep3 A B C n (i + 1)) $$ Hr
    icases Hr' with ⟨Ha', Hb', Hc'⟩
    isplitl [Ha Ha']
    · isplitl [Ha]; · iexact Ha
      iexact Ha'
    isplitl [Hb Hb']
    · isplitl [Hb]; · iexact Hb
      iexact Hb'
    isplitl [Hc]; · iexact Hc
    iexact Hc'

omit [FloatOps F] in
/-- The shares of row 0 lent to copies `a + 1 … a + n`, and what `a + n` copies left, are what `a` copies left. -/
theorem shares_back (c : Dev nD) (g : Buf (Elt F) ((gM : Memref sig .tc .vmem S32x1x512 .f32).view.loc (c : Thread nD τ))) : ∀ n a : ℕ,
    iprop(fromTo (fun k => rowPts c 0 (sh k) g) (a + 1) n ∗ rowPts c 0 (rem (a + n)) g) ⊢ rowPts c 0 (rem a) g
  | 0, a => by
    rw [fromTo_zero, Nat.add_zero]
    iintro ⟨-, H⟩
    iexact H
  | n + 1, a => by
    rw [fromTo_succ, show a + (n + 1) = a + 1 + n from by omega]
    iintro ⟨⟨Hs, Hr⟩, Hrem⟩
    iapply (rowPts_return c a g)
    isplitl [Hs]; · iexact Hs
    iapply (shares_back c g n (a + 1))
    isplitl [Hr]; · iexact Hr
    iexact Hrem

variable (K : Dev nD × CK → ℕ)

/-- The invariants of a device's departure and arrival cells, out of the record of all cells. -/
theorem ch_inv_send (c : Dev nD) (k : ℕ) (hk : k < 32) :
    records m ρ K ⊢ cellInv ER (Rd m ρ) (K (c, .send ⟨k, hk⟩)) (sendCell c k) := by
  unfold records
  have h : (bigSep Finset.univ fun ck : Dev nD × CK => cellInv ER (Rd m ρ) (K ck) (kcell ck))
      ⊢ cellInv ER (Rd m ρ) (K (c, .send ⟨k, hk⟩)) (sendCell c k) := bigSep_elim (Finset.mem_univ (c, CK.send ⟨k, hk⟩))
  iintro ⟨H, -⟩
  iapply h
  iexact H
theorem ch_inv_recv (c : Dev nD) (k : ℕ) (hk : k < 32) :
    records m ρ K ⊢ cellInv ER (Rd m ρ) (K (c, .recv ⟨k, hk⟩)) (recvCell c k) := by
  unfold records
  have h : (bigSep Finset.univ fun ck : Dev nD × CK => cellInv ER (Rd m ρ) (K ck) (kcell ck))
      ⊢ cellInv ER (Rd m ρ) (K (c, .recv ⟨k, hk⟩)) (recvCell c k) := bigSep_elim (Finset.mem_univ (c, CK.recv ⟨k, hk⟩))
  iintro ⟨H, -⟩
  iapply h
  iexact H

/-- A departure or arrival cell standing, nothing taken, at a round from which on it has no duty closes: its counter reads zero. -/
theorem ch_close_send (c : Dev nD) (k : ℕ) (hk : k < 32) (R : ℕ) (hR : ∀ r, R ≤ r → (Rd (F := F) m ρ).duties (sendCell c k) r = ∅) :
    iprop(records m ρ K ∗ atPos ER (sendCell c k) R ∅ 0) ⊢ (|={Set.univ}=> semVal (sendCell c k) 0 : sProp 𝕄) := by
  iintro ⟨#Hrec, Hat⟩
  iapply (Rounds.cell_close ER (Rd m ρ) (Set.mem_univ (K (c, .send ⟨k, hk⟩))) (fun h => h) (R := R) hR)
  isplitr
  · iapply (ch_inv_send m ρ K c k hk); iexact Hrec
  · iexact Hat
theorem ch_close_recv (c : Dev nD) (k : ℕ) (hk : k < 32) (R : ℕ) (hR : ∀ r, R ≤ r → (Rd (F := F) m ρ).duties (recvCell c k) r = ∅) :
    iprop(records m ρ K ∗ atPos ER (recvCell c k) R ∅ 0) ⊢ (|={Set.univ}=> semVal (recvCell c k) 0 : sProp 𝕄) := by
  iintro ⟨#Hrec, Hat⟩
  iapply (Rounds.cell_close ER (Rd m ρ) (Set.mem_univ (K (c, .recv ⟨k, hk⟩))) (fun h => h) (R := R) hR)
  isplitr
  · iapply (ch_inv_recv m ρ K c k hk); iexact Hrec
  · iexact Hat

/-- The departure and arrival cells of copies `i … i + n - 1`, each past its one round, close: their counters read zero. -/
theorem close_cells (c : Dev nD) : ∀ n i : ℕ, 1 ≤ i → i + n ≤ 32 →
    iprop(records m ρ K ∗ fromTo (fun k => iprop(atPos ER (sendCell c k) 1 ∅ 0 ∗ atPos ER (recvCell c k) 1 ∅ 0)) i n)
      ⊢ (|={Set.univ}=> fromTo (fun k => iprop(semVal (sendCell c k) 0 ∗ semVal (recvCell c k) 0)) i n : sProp 𝕄)
  | 0, i, _, _ => by
    rw [fromTo_zero, fromTo_zero]
    iintro -
    imodintro
    iempintro
  | n + 1, i, hi, hn => by
    rw [fromTo_succ, fromTo_succ]
    iintro ⟨#Hrec, ⟨HatS, HatR⟩, Hrest⟩
    imod (ch_close_send m ρ K c i (by omega) 1 (duties_later m ρ (sendCell c i))) $$ [HatS] with HzS
    · isplitr; · iexact Hrec
      iexact HatS
    imod (ch_close_recv m ρ K c i (by omega) 1 (duties_later m ρ (recvCell c i))) $$ [HatR] with HzR
    · isplitr; · iexact Hrec
      iexact HatR
    imod (close_cells c n (i + 1) (by omega) (by omega)) $$ [Hrest] with Hz
    · isplitr; · iexact Hrec
      iexact Hrest
    imodintro
    isplitl [HzS HzR]
    · isplitl [HzS]; · iexact HzS
      iexact HzR
    iexact Hz

/-- The two cells of index 0, which nothing ever pays or waits on, close from where they started. -/
theorem close_cells0 (c : Dev nD) :
    iprop(records m ρ K ∗ atPos ER (sendCell c 0) 0 ∅ 0 ∗ atPos ER (recvCell c 0) 0 ∅ 0)
      ⊢ (|={Set.univ}=> iprop(semVal (sendCell c 0) 0 ∗ semVal (recvCell c 0) 0) : sProp 𝕄) := by
  have hS : ∀ r, 0 ≤ r → (Rd (F := F) m ρ).duties (sendCell c 0) r = ∅ := fun r _ => by
    rcases Nat.eq_zero_or_pos r with rfl | h
    · exact duties_send0 m ρ c
    · exact duties_later m ρ (sendCell c 0) r h
  have hR : ∀ r, 0 ≤ r → (Rd (F := F) m ρ).duties (recvCell c 0) r = ∅ := fun r _ => by
    rcases Nat.eq_zero_or_pos r with rfl | h
    · exact duties_recv0 m ρ c
    · exact duties_later m ρ (recvCell c 0) r h
  iintro ⟨#Hrec, HatS, HatR⟩
  imod (ch_close_send m ρ K c 0 (by decide) 0 hS) $$ [HatS] with HzS
  · isplitr; · iexact Hrec
    iexact HatS
  imod (ch_close_recv m ρ K c 0 (by decide) 0 hR) $$ [HatR] with HzR
  · isplitr; · iexact Hrec
    iexact HatR
  imodintro
  isplitl [HzS]; · iexact HzS
  iexact HzR

/-- info: 'Cert.KernelProof.close_cells' depends on axioms: [propext, Classical.choice, Quot.sound] -/
#guard_msgs in #print axioms close_cells
/-- info: 'Cert.KernelProof.close_cells0' depends on axioms: [propext, Classical.choice, Quot.sound] -/
#guard_msgs in #print axioms close_cells0
/-- info: 'Cert.KernelProof.shares_back' depends on axioms: [propext, Classical.choice, Quot.sound] -/
#guard_msgs in #print axioms shares_back
/-- info: 'Cert.KernelProof.fromTo_sep3' depends on axioms: [propext, Classical.choice, Quot.sound] -/
#guard_msgs in #print axioms fromTo_sep3

end Cert.KernelProof

end
-- ==== Proof.KBody.lean ====
/-
  One device's body, stepped from the protocol's start state to its end state: 31 signals, the device's own
  column sums into row 0, the barrier wait, 31 copies, their 62 waits, the cells closed, the 32 rows summed.
-/
import proofs.«901070_g7700000000001071_dist_sum_ax0_shard0_i_m1024_n512_v7x_i32_bf16_1_alg».proof.Proof.KSteps
import proofs.«901070_g7700000000001071_dist_sum_ax0_shard0_i_m1024_n512_v7x_i32_bf16_1_alg».proof.Proof.KChains

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

/-! ## Rearrangements between the phases -/

omit [FloatOps F] in
theorem glue1 {A B E1 E2 X Y R : sProp 𝕄} : iprop(A ∗ B ∗ E1 ∗ E2 ∗ (X ∗ Y ∗ R)) ⊢ iprop(X ∗ Y ∗ (A ∗ B ∗ R)) := by
  iintro ⟨HA, HB, -, -, HX, HY, HR⟩
  isplitl [HX]; · iexact HX
  isplitl [HY]; · iexact HY
  isplitl [HA]; · iexact HA
  isplitl [HB]; · iexact HB
  iexact HR

omit [FloatOps F] in
theorem glue2 {X Y P1 P2 L' C A R3 : sProp 𝕄} : iprop(X ∗ Y ∗ (P1 ∗ P2 ∗ (L' ∗ C ∗ A ∗ R3))) ⊢ iprop(P1 ∗ P2 ∗ L' ∗ C ∗ A ∗ (X ∗ Y ∗ R3)) := by
  iintro ⟨HX, HY, H1, H2, HL, HC, HA, HR⟩
  isplitl [H1]; · iexact H1
  isplitl [H2]; · iexact H2
  isplitl [HL]; · iexact HL
  isplitl [HC]; · iexact HC
  isplitl [HA]; · iexact HA
  isplitl [HX]; · iexact HX
  isplitl [HY]; · iexact HY
  iexact HR

omit [FloatOps F] in
theorem glue3 {P1 P2 PR X Y CP R4 : sProp 𝕄} : iprop(P1 ∗ P2 ∗ PR ∗ (X ∗ Y ∗ (CP ∗ R4))) ⊢ iprop(P1 ∗ P2 ∗ CP ∗ PR ∗ Y ∗ emp ∗ (X ∗ R4)) := by
  iintro ⟨H1, H2, HP, HX, HY, HC, HR⟩
  isplitl [H1]; · iexact H1
  isplitl [H2]; · iexact H2
  isplitl [HC]; · iexact HC
  isplitl [HP]; · iexact HP
  isplitl [HY]; · iexact HY
  isplitr; · iempintro
  isplitl [HX]; · iexact HX
  iexact HR

/-- After the 31 copies: the departure credits, collected one by one, are the chain the waits consume. -/
theorem glue4 (c : Dev nD) {P1 P2 E1 E2 Y X WR R5 : sProp 𝕄} :
    iprop(P1 ∗ P2 ∗ E1 ∗ E2 ∗ Y ∗ accL (credS (F := F) c) 31 ∗ (X ∗ (WR ∗ R5)))
      ⊢ iprop(P1 ∗ P2 ∗ fromTo (credS (F := F) c) 1 31 ∗ WR ∗ emp ∗ (Y ∗ X ∗ R5)) := by
  iintro ⟨H1, H2, -, -, HY, HA, HX, HW, HR⟩
  isplitl [H1]; · iexact H1
  isplitl [H2]; · iexact H2
  isplitl [HA]
  · iapply (accL_fromTo (credS (F := F) c) 31 0)
    isplitl [HA]; · iexact HA
    rw [fromTo_zero]; iempintro
  isplitl [HW]; · iexact HW
  isplitr; · iempintro
  isplitl [HY]; · iexact HY
  isplitl [HX]; · iexact HX
  iexact HR

omit [FloatOps F] in
/-- Two chains side by side, the first of pairs, are one chain of triples. -/
theorem fromTo_zip3 (A B C : ℕ → sProp 𝕄) : ∀ n i : ℕ,
    iprop(fromTo (fun k => iprop(A k ∗ B k)) i n ∗ fromTo C i n) ⊢ fromTo (fun k => iprop(A k ∗ B k ∗ C k)) i n
  | 0, i => by rw [fromTo_zero, fromTo_zero, fromTo_zero]; iintro -; iempintro
  | n + 1, i => by
    rw [fromTo_succ, fromTo_succ, fromTo_succ]
    iintro ⟨⟨⟨HA, HB⟩, H1⟩, HC, H2⟩
    isplitl [HA HB HC]
    · isplitl [HA]; · iexact HA
      isplitl [HB]; · iexact HB
      iexact HC
    iapply (fromTo_zip3 A B C n (i + 1))
    isplitl [H1]; · iexact H1
    iexact H2

omit [FloatOps F] in
theorem fromTo_cons (Φ : ℕ → sProp 𝕄) (i n : ℕ) : iprop(Φ i ∗ fromTo Φ (i + 1) n) ⊢ fromTo Φ i (n + 1) :=
  Entails.of_eq (fromTo_succ Φ i n).symm

/-! ## The end: the cells closed, row 0 whole again, the rows joined, the 32 rows summed -/

abbrev outPts (c : Dev nD) (g : (cc0_stg1_0 : Ref sig .tc).ty.Contents (Elt F)) : sProp 𝕄 := (((c : Thread nD τ).loc cc0_stg1_0) ↦{fullShare} g : sProp 𝕄)

theorem step_final (c : Dev nD) {hl hl' hx hm} (W : Waits sig Unit) (E1 E2 : sProp 𝕄) (g1 : (cc0_stg1_0 : Ref sig .tc).ty.Contents (Elt F)) (Kt : PUnit → sProp 𝕄)
    (hpost : iprop(Φ₁ m ρ c ∗ owes (c : Thread nD τ) 0 W ∗ xPts m ρ c ∗ outPts c (outAt m ρ c)) ⊢ Kt ⟨⟩) :
    iprop(records m ρ K ∗ owes (c : Thread nD τ) 0 W ∗ E1 ∗ E2 ∗ accL (doneRes m ρ c) 31
        ∗ (rowPts c 0 (rem 31) (gath m ρ c) ∗ xPts m ρ c ∗ (atPos ER (sendCell c 0) 0 ∅ 0 ∗ atPos ER (recvCell c 0) 0 ∅ 0 ∗ outPts c g1)))
      ⊢ wp frame (wpE (defs₀ (F := F)) 𝒱₀ (c : Thread nD τ) none) Set.univ
          (.op (.load gM rAll.toLoadRect hl) fun v940 =>
            .op (.load oM ro.toLoadRect hl') fun _ =>
              .op (.store oM ro (k0_pay1 v940) Finset.univ hx hm) fun _ => .ret ⟨⟩) Kt := by
  iintro ⟨#Hrec, HO, -, -, Hacc, Hrow0, Hx, Hat0s, Hat0r, Hout⟩
  ihave Hd := (accL_fromTo (doneRes m ρ c) 31 0) $$ [Hacc]
  · isplitl [Hacc]; · iexact Hacc
    rw [fromTo_zero]; iempintro
  unfold doneRes
  ihave H3 := (fromTo_sep3 (fun k => rowPts c 0 (sh k) (gath m ρ c)) (fun k => rowPts c k fullShare (gath m ρ c))
      (fun k => iprop(atPos ER (sendCell c k) 1 ∅ 0 ∗ atPos ER (recvCell c k) 1 ∅ 0)) 31 1) $$ Hd
  icases H3 with ⟨Hsh, Hrows, Hats⟩
  ihave Hr0 := (shares_back c (gath m ρ c) 31 0) $$ [Hsh Hrow0]
  · isplitl [Hsh]; · iexact Hsh
    iexact Hrow0
  imod (close_cells m ρ K c 31 1 (by decide) (by decide)) $$ [Hats] with Hz
  · isplitr; · iexact Hrec
    iexact Hats
  imod (close_cells0 m ρ K c) $$ [Hat0s Hat0r] with Hz0
  · isplitr; · iexact Hrec
    isplitl [Hat0s]; · iexact Hat0s
    iexact Hat0r
  ihave Hg := (rows_gPts c (gath m ρ c)) $$ [Hr0 Hrows]
  · iapply (fromTo_cons (fun k => rowPts c k fullShare (gath m ρ c)) 0 31)
    isplitl [Hr0]; · iexact Hr0
    iexact Hrows
  unfold gPts
  iapply (wp_load 𝒱₀ (c : Thread nD τ) none Set.univ (m := gM) (loadAll_sub)) $$ Hg; iintro Hg
  rw [readAll]
  iapply (wp_load 𝒱₀ (c : Thread nD τ) none Set.univ (m := oM) (Finset.subset_univ _)) $$ Hout; iintro Hout
  iapply (wp_store 𝒱₀ (c : Thread nD τ) none Set.univ (m := oM) (r := ro) (Mk := Finset.univ) (Finset.subset_univ _)) $$ Hout; iintro Hout
  rw [write_out, wp_ret]; imodintro
  iapply hpost
  isplitl [Hg Hz Hz0]
  · unfold Φ₁ gPts
    isplitl [Hg]; · iexact Hg
    iapply (fromTo_cons (fun k => iprop(semVal (sendCell c k) 0 ∗ semVal (recvCell c k) 0)) 0 31)
    isplitl [Hz0]; · iexact Hz0
    iexact Hz
  isplitl [HO]; · iexact HO
  isplitl [Hx]; · iexact Hx
  iexact Hout

/-! ## The whole body -/

set_option maxRecDepth 65536 in
set_option maxHeartbeats 1600000 in
/-- The printed body, one effect after the other, from the start state laid out in the order the phases use it. -/
theorem body_chain (c : Dev nD) (W : Waits sig Unit) (f0 : Buf (Elt F) ((gM : Memref sig .tc .vmem S32x1x512 .f32).view.loc (c : Thread nD τ)))
    (g1 : (cc0_stg1_0 : Ref sig .tc).ty.Contents (Elt F)) (Kt : PUnit → sProp 𝕄)
    (hpost : ∀ W' : Waits sig Unit, iprop(Φ₁ m ρ c ∗ owes (c : Thread nD τ) 0 W' ∗ xPts m ρ c ∗ outPts c (outAt m ρ c)) ⊢ Kt ⟨⟩) :
    iprop(records m ρ K ∗ owes (c : Thread nD τ) (remG c 31) W ∗ fromTo (sigTok (F := F) c) 1 31 ∗ fromTo (sigRow (F := F) c) 1 31
        ∗ (xPts m ρ c ∗ rowPts c 0 fullShare f0
          ∗ (levAts L lv ∗ cred (tallyAt (barCell c) () 31) ∗ atPos ER (barCell c) 0 ∅ 0
            ∗ (fromTo (cpyRes (F := F) c) 1 31
              ∗ (fromTo (waitRes (F := F) c) 1 31
                ∗ (atPos ER (sendCell c 0) 0 ∅ 0 ∗ atPos ER (recvCell c 0) 0 ∅ 0 ∗ outPts c g1))))))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]
  unfold cc0_body_skel
  simp only [k0_part37_eq_skeleton]
  unfold k0_part37_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel
  simp only [semSignalWord, semWaitWord, Prog.lift, Prog.bind_op, Prog.bind_ret, Prog.pure_eq_ret, wp_deviceId]
  simp only [k0_dev1_eq, k0_dev2_eq, k0_dev3_eq, k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq, k0_dev31_eq]
  refine step_signal m ρ K c 1 30 rfl (by decide) _ _ ?_
  refine step_signal m ρ K c 2 29 rfl (by decide) _ _ ?_
  refine step_signal m ρ K c 3 28 rfl (by decide) _ _ ?_
  refine step_signal m ρ K c 4 27 rfl (by decide) _ _ ?_
  refine step_signal m ρ K c 5 26 rfl (by decide) _ _ ?_
  refine step_signal m ρ K c 6 25 rfl (by decide) _ _ ?_
  refine step_signal m ρ K c 7 24 rfl (by decide) _ _ ?_
  refine step_signal m ρ K c 8 23 rfl (by decide) _ _ ?_
  refine step_signal m ρ K c 9 22 rfl (by decide) _ _ ?_
  refine step_signal m ρ K c 10 21 rfl (by decide) _ _ ?_
  refine step_signal m ρ K c 11 20 rfl (by decide) _ _ ?_
  refine step_signal m ρ K c 12 19 rfl (by decide) _ _ ?_
  refine step_signal m ρ K c 13 18 rfl (by decide) _ _ ?_
  refine step_signal m ρ K c 14 17 rfl (by decide) _ _ ?_
  refine step_signal m ρ K c 15 16 rfl (by decide) _ _ ?_
  refine step_signal m ρ K c 16 15 rfl (by decide) _ _ ?_
  refine step_signal m ρ K c 17 14 rfl (by decide) _ _ ?_
  refine step_signal m ρ K c 18 13 rfl (by decide) _ _ ?_
  refine step_signal m ρ K c 19 12 rfl (by decide) _ _ ?_
  refine step_signal m ρ K c 20 11 rfl (by decide) _ _ ?_
  refine step_signal m ρ K c 21 10 rfl (by decide) _ _ ?_
  refine step_signal m ρ K c 22 9 rfl (by decide) _ _ ?_
  refine step_signal m ρ K c 23 8 rfl (by decide) _ _ ?_
  refine step_signal m ρ K c 24 7 rfl (by decide) _ _ ?_
  refine step_signal m ρ K c 25 6 rfl (by decide) _ _ ?_
  refine step_signal m ρ K c 26 5 rfl (by decide) _ _ ?_
  refine step_signal m ρ K c 27 4 rfl (by decide) _ _ ?_
  refine step_signal m ρ K c 28 3 rfl (by decide) _ _ ?_
  refine step_signal m ρ K c 29 2 rfl (by decide) _ _ ?_
  refine step_signal m ρ K c 30 1 rfl (by decide) _ _ ?_
  refine step_signal m ρ K c 31 0 rfl (by decide) _ _ ?_
  refine BI.Entails.trans glue1 ?_
  refine step_local m ρ c f0 _ ?_
  refine BI.Entails.trans glue2 ?_
  refine step_barwait m ρ K c _ _ ?_
  refine BI.Entails.trans glue3 ?_
  refine step_send m ρ K c 0 30 rfl _ (Fin.ext (k0_dev32_eq c)) _ _ ?_
  refine step_send m ρ K c 1 29 rfl _ (Fin.ext (k0_dev33_eq c)) _ _ ?_
  refine step_send m ρ K c 2 28 rfl _ (Fin.ext (k0_dev34_eq c)) _ _ ?_
  refine step_send m ρ K c 3 27 rfl _ (Fin.ext (k0_dev35_eq c)) _ _ ?_
  refine step_send m ρ K c 4 26 rfl _ (Fin.ext (k0_dev36_eq c)) _ _ ?_
  refine step_send m ρ K c 5 25 rfl _ (Fin.ext (k0_dev37_eq c)) _ _ ?_
  refine step_send m ρ K c 6 24 rfl _ (Fin.ext (k0_dev38_eq c)) _ _ ?_
  refine step_send m ρ K c 7 23 rfl _ (Fin.ext (k0_dev39_eq c)) _ _ ?_
  refine step_send m ρ K c 8 22 rfl _ (Fin.ext (k0_dev40_eq c)) _ _ ?_
  refine step_send m ρ K c 9 21 rfl _ (Fin.ext (k0_dev41_eq c)) _ _ ?_
  refine step_send m ρ K c 10 20 rfl _ (Fin.ext (k0_dev42_eq c)) _ _ ?_
  refine step_send m ρ K c 11 19 rfl _ (Fin.ext (k0_dev43_eq c)) _ _ ?_
  refine step_send m ρ K c 12 18 rfl _ (Fin.ext (k0_dev44_eq c)) _ _ ?_
  refine step_send m ρ K c 13 17 rfl _ (Fin.ext (k0_dev45_eq c)) _ _ ?_
  refine step_send m ρ K c 14 16 rfl _ (Fin.ext (k0_dev46_eq c)) _ _ ?_
  refine step_send m ρ K c 15 15 rfl _ (Fin.ext (k0_dev47_eq c)) _ _ ?_
  refine step_send m ρ K c 16 14 rfl _ (Fin.ext (k0_dev48_eq c)) _ _ ?_
  refine step_send m ρ K c 17 13 rfl _ (Fin.ext (k0_dev49_eq c)) _ _ ?_
  refine step_send m ρ K c 18 12 rfl _ (Fin.ext (k0_dev50_eq c)) _ _ ?_
  refine step_send m ρ K c 19 11 rfl _ (Fin.ext (k0_dev51_eq c)) _ _ ?_
  refine step_send m ρ K c 20 10 rfl _ (Fin.ext (k0_dev52_eq c)) _ _ ?_
  refine step_send m ρ K c 21 9 rfl _ (Fin.ext (k0_dev53_eq c)) _ _ ?_
  refine step_send m ρ K c 22 8 rfl _ (Fin.ext (k0_dev54_eq c)) _ _ ?_
  refine step_send m ρ K c 23 7 rfl _ (Fin.ext (k0_dev55_eq c)) _ _ ?_
  refine step_send m ρ K c 24 6 rfl _ (Fin.ext (k0_dev56_eq c)) _ _ ?_
  refine step_send m ρ K c 25 5 rfl _ (Fin.ext (k0_dev57_eq c)) _ _ ?_
  refine step_send m ρ K c 26 4 rfl _ (Fin.ext (k0_dev58_eq c)) _ _ ?_
  refine step_send m ρ K c 27 3 rfl _ (Fin.ext (k0_dev59_eq c)) _ _ ?_
  refine step_send m ρ K c 28 2 rfl _ (Fin.ext (k0_dev60_eq c)) _ _ ?_
  refine step_send m ρ K c 29 1 rfl _ (Fin.ext (k0_dev61_eq c)) _ _ ?_
  refine step_send m ρ K c 30 0 rfl _ (Fin.ext (k0_dev62_eq c)) _ _ ?_
  refine BI.Entails.trans (glue4 c) ?_
  refine step_waits m ρ K c 0 30 rfl _ _ (fun _ => ?_)
  refine step_waits m ρ K c 1 29 rfl _ _ (fun _ => ?_)
  refine step_waits m ρ K c 2 28 rfl _ _ (fun _ => ?_)
  refine step_waits m ρ K c 3 27 rfl _ _ (fun _ => ?_)
  refine step_waits m ρ K c 4 26 rfl _ _ (fun _ => ?_)
  refine step_waits m ρ K c 5 25 rfl _ _ (fun _ => ?_)
  refine step_waits m ρ K c 6 24 rfl _ _ (fun _ => ?_)
  refine step_waits m ρ K c 7 23 rfl _ _ (fun _ => ?_)
  refine step_waits m ρ K c 8 22 rfl _ _ (fun _ => ?_)
  refine step_waits m ρ K c 9 21 rfl _ _ (fun _ => ?_)
  refine step_waits m ρ K c 10 20 rfl _ _ (fun _ => ?_)
  refine step_waits m ρ K c 11 19 rfl _ _ (fun _ => ?_)
  refine step_waits m ρ K c 12 18 rfl _ _ (fun _ => ?_)
  refine step_waits m ρ K c 13 17 rfl _ _ (fun _ => ?_)
  refine step_waits m ρ K c 14 16 rfl _ _ (fun _ => ?_)
  refine step_waits m ρ K c 15 15 rfl _ _ (fun _ => ?_)
  refine step_waits m ρ K c 16 14 rfl _ _ (fun _ => ?_)
  refine step_waits m ρ K c 17 13 rfl _ _ (fun _ => ?_)
  refine step_waits m ρ K c 18 12 rfl _ _ (fun _ => ?_)
  refine step_waits m ρ K c 19 11 rfl _ _ (fun _ => ?_)
  refine step_waits m ρ K c 20 10 rfl _ _ (fun _ => ?_)
  refine step_waits m ρ K c 21 9 rfl _ _ (fun _ => ?_)
  refine step_waits m ρ K c 22 8 rfl _ _ (fun _ => ?_)
  refine step_waits m ρ K c 23 7 rfl _ _ (fun _ => ?_)
  refine step_waits m ρ K c 24 6 rfl _ _ (fun _ => ?_)
  refine step_waits m ρ K c 25 5 rfl _ _ (fun _ => ?_)
  refine step_waits m ρ K c 26 4 rfl _ _ (fun _ => ?_)
  refine step_waits m ρ K c 27 3 rfl _ _ (fun _ => ?_)
  refine step_waits m ρ K c 28 2 rfl _ _ (fun _ => ?_)
  refine step_waits m ρ K c 29 1 rfl _ _ (fun _ => ?_)
  refine step_waits m ρ K c 30 0 rfl _ _ (fun _ => ?_)
  exact step_final m ρ K c _ _ _ g1 Kt (hpost _)

/-! ## The library's body obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- After the body: the protocol's end state, nothing owed, the block of `x` as it was, the result block holding the sum. -/
def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

theorem post_intro (c : Dev nD) (W' : Waits sig Unit) :
    iprop(Φ₁ m ρ c ∗ owes (c : Thread nD τ) 0 W' ∗ xPts m ρ c ∗ outPts c (outAt m ρ c)) ⊢ bodyPost m ρ c := by
  unfold bodyPost Dat.owesAt Pipeline.owesWithin
  rw [show (dats m ρ 0 c).owed t₀.succ = 0 from rfl]
  iintro ⟨HΦ, HO, Hx, Hout⟩
  isplitl [HΦ]; · iexact HΦ
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 65536 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start ghost linear
  iintro ⟨⟨⟨⟨%K, #Hrec, HatB, Hat0s, Hat0r, Hsig, Hcpy, Hats⟩, HcB, HcR, #Hlev⟩, ⟨%f0, Hg⟩⟩, Ho, ⟨%d0, %g0, %hg0, Hx⟩, ⟨%d1, %g1, %hg1, Hout⟩⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = remG c 31 from rfl]
  ihave Hrows := (gPts_rows_rev c f0) $$ Hg
  icases Hrows with ⟨Hrow0, Hrows⟩
  ihave Hw := (fromTo_zip3 (fun k => atPos ER (sendCell c k) 0 ∅ 0) (fun k => atPos ER (recvCell c k) 0 ∅ 0)
      (fun k => cred (tallyAt (recvCell c k) () N)) 31 1) $$ [Hats HcR]
  · isplitl [Hats]; · iexact Hats
    iexact HcR
  iapply (body_chain m ρ K c W f0 g1 (fun _ => bodyPost m ρ c) (fun W' => post_intro m ρ c W'))
  isplitr; · iexact Hrec
  isplitl [HO]; · iexact HO
  isplitl [Hsig]; · iexact Hsig
  isplitl [Hrows]; · iexact Hrows
  isplitl [Hx]; · iexact Hx
  isplitl [Hrow0]; · iexact Hrow0
  isplitr; · iexact Hlev
  isplitl [HcB]; · iexact HcB
  isplitl [HatB]; · iexact HatB
  isplitl [Hcpy]; · iexact Hcpy
  isplitl [Hw]; · iexact Hw
  isplitl [Hat0s]; · iexact Hat0s
  isplitl [Hat0r]; · iexact Hat0r
  iexact Hout

end Cert.KernelProof

end
-- ==== Proof.KCredit.lean ====
/-
  The credit a device is dealt when the kernels start: one barrier unit from each of the 31 other devices, and a
  row's credit on each of its 31 arrival cells, from the device that copies into that row.
-/
import proofs.«901070_g7700000000001071_dist_sum_ax0_shard0_i_m1024_n512_v7x_i32_bf16_1_alg».proof.Proof.KTables

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- Copy `k` of every device, seen from the arrival cell it lands on: the devices `d` and `dv d k` correspond one to one,
    so device `c` is dealt exactly one row's credit on its arrival cell `k`. -/
theorem cred_recv_one (c : Dev nD) (k : ℕ) (hk : k ≤ 32) :
    (Pipeline.launchCred (fun d => tallyAt (recvCell (dv d k) k) () N) c : sProp 𝕄) ⊢ cred (tallyAt (recvCell c k) () N) :=
  Pipeline.launchCred_tallyAt (.dma (recvS k).sem) (fun d => dv d k) (fun c => dv c (32 - k))
    (fun c => dv_back' c k hk) (fun d => dv_back d k hk) () N c

omit [FloatOps F] in
/-- The same for signal `k`: one unit on device `c`'s barrier cell. -/
theorem cred_bar_one (c : Dev nD) (k : ℕ) (hk : k ≤ 32) :
    (Pipeline.launchCred (fun d => tallyAt (barCell (dv d k)) () 1) c : sProp 𝕄) ⊢ cred (tallyAt (barCell c) () 1) :=
  Pipeline.launchCred_tallyAt (.reg barS) (fun d => dv d k) (fun c => dv c (32 - k))
    (fun c => dv_back' c k hk) (fun d => dv_back d k hk) () 1 c

omit [FloatOps F] in
/-- The last `n` copies of all devices deal device `c` a row's credit on each of its last `n` arrival cells. -/
theorem cred_recvs (c : Dev nD) : ∀ n, n ≤ 31 →
    (Pipeline.launchCred (fun d => remS d n) c : sProp 𝕄) ⊢ fromTo (fun k => cred (tallyAt (recvCell c k) () N)) (32 - n) n
  | 0, _ => by
    rw [show (fun d : Dev nD => remS d 0) = fun _ => (0 : CellTallies nD τ sig Unit) from rfl, Pipeline.launchCred_zero]
    exact .rfl
  | n + 1, hn => by
    rw [show (fun d : Dev nD => remS d (n + 1)) = fun d => remS d n + tallyAt (recvCell (dv d (31 - n)) (31 - n)) () N from rfl,
      Pipeline.launchCred_add, show 32 - (n + 1) = 31 - n from by omega, fromTo_succ, show 31 - n + 1 = 32 - n from by omega]
    iintro ⟨H1, H2⟩
    isplitl [H2]
    · iapply (cred_recv_one c (31 - n) (by omega)); iexact H2
    · iapply (cred_recvs c n (by omega)); iexact H1

omit [FloatOps F] in
/-- With the last `n` signals of all devices as well: `n` units on device `c`'s barrier cell. -/
theorem cred_all (c : Dev nD) : ∀ n, n ≤ 31 →
    (Pipeline.launchCred (fun d => remG d n) c : sProp 𝕄)
      ⊢ iprop(cred (tallyAt (barCell c) () n) ∗ fromTo (fun k => cred (tallyAt (recvCell c k) () N)) 1 31)
  | 0, _ => by
    rw [tallyAt_zero, cred_zero]
    iintro H
    isplitr
    · iempintro
    · iapply (cred_recvs c 31 (le_refl _)); iexact H
  | n + 1, hn => by
    rw [show (fun d : Dev nD => remG d (n + 1)) = fun d => remG d n + tallyAt (barCell (dv d (31 - n))) () 1 from rfl,
      Pipeline.launchCred_add, ← tallyAt_add]
    iintro ⟨H1, H2⟩
    ihave H3 := (cred_all c n (by omega)) $$ H1
    icases H3 with ⟨Hb, Hr⟩
    isplitr [Hr]
    · iapply (cred_add _ _).2
      isplitl [Hb]
      · iexact Hb
      · iapply (cred_bar_one c (31 - n) (by omega)); iexact H2
    · iexact Hr

omit [FloatOps F] in
/-- What all devices together owe device `c`'s cells at launch is what `c`'s waits consume. -/
theorem creds (c : Dev nD) :
    (Pipeline.launchCred O₀ c : sProp 𝕄) ⊢ iprop(cred (tallyAt (barCell c) () 31) ∗ fromTo (fun k => cred (tallyAt (recvCell c k) () N)) 1 31) :=
  cred_all c 31 (le_refl _)

/-- info: 'Cert.KernelProof.creds' depends on axioms: [propext, Classical.choice, Quot.sound] -/
#guard_msgs in #print axioms creds

end Cert.KernelProof

end
-- ==== Proof.KLaunch.lean ====
/-
  The launch: the ghost state of all 32 devices' cells dealt from one element, what each device owes and is
  credited, the pipeline's side conditions, and the run of the whole program with every array named.
-/
import proofs.«901070_g7700000000001071_dist_sum_ax0_shard0_i_m1024_n512_v7x_i32_bf16_1_alg».proof.Proof.KBody
import proofs.«901070_g7700000000001071_dist_sum_ax0_shard0_i_m1024_n512_v7x_i32_bf16_1_alg».proof.Proof.KCredit
import proofs.«901070_g7700000000001071_dist_sum_ax0_shard0_i_m1024_n512_v7x_i32_bf16_1_alg».proof.Proof.Gen.Kernel.Points
import proofs.«901070_g7700000000001071_dist_sum_ax0_shard0_i_m1024_n512_v7x_i32_bf16_1_alg».proof.Proof.Gen.Kernel.Frame

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Chains and products over finite index types -/

/-- A chain of `n` factors from `i` is the product over `Fin n`. -/
theorem fromTo_fin (Φ : ℕ → sProp 𝕄) : ∀ n i, fromTo Φ i n = bigSep (Finset.univ : Finset (Fin n)) (fun j => Φ (i + j.val))
  | 0, i => rfl
  | n + 1, i => by
    rw [fromTo_succ, fromTo_fin Φ n (i + 1), Fin.univ_succ, Finset.cons_eq_insert, bigSep_insert (by simp), bigSep_map]
    refine congrArg₂ _ rfl (bigSep_congr fun j _ => ?_)
    show Φ (i + 1 + j.val) = Φ (i + (j.val + 1))
    rw [Nat.add_assoc, Nat.add_comm 1]

theorem fromTo_one (Φ : ℕ → sProp 𝕄) (n : ℕ) : fromTo Φ 1 n = bigSep Finset.univ fun j : Fin n => Φ (j.val + 1) := by
  rw [fromTo_fin]; exact bigSep_congr fun j _ => by rw [Nat.add_comm]

theorem fromTo_zero' (Φ : ℕ → sProp 𝕄) (n : ℕ) : fromTo Φ 0 n = bigSep Finset.univ fun j : Fin n => Φ j.val := by
  rw [fromTo_fin]; exact bigSep_congr fun j _ => by rw [Nat.zero_add]

/-- The 32 offsets: offset 0, then the 31 others. -/
theorem bigSep_fin32 (Φ : Fin 32 → sProp 𝕄) : bigSep Finset.univ Φ = iprop(Φ 0 ∗ bigSep Finset.univ fun j : Fin 31 => Φ j.succ) := by
  rw [Fin.univ_succ, Finset.cons_eq_insert, bigSep_insert (by simp), bigSep_map]; rfl

theorem bigSep_fin3' (Φ : Fin 3 → sProp 𝕄) : bigSep Finset.univ Φ = iprop(Φ 0 ∗ Φ 1 ∗ Φ 2) :=
  bigSep_univ_eq_bigSepL [0, 1, 2] (by decide) (by decide) Φ

theorem bigSep_bool (Φ : Bool → sProp 𝕄) : bigSep Finset.univ Φ = iprop(Φ false ∗ Φ true) :=
  bigSep_univ_eq_bigSepL [false, true] (by decide) (by decide) Φ

/-- A device's cells, listed: the barrier's, the 32 departure cells, the 32 arrival cells. -/
def ckEquiv : Unit ⊕ (Fin 32 ⊕ Fin 32) ≃ CK where
  toFun | .inl _ => .bar | .inr (.inl k) => .send k | .inr (.inr k) => .recv k
  invFun | .bar => .inl () | .send k => .inr (.inl k) | .recv k => .inr (.inr k)
  left_inv x := by rcases x with _ | _ | _ <;> rfl
  right_inv x := by cases x <;> rfl

theorem bigSep_CK (Φ : CK → sProp 𝕄) :
    bigSep Finset.univ Φ = iprop(Φ .bar ∗ (bigSep Finset.univ fun k : Fin 32 => Φ (.send k)) ∗ bigSep Finset.univ fun k : Fin 32 => Φ (.recv k)) := by
  rw [bigSep_univ_equiv ckEquiv Φ, bigSep_univ_sum, bigSep_univ_sum, bigSep_univ_of_subsingleton ()]
  rfl

/-! ## The kernel's own semaphores, the cells, the tokens -/

/-- The kernel's own (scoped) semaphores: the 32 departure and the 32 arrival semaphores. -/
abbrev osem : Fin 32 × Bool → SemLoc sig := fun
  | (k, false) => .dma (sendS k.val).sem
  | (k, true) => .dma (recvS k.val).sem

theorem dma_scoped : ∀ q : DmaSem sig, 2 ≤ q.val → (SemLoc.dma q : SemLoc sig).isScoped .tc = true := by decide
theorem stage_sem_le : ∀ (w : Fin cfg0.W) (s : Fin (cfg0.spec w).nbuf), ((cfg0.spec w).sem s).val ≤ 1 := by decide

theorem csem_dma_val (k : Fin 32) : ((sendS k.val).sem : DmaSem sig).val = 2 + k.val ∧ ((recvS k.val).sem : DmaSem sig).val = 34 + k.val := by
  rw [sendS_val, recvS_val, Nat.mod_eq_of_lt k.isLt]; exact ⟨rfl, rfl⟩

theorem ownSemFacts : Pipeline.OwnSemFacts cfg0.spec osem where
  isScoped := by
    rintro ⟨k, _ | _⟩
    · exact dma_scoped _ (by rw [(csem_dma_val k).1]; omega)
    · exact dma_scoped _ (by rw [(csem_dma_val k).2]; omega)
  inj := by
    rintro ⟨k, b⟩ ⟨k', b'⟩ h
    have hk := k.isLt; have hk' := k'.isLt
    rcases b with _ | _ <;> rcases b' with _ | _
    · have h1 : ((sendS k.val).sem : DmaSem sig).val = ((sendS k'.val).sem : DmaSem sig).val := congrArg Fin.val (SemLoc.dma.inj h)
      rw [(csem_dma_val k).1, (csem_dma_val k').1] at h1
      exact Prod.ext (Fin.ext (show k.val = k'.val by omega)) rfl
    · have h1 : ((sendS k.val).sem : DmaSem sig).val = ((recvS k'.val).sem : DmaSem sig).val := congrArg Fin.val (SemLoc.dma.inj h)
      rw [(csem_dma_val k).1, (csem_dma_val k').2] at h1
      omega
    · have h1 : ((recvS k.val).sem : DmaSem sig).val = ((sendS k'.val).sem : DmaSem sig).val := congrArg Fin.val (SemLoc.dma.inj h)
      rw [(csem_dma_val k).2, (csem_dma_val k').1] at h1
      omega
    · have h1 : ((recvS k.val).sem : DmaSem sig).val = ((recvS k'.val).sem : DmaSem sig).val := congrArg Fin.val (SemLoc.dma.inj h)
      rw [(csem_dma_val k).2, (csem_dma_val k').2] at h1
      exact Prod.ext (Fin.ext (show k.val = k'.val by omega)) rfl
  disj := by
    rintro ⟨k, _ | _⟩ w s h
    · have h1 : ((sendS k.val).sem : DmaSem sig).val = ((cfg0.spec w).sem s).val := congrArg Fin.val (SemLoc.dma.inj h)
      have := stage_sem_le w s
      rw [(csem_dma_val k).1] at h1
      omega
    · have h1 : ((recvS k.val).sem : DmaSem sig).val = ((cfg0.spec w).sem s).val := congrArg Fin.val (SemLoc.dma.inj h)
      have := stage_sem_le w s
      rw [(csem_dma_val k).2] at h1
      omega

theorem share_eq (c : Dev nD) (w : Fin cfg0.W) : (dats m ρ 0 c).share w = fullShare := by unfold Dat.share; split <;> rfl

theorem csem_injective : Function.Injective (csem : CK → SemLoc sig) := by
  intro a b h
  rcases a with _ | k | k <;> rcases b with _ | k' | k'
  · rfl
  · cases h
  · cases h
  · cases h
  · have h1 : ((sendS k.val).sem : DmaSem sig).val = ((sendS k'.val).sem : DmaSem sig).val := congrArg Fin.val (SemLoc.dma.inj h)
    rw [(csem_dma_val k).1, (csem_dma_val k').1] at h1
    exact congrArg CK.send (Fin.ext (by omega))
  · have h1 : ((sendS k.val).sem : DmaSem sig).val = ((recvS k'.val).sem : DmaSem sig).val := congrArg Fin.val (SemLoc.dma.inj h)
    have := k.isLt
    rw [(csem_dma_val k).1, (csem_dma_val k').2] at h1
    omega
  · cases h
  · have h1 : ((recvS k.val).sem : DmaSem sig).val = ((sendS k'.val).sem : DmaSem sig).val := congrArg Fin.val (SemLoc.dma.inj h)
    have := k'.isLt
    rw [(csem_dma_val k).2, (csem_dma_val k').1] at h1
    omega
  · have h1 : ((recvS k.val).sem : DmaSem sig).val = ((recvS k'.val).sem : DmaSem sig).val := congrArg Fin.val (SemLoc.dma.inj h)
    rw [(csem_dma_val k).2, (csem_dma_val k').2] at h1
    exact congrArg CK.recv (Fin.ext (by omega))

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

/-- The duty tokens as minted, per device and offset `j + 1`: unit `j + 1` of its barrier cell, the one duty of its
    departure cell and of its arrival cell for copy `j + 1`. -/
abbrev tokOf (x : Dev nD × Fin 31 × Fin 3) : GSem nD τ sig × ℕ × Fin 32 := match x.2.2 with
  | 0 => (barCell x.1, 0, fk (x.2.1.val + 1))
  | 1 => (sendCell x.1 (x.2.1.val + 1), 0, 0)
  | 2 => (recvCell x.1 (x.2.1.val + 1), 0, 0)

theorem csem_j_val (j : Fin 31) : ((sendS (j.val + 1)).sem : DmaSem sig).val = 3 + j.val ∧ ((recvS (j.val + 1)).sem : DmaSem sig).val = 35 + j.val := by
  have := j.isLt
  rw [sendS_val, recvS_val, Nat.mod_eq_of_lt (by omega)]; exact ⟨by omega, by omega⟩

theorem tokOf_injective : Function.Injective (tokOf : Dev nD × Fin 31 × Fin 3 → GSem nD τ sig × ℕ × Fin 32) := by
  rintro ⟨c, j, t⟩ ⟨c', j', t'⟩ h
  have h1 : c = c' := by
    have := congrArg (fun x : GSem nD τ sig × ℕ × Fin 32 => x.1.1.1) h
    fin_cases t <;> fin_cases t' <;> exact this
  subst h1
  have hs : (tokOf (c, j, t)).1.2 = (tokOf (c, j', t')).1.2 := congrArg (fun x : GSem nD τ sig × ℕ × Fin 32 => x.1.2) h
  have hd : (tokOf (c, j, t)).2.2 = (tokOf (c, j', t')).2.2 := congrArg (fun x : GSem nD τ sig × ℕ × Fin 32 => x.2.2) h
  have hj := j.isLt; have hj' := j'.isLt
  fin_cases t <;> fin_cases t'
  · have h2 : (fk (j.val + 1)).val = (fk (j'.val + 1)).val := congrArg Fin.val hd
    have h3 : (j.val + 1) % 32 = (j'.val + 1) % 32 := h2
    rw [Nat.mod_eq_of_lt (by omega), Nat.mod_eq_of_lt (by omega)] at h3
    rw [show j = j' from Fin.ext (by omega)]
  · cases hs
  · cases hs
  · cases hs
  · have h2 : ((sendS (j.val + 1)).sem : DmaSem sig).val = ((sendS (j'.val + 1)).sem : DmaSem sig).val := congrArg Fin.val (SemLoc.dma.inj hs)
    rw [(csem_j_val j).1, (csem_j_val j').1] at h2
    rw [show j = j' from Fin.ext (by omega)]
  · have h2 : ((sendS (j.val + 1)).sem : DmaSem sig).val = ((recvS (j'.val + 1)).sem : DmaSem sig).val := congrArg Fin.val (SemLoc.dma.inj hs)
    rw [(csem_j_val j).1, (csem_j_val j').2] at h2
    omega
  · cases hs
  · have h2 : ((recvS (j.val + 1)).sem : DmaSem sig).val = ((sendS (j'.val + 1)).sem : DmaSem sig).val := congrArg Fin.val (SemLoc.dma.inj hs)
    rw [(csem_j_val j).2, (csem_j_val j').1] at h2
    omega
  · have h2 : ((recvS (j.val + 1)).sem : DmaSem sig).val = ((recvS (j'.val + 1)).sem : DmaSem sig).val := congrArg Fin.val (SemLoc.dma.inj hs)
    rw [(csem_j_val j).2, (csem_j_val j').2] at h2
    rw [show j = j' from Fin.ext (by omega)]
def ringToks : Finset (GSem nD τ sig × ℕ × Fin 32) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def tokRow (c : Dev nD) (j : Fin 31) : sProp 𝕄 :=
  iprop(dutyTok ER (barCell c) 0 (fk (j.val + 1)) ∗ dutyTok ER (sendCell c (j.val + 1)) 0 0 ∗ dutyTok ER (recvCell c (j.val + 1)) 0 0)
def toks (c : Dev nD) : sProp 𝕄 := bigSep Finset.univ (tokRow (F := F) c)

/-- What the launch element deals device `c`. -/
def G (c : Dev nD) : sProp 𝕄 :=
  iprop((bigSep Finset.univ fun k : CK => roundState ER (Rd m ρ) (kcell (c, k)) 0)
    ∗ (bigSep Finset.univ fun k : CK => iprop(atPos ER (kcell (c, k)) 0 ∅ 0 ∗ reached ER (kcell (c, k)) 0)) ∗ toks c)

/-- What the global step makes of it. -/
def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks tokRow
    rw [bigSep_univ_prod]
    exact bigSep_congr fun j _ => by rw [bigSep_fin3']; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The departure and arrival semaphores are the kernel's own 64; -/
theorem ownSems0_eq (c : Dev nD) : (Pipeline.ownSems0 (Ix := Unit) (Name := ℕ) (U := UU) (Lvl := ℕ) (Val := Elt F) (τ := τ) osem c : sProp 𝕄)
    = iprop((bigSep Finset.univ fun k : Fin 32 => semVal (kcell (c, .send k)) 0) ∗ bigSep Finset.univ fun k : Fin 32 => semVal (kcell (c, .recv k)) 0) := by
  unfold Pipeline.ownSems0
  rw [bigSep_univ_prod, ← bigSep_sep']
  exact bigSep_congr fun k _ => by rw [bigSep_bool]
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt round the ring -/

/-- For each offset `k`, `c ↦ dv c k` is a permutation of the devices. -/
def ring (k : ℕ) (hk : k ≤ 32) : Dev nD ≃ Dev nD := ⟨fun c => dv c k, fun c => dv c (32 - k), fun c => dv_back c k hk, fun c => dv_back' c k hk⟩

/-- What device `c` pays with for offset `j + 1`: unit `j + 1` of the barrier cell of the device `j + 1` places on, the
    departure duty of its own copy, the arrival duty at the device the copy lands on. -/
def payRow (c : Dev nD) (j : Fin 31) : sProp 𝕄 :=
  iprop(dutyTok ER (barCell (dv c (j.val + 1))) 0 (fk (j.val + 1)) ∗ dutyTok ER (sendCell c (j.val + 1)) 0 0
    ∗ dutyTok ER (recvCell (dv c (j.val + 1)) (j.val + 1)) 0 0)
def payToks (c : Dev nD) : sProp 𝕄 := bigSep Finset.univ (payRow (F := F) c)

theorem row_around (j : Fin 31) : (bigSep Finset.univ fun c : Dev nD => (tokRow c j : sProp 𝕄)) = bigSep Finset.univ fun c : Dev nD => payRow c j := by
  have hj : j.val + 1 ≤ 32 := by have := j.isLt; omega
  unfold tokRow payRow
  rw [bigSep_sep', bigSep_sep', bigSep_sep', bigSep_sep',
    bigSep_univ_equiv (ring (j.val + 1) hj) (fun c : Dev nD => (dutyTok ER (barCell c) 0 (fk (j.val + 1)) : sProp 𝕄)),
    bigSep_univ_equiv (ring (j.val + 1) hj) (fun c : Dev nD => (dutyTok ER (recvCell c (j.val + 1)) 0 0 : sProp 𝕄))]
  rfl

theorem toks_around : (bigSep Finset.univ fun c : Dev nD => (toks c : sProp 𝕄)) = bigSep Finset.univ fun c : Dev nD => payToks c :=
  (bigSep_univ_comm (fun (c : Dev nD) (j : Fin 31) => (tokRow c j : sProp 𝕄))).trans
    ((bigSep_congr fun j _ => row_around j).trans (bigSep_univ_comm (fun (c : Dev nD) (j : Fin 31) => (payRow c j : sProp 𝕄))).symm)

theorem linear_intro (c : Dev nD) :
    iprop((bigSep Finset.univ fun k : CK => (atPos ER (kcell (c, k)) 0 ∅ 0 : sProp 𝕄)) ∗ payToks c) ⊢ linear c := by
  have e1 : fromTo (fun k => (dutyTok ER (barCell (dv c k)) 0 (fk k) : sProp 𝕄)) 1 31
      = bigSep Finset.univ fun j : Fin 31 => dutyTok ER (barCell (dv c (j.val + 1))) 0 (fk (j.val + 1)) := fromTo_one _ _
  have e2 : fromTo (cpyRes (F := F) c) 1 31
      = iprop((bigSep Finset.univ fun j : Fin 31 => dutyTok ER (sendCell c (j.val + 1)) 0 0)
          ∗ bigSep Finset.univ fun j : Fin 31 => dutyTok ER (recvCell (dv c (j.val + 1)) (j.val + 1)) 0 0) := by
    rw [fromTo_one]; unfold cpyRes; exact bigSep_sep' _ _ _
  have e3 : fromTo (fun k => (iprop(atPos ER (sendCell c k) 0 ∅ 0 ∗ atPos ER (recvCell c k) 0 ∅ 0) : sProp 𝕄)) 1 31
      = iprop((bigSep Finset.univ fun j : Fin 31 => atPos ER (sendCell c (j.val + 1)) 0 ∅ 0)
          ∗ bigSep Finset.univ fun j : Fin 31 => atPos ER (recvCell c (j.val + 1)) 0 ∅ 0) := by
    rw [fromTo_one]; exact bigSep_sep' _ _ _
  have e4 : payToks (F := F) c = iprop((bigSep Finset.univ fun j : Fin 31 => dutyTok ER (barCell (dv c (j.val + 1))) 0 (fk (j.val + 1)))
      ∗ (bigSep Finset.univ fun j : Fin 31 => dutyTok ER (sendCell c (j.val + 1)) 0 0)
      ∗ bigSep Finset.univ fun j : Fin 31 => dutyTok ER (recvCell (dv c (j.val + 1)) (j.val + 1)) 0 0) := by
    unfold payToks payRow; rw [bigSep_sep', bigSep_sep']
  have e5 : (bigSep Finset.univ fun k : CK => (atPos ER (kcell (c, k)) 0 ∅ 0 : sProp 𝕄))
      = iprop(atPos ER (barCell c) 0 ∅ 0
          ∗ (atPos ER (sendCell c 0) 0 ∅ 0 ∗ bigSep Finset.univ fun j : Fin 31 => atPos ER (sendCell c (j.val + 1)) 0 ∅ 0)
          ∗ (atPos ER (recvCell c 0) 0 ∅ 0 ∗ bigSep Finset.univ fun j : Fin 31 => atPos ER (recvCell c (j.val + 1)) 0 ∅ 0)) := by
    rw [bigSep_CK, bigSep_fin32 (fun k : Fin 32 => (atPos ER (kcell (c, .send k)) 0 ∅ 0 : sProp 𝕄)),
      bigSep_fin32 (fun k : Fin 32 => (atPos ER (kcell (c, .recv k)) 0 ∅ 0 : sProp 𝕄))]
    rfl
  unfold linear
  rw [e1, e2, e3, e4, e5]
  iintro ⟨⟨HB, ⟨HS0, HS⟩, HR0, HR⟩, HtB, HtS, HtR⟩
  isplitl [HB]; · iexact HB
  isplitl [HS0]; · iexact HS0
  isplitl [HR0]; · iexact HR0
  isplitl [HtB]; · iexact HtB
  isplitl [HtS HtR]
  · isplitl [HtS] <;> iassumption
  isplitl [HS] <;> iassumption

theorem ghost_intro (K : Dev nD × CK → ℕ) (c : Dev nD) : iprop(records m ρ K ∗ linear c) ⊢ G' m ρ c := by
  unfold G' ghost
  iintro H; iexists K; iexact H

theorem regroup :
    (bigSep Finset.univ fun c : Dev nD => iprop((bigSep Finset.univ fun k => iprop(∃ κ : ℕ, cellInv ER (Rd m ρ) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (Rd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m ρ) κ (kcell ck) : sProp 𝕄))) $$ HI
  icases HK with ⟨%K, #HI⟩
  ihave Htk := (Entails.of_eq (toks_around (F := F))) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => linear_intro c))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The theorem's side conditions -/

theorem g_set : (gM : Memref sig .tc .vmem S32x1x512 .f32).view.set = Finset.univ := View.set_whole _
theorem gPts_whole (c : Dev nD) (f : Buf (Elt F) ((c : Thread nD τ).loc cc0_scratch0)) :
    gPts c f = (((c : Thread nD τ).loc cc0_scratch0) ↦{fullShare} f : sProp 𝕄) := by unfold gPts; rw [g_set]

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; rw [gPts_whole]; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  rw [fromTo_zero', bigSep_sep']
  iintro ⟨Hr, HzS, HzV⟩
  isplitr; · iempintro
  isplitl [HzS HzV]
  · isplitl [HzS] <;> iassumption
  iexists (gath m ρ c); rw [← gPts_whole]; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of 32 devices, for any float values, from any memory with zero counters: every weakly fair
    execution terminates, and every final state has each window's array at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The `x` array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the sum of the 32 rows: its one block is the whole array, written back once. -/
theorem finalA_out (c : Dev nD) : finalA m ρ c (1 : Fin 2) = outAt m ρ c := by
  have hz : (fun a => (win0_1.index t₀) a * main_v1.ty.shape.size a) = fun _ => 0 := funext fun a => by fin_cases a <;> decide
  have hr := fun f => Memref.read_access_unit_zero (Elt F) main_v1 hz (fun a => by fin_cases a <;> decide) f
  unfold finalA
  rw [show cfg0.N = (t₀ : Fin cfg0.N).val + 1 from rfl, (dats (F := F) m ρ 0 c).arrAt_succ (1 : Fin 2) t₀, flush0_1 t₀, if_pos rfl]
  refine (hr _).symm.trans ((View.read_write_univ _ _).trans ?_)
  rfl

/-- From any memory with zero counters, every weakly fair execution of the 32 devices terminates, nothing faults, every
    device's result array ends holding the sum of its 32 rows, and every device's block of `x` is unchanged. -/
theorem run_out : θ_run defs (onTc (τ := τ) (main (F := F))) ⟨m, fun _ => 0, ρ⟩ (fun r => ∀ c : Dev nD,
    r.2.mem ((c.tc : Thread nD τ).loc main_v1) = outAt m ρ c
    ∧ r.2.mem ((c.tc : Thread nD τ).loc main_arg0) = m ((c.tc : Thread nD τ).loc main_arg0)) := by
  refine (θ_run defs _ _).mono (fun r h c => ?_) (run_main m ρ)
  exact ⟨(h c (1 : Fin 2)).trans (finalA_out m ρ c), (h c (0 : Fin 2)).trans (finalA_x m ρ c)⟩

/-- info: 'Cert.KernelProof.run_out' depends on axioms: [propext, Classical.choice, Quot.sound] -/
#guard_msgs in #print axioms run_out

end Cert.KernelProof

end
-- ==== Proof.Value.lean ====
/-
  The value: at the exact instance the sum over a device's 32 rows of column sums, each row the column sums of one
  device's 1024 rows, is the column sum of all 32768 rows, whatever the order; and the reference's run.
-/
import proofs.«901070_g7700000000001071_dist_sum_ax0_shard0_i_m1024_n512_v7x_i32_bf16_1_alg».proof.Defs
import proofs.«901070_g7700000000001071_dist_sum_ax0_shard0_i_m1024_n512_v7x_i32_bf16_1_alg».proof.Proof.Proto
import proofs.«901070_g7700000000001071_dist_sum_ax0_shard0_i_m1024_n512_v7x_i32_bf16_1_alg».proof.Proof.Gen.ReferenceIdeal.Run
import proofs.«901070_g7700000000001071_dist_sum_ax0_shard0_i_m1024_n512_v7x_i32_bf16_1_alg».proof.Proof.Gen.ReferenceIdeal.Read
import proofs.«901070_g7700000000001071_dist_sum_ax0_shard0_i_m1024_n512_v7x_i32_bf16_1_alg».proof.Proof.Gen.ReferenceIdeal
import proofs.«901070_g7700000000001071_dist_sum_ax0_shard0_i_m1024_n512_v7x_i32_bf16_1_alg».proof.Proof.Gen.Pre_finite_inputs_Kernel
import proofs.«901070_g7700000000001071_dist_sum_ax0_shard0_i_m1024_n512_v7x_i32_bf16_1_alg».proof.Proof.Gen.Pre_finite_inputs_ReferenceIdeal
import Idealize.ShloMosaic.Lib.ValueIdx
import Idealize.ShloMosaic.Lib.Pipeline.Value
import Idealize.ShloMosaic.PureOps.Ideal.Laws
import Idealize.ShloMosaic.Lib.StableHlo.Run
import Idealize.ShloMosaic.Lib.Layout

noncomputable section

namespace Cert.ValueProof

open Idealize.ShloMosaic Idealize.ShloMosaic.TcCoe Idealize.SL.Sem
open Idealize.ShloMosaic.ValueIdx

/-! ## Sums over the rows of the whole array -/

/-- Row `1024 a + b` of the whole array is row `b` of block `a`. -/
def rowEquiv : Fin 32 × Fin 1024 ≃ Fin 32768 where
  toFun p := ⟨p.1.val * 1024 + p.2.val, by have := p.1.isLt; have := p.2.isLt; omega⟩
  invFun R := (⟨R.val / 1024, by have := R.isLt; omega⟩, ⟨R.val % 1024, Nat.mod_lt _ (by decide)⟩)
  left_inv p := by
    obtain ⟨⟨a, ha⟩, ⟨b, hb⟩⟩ := p
    apply Prod.ext <;> apply Fin.ext <;> simp only <;> omega
  right_inv R := by apply Fin.ext; simp only; omega

/-- Walking the ring backwards from `c`: step `k` is at `(c - k) mod 32`. Doing it twice comes back, so it
    is a bijection of the 32 places. -/
def back (c : Fin 32) : Fin 32 ≃ Fin 32 where
  toFun k := ⟨(c.val + (32 - k.val)) % 32, Nat.mod_lt _ (by decide)⟩
  invFun d := ⟨(c.val + (32 - d.val)) % 32, Nat.mod_lt _ (by decide)⟩
  left_inv k := by apply Fin.ext; have := c.isLt; have := k.isLt; simp only; omega
  right_inv k := by apply Fin.ext; have := c.isLt; have := k.isLt; simp only; omega

/-- A sum over all 32768 rows, taken block by block, the 32 blocks in any order: addition in a commutative
    monoid does not care. -/
theorem sum_rows {M : Type*} [AddCommMonoid M] (σ : Fin 32 ≃ Fin 32) (f : Fin 32768 → M) :
    ∑ R : Fin 32768, f R = ∑ k : Fin 32, ∑ r : Fin 1024, f (rowEquiv (σ k, r)) := by
  rw [← Equiv.sum_comp rowEquiv f, Fintype.sum_prod_type, ← Equiv.sum_comp σ]

/-! ## The kernel's result at an index -/

section Kernel
open Cert.KernelIdeal Cert.KernelIdeal.Gen Cert.KernelIdealProof

variable (m : (ℓ : Loc nD τ sig) → Buf (Elt Ideal) ℓ) (ρ : Dev nD → PrngReg)

/-- The region's window on the argument is the whole array, so the block a device stages is its argument buffer. -/
theorem xstg_eq (c : Dev nD) : xstg m ρ c = m ((c : Thread nD τ).loc main_arg0) := by
  unfold xstg Cert.KernelIdealProof.s₀
  exact Memref.read_access_unit_zero (Elt Ideal) main_arg0 (funext fun a => Nat.zero_mul _) _ _

/-- A sum over the rows of an `n × 512` array, at column `q`, is the sum of the column's entries. -/
theorem colsum (n : ℕ) (v : FVec Ideal ⟨2, ![n, 512]⟩ .f32) (h : Shape.Reduces ⟨2, ![n, 512]⟩ [0] ⟨1, ![512]⟩)
    (hφ : FKind.Formats .f32) (hacc : (0x00000000#32 : BitVec 32) = FKind.add.neutral .f32 hφ) (q : Fin 512) :
    multiReduction .add [0] ⟨1, ![512]⟩ v 0x00000000#32 h hφ hacc (ix1 q) = ∑ r : Fin n, v (ix2 r q) := by
  rw [Ideal.multiReduction_add_single]
  refine Finset.sum_congr rfl fun r _ => congrArg v ?_
  funext a; match a with | ⟨0, _⟩ => rfl | ⟨1, _⟩ => rfl

/-- The column sums of a 1024 × 512 block, stored as a 1 × 1 × 512 row. -/
theorem pay2_apply (v : Vec Ideal S1024x512 .f32) (q : Fin 512) :
    k0_pay2 (F := Ideal) v (ix3 0 0 q) = ∑ r : Fin 1024, v (ix2 r q) := by
  unfold k0_pay2
  rw [shapeCast_apply _ _ (ix3 0 0 q) (ix1 q) (by
    rw [Shape.rowMajor_val_one, Shape.rowMajor_val_three]; show q.val = (0 * 1 + 0) * 512 + q.val; omega)]
  refine (colsum 1024 _ _ _ _ q).trans ?_
  rw [shapeCast_self]

/-- The sum of the 32 rows of a 32 × 1 × 512 buffer, stored as a 1 × 512 row. -/
theorem pay1_apply (v : Vec Ideal S32x1x512 .f32) (q : Fin 512) :
    k0_pay1 (F := Ideal) v (ix2 0 q) = ∑ k : Fin 32, v (ix3 k 0 q) := by
  unfold k0_pay1
  rw [shapeCast_apply _ _ (ix2 0 q) (ix1 q) (by
    rw [Shape.rowMajor_val_one, Shape.rowMajor_val_two]; show q.val = 0 * 512 + q.val; omega)]
  refine (colsum 32 _ _ _ _ q).trans ?_
  refine Finset.sum_congr rfl fun k _ => ?_
  exact shapeCast_apply _ _ (ix2 k q) (ix3 k 0 q) (by
    rw [Shape.rowMajor_val_three, Shape.rowMajor_val_two]; show (k.val * 1 + 0) * 512 + q.val = k.val * 512 + q.val; omega)

/-- Device `c`'s result at column `q`: over the 32 rows `k` of its buffer, the column sum of the block of the
    device `k` places before `c` on the ring. -/
theorem outAt_apply (c : Dev nD) (q : Fin 512) :
    (show Vec Ideal S1x512 .f32 from outAt m ρ c) (ix2 0 q)
      = ∑ k : Fin 32, ∑ r : Fin 1024, (show EReal from m (((dv c (32 - k.val)) : Thread nD τ).loc main_arg0) (ix2 r q)) := by
  show k0_pay1 (F := Ideal) (gath m ρ c) (ix2 0 q) = _
  rw [pay1_apply]
  refine Finset.sum_congr rfl fun k _ => ?_
  show k0_pay2 (xstg m ρ (dv c (32 - k.val))) (ix3 0 0 q) = _
  rw [pay2_apply, xstg_eq]

end Kernel

/-! ## The reference's result at an index -/

section Reference
open Cert.ReferenceIdeal Cert.ReferenceIdeal.Gen Cert.ReferenceIdeal.Read

/-- The reference at column `q`: zero plus the sum of the column's 32768 entries. -/
theorem ref_apply (X : Vec Ideal S32768x512 .f32) (q : Fin 512) :
    (show Vec Ideal S1x512 .f32 from val_main_v1 (F := Ideal) X) (ix2 0 q) = ∑ R : Fin 32768, X (ix2 R q) := by
  show val_main_v1 (F := Ideal) X (ix2 0 q) = _
  rw [val_main_v1_apply, val_main_v0_apply, val_main_cst_apply]
  show Ideal.ofBits .f32 0x00000000#32 + _ = _
  rw [Ideal.ofBits_zero_f32, zero_add]
  refine Finset.sum_congr rfl fun R _ => congrArg X ?_
  funext a; match a with | ⟨0, _⟩ => rfl | ⟨1, _⟩ => rfl

end Reference

/-! ## The two agree -/

/-- When every device's argument buffer is its block of rows of the whole array `X`, every device's result is the
    reference's: row `k` of device `c`'s buffer sums block `(c - k) mod 32`, the blocks `(c - k) mod 32` are
    all 32 blocks once each, and row `r` of block `a` is row `1024 a + r` of `X`. -/
theorem out_eq (m : (ℓ : Loc Cert.KernelIdeal.nD Cert.KernelIdeal.τ Cert.KernelIdeal.sig) → Buf (Elt Ideal) ℓ)
    (ρ : Dev Cert.KernelIdeal.nD → PrngReg) (X : Vec Ideal ⟨2, ![32768, 512]⟩ .f32)
    (hagree : ∀ c : Dev Cert.KernelIdeal.nD,
      m ((c.tc : Thread Cert.KernelIdeal.nD Cert.KernelIdeal.τ).loc Cert.KernelIdeal.main_arg0)
        = Layout.block ⟨2, ![1024, 512]⟩ ⟨2, ![32768, 512]⟩ 0 32 c X)
    (c : Dev Cert.KernelIdeal.nD) :
    (show Vec Ideal ⟨2, ![1, 512]⟩ .f32 from Cert.KernelIdealProof.outAt m ρ c)
      = Cert.ReferenceIdeal.Read.val_main_v1 (F := Ideal) X := by
  funext j
  obtain ⟨q, rfl⟩ : ∃ q : Fin 512, j = ix2 0 q := by
    have h0 : (show Fin 1 from j 0) = 0 := Subsingleton.elim _ _
    refine ⟨j 1, (eq_ix2 j).trans ?_⟩
    funext a; match a with | ⟨0, _⟩ => exact h0 | ⟨1, _⟩ => rfl
  refine (outAt_apply m ρ c q).trans (Eq.trans ?_ (ref_apply X q).symm)
  rw [sum_rows (back c) fun R => X (ix2 R q)]
  refine Finset.sum_congr rfl fun k _ => Finset.sum_congr rfl fun r _ => ?_
  rw [hagree]
  show X _ = X _
  refine congrArg X ?_
  funext a; match a with | ⟨0, _⟩ => rfl | ⟨1, _⟩ => rfl

/-- The reference runs, and leaves its argument alone. -/
theorem frame_ref : Cert.frame_ReferenceIdeal (hReferenceIdeal := Cert.ReferenceIdeal.Gen.facts) (hPre_finite_inputs_ReferenceIdeal := Cert.Pre_finite_inputs_ReferenceIdeal.Gen.facts) :=
  fun m ρ _ => (θ_run Cert.ReferenceIdeal.defs _ _).mono (fun _ h c => (h c).2) (Cert.ReferenceIdeal.Value.run (F := Ideal) m ρ)

/-- From the kernel's run with its result named on every device: both programs end with the same values. -/
theorem algebraic_of_run
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v1) = Cert.KernelIdealProof.outAt m ρ c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))) :
    Cert.algebraic_KernelIdeal_ReferenceIdeal (hKernelIdeal := Cert.KernelIdeal.Gen.facts) (hReferenceIdeal := Cert.ReferenceIdeal.Gen.facts) (hPre_finite_inputs_Kernel := Cert.Pre_finite_inputs_Kernel.Gen.facts) := by
  intro m g m' g' _ hagree
  refine ⟨Cert.ReferenceIdeal.Read.val_main_v1 (F := Ideal)
    (m' (((0 : Dev Cert.ReferenceIdeal.nD).tc : Thread Cert.ReferenceIdeal.nD Cert.ReferenceIdeal.τ).loc Cert.ReferenceIdeal.main_arg0)), ?_, ?_⟩
  · exact (θ_run (Cert.KernelIdeal.defs (F := Ideal)) _ _).mono
      (fun _ h c => ⟨((h c).1).trans (out_eq m g _ hagree c), (h c).2⟩) (hrun m g)
  · exact (θ_run (Cert.ReferenceIdeal.defs (F := Ideal)) _ _).mono
      (fun _ h => ⟨((h 0).1).trans (Cert.ReferenceIdeal.Read.val_main_v1_eq _), (h 0).2⟩)
      (Cert.ReferenceIdeal.Value.run (F := Ideal) m' g')

/-- info: 'Cert.ValueProof.frame_ref' depends on axioms: [propext, Classical.choice, Quot.sound] -/
#guard_msgs in #print axioms frame_ref
/-- info: 'Cert.ValueProof.algebraic_of_run' depends on axioms: [propext, Classical.choice, Quot.sound] -/
#guard_msgs in #print axioms algebraic_of_run

end Cert.ValueProof

end
-- ==== Proof.lean ====
/-
  Column sums of a 32768 × 512 array whose rows are dealt to 32 devices, 1024 consecutive rows each.

  What is computed. Every device must end with the 1 × 512 row of column sums of ALL 32768 rows: what one device
  computes from the whole array by summing over its rows.

  The protocol. A device adds up its own 1024 rows into row 0 of a buffer of 32 rows. It then adds one unit to the
  barrier counter of each of the 31 other devices and waits until its own has received 31: every device is then
  known to be running, so each one's buffer may be written from outside. It copies its row 0 into row k of the
  device k places further round the ring, k = 1 … 31, every copy with a departure and an arrival counter of its
  own; it waits for its 31 departures and its 31 arrivals, and adds up the 32 rows it then holds.

  Why every execution ends well. Each counter's units are accounted for in one round: who pays a unit, what it is
  worth, and what it hands the device that waits — a barrier unit the right to write into the payer's row, an
  arrival that row filled with the sender's sums, a departure the lent share of row 0 back. A device waits only on
  a counter ranked below everything it still owes (barrier counters below arrival counters), so some device can
  always take a step; and a row is read only after the one copy into it has landed.

  Why the sums agree. Row k of device c's buffer ends holding the column sums of the block of the device k places
  before c on the ring. As k runs through 0 … 31 these are all 32 blocks, each once, and row r of block a is row
  1024 a + r of the whole array; addition of extended reals is commutative and associative, so the sum of the 32
  partial sums is the sum over all 32768 rows, the same on every device.

  The five statements below: the kernel at machine words and at exact arithmetic runs and leaves its argument
  alone; so does the one-device computation; the exact-arithmetic text is the kernel's own, nothing rewritten; and
  at exact arithmetic the two end with equal results.
-/
import proofs.«901070_g7700000000001071_dist_sum_ax0_shard0_i_m1024_n512_v7x_i32_bf16_1_alg».proof.Defs
import proofs.«901070_g7700000000001071_dist_sum_ax0_shard0_i_m1024_n512_v7x_i32_bf16_1_alg».proof.Proof.Gen.Kernel
import proofs.«901070_g7700000000001071_dist_sum_ax0_shard0_i_m1024_n512_v7x_i32_bf16_1_alg».proof.Proof.Gen.Kernel.Skeleton
import proofs.«901070_g7700000000001071_dist_sum_ax0_shard0_i_m1024_n512_v7x_i32_bf16_1_alg».proof.Proof.Gen.Kernel.Launch
import proofs.«901070_g7700000000001071_dist_sum_ax0_shard0_i_m1024_n512_v7x_i32_bf16_1_alg».proof.Proof.Gen.Kernel.Points
import proofs.«901070_g7700000000001071_dist_sum_ax0_shard0_i_m1024_n512_v7x_i32_bf16_1_alg».proof.Proof.Gen.Kernel.Frame
import proofs.«901070_g7700000000001071_dist_sum_ax0_shard0_i_m1024_n512_v7x_i32_bf16_1_alg».proof.Proof.Gen.KernelIdeal
import proofs.«901070_g7700000000001071_dist_sum_ax0_shard0_i_m1024_n512_v7x_i32_bf16_1_alg».proof.Proof.Gen.KernelIdeal.Skeleton
import proofs.«901070_g7700000000001071_dist_sum_ax0_shard0_i_m1024_n512_v7x_i32_bf16_1_alg».proof.Proof.Gen.KernelIdeal.Launch
import proofs.«901070_g7700000000001071_dist_sum_ax0_shard0_i_m1024_n512_v7x_i32_bf16_1_alg».proof.Proof.Gen.KernelIdeal.Points
import proofs.«901070_g7700000000001071_dist_sum_ax0_shard0_i_m1024_n512_v7x_i32_bf16_1_alg».proof.Proof.Gen.KernelIdeal.Frame
import proofs.«901070_g7700000000001071_dist_sum_ax0_shard0_i_m1024_n512_v7x_i32_bf16_1_alg».proof.Proof.Gen.ReferenceIdeal
import proofs.«901070_g7700000000001071_dist_sum_ax0_shard0_i_m1024_n512_v7x_i32_bf16_1_alg».proof.Proof.Gen.Pre_finite_inputs_Kernel
import proofs.«901070_g7700000000001071_dist_sum_ax0_shard0_i_m1024_n512_v7x_i32_bf16_1_alg».proof.Proof.Gen.Pre_finite_inputs_ReferenceIdeal
import proofs.«901070_g7700000000001071_dist_sum_ax0_shard0_i_m1024_n512_v7x_i32_bf16_1_alg».proof.Proof.Launch
import proofs.«901070_g7700000000001071_dist_sum_ax0_shard0_i_m1024_n512_v7x_i32_bf16_1_alg».proof.Proof.KLaunch
import proofs.«901070_g7700000000001071_dist_sum_ax0_shard0_i_m1024_n512_v7x_i32_bf16_1_alg».proof.Proof.Value
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  fun m ρ _ => (θ_run _ _ _).mono (fun _ h c => (h c).2) (Cert.KernelProof.run_out (F := Bits) m ρ),
  fun m ρ _ => (θ_run _ _ _).mono (fun _ h c => (h c).2) (Cert.KernelIdealProof.run_out (F := Ideal) m ρ),
  Cert.ValueProof.frame_ref,
  trivial,
  Cert.ValueProof.algebraic_of_run fun m ρ => Cert.KernelIdealProof.run_out (F := Ideal) m ρ⟩

/-- info: 'Cert.Proof.claim' depends on axioms: [propext, Classical.choice, Quot.sound] -/
#guard_msgs in #print axioms claim

end Cert.Proof

end
